-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v11)) (v1 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_v33) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_v54) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S256 : Shape := ⟨1, ![256]⟩
abbrev S128x128 : Shape := ⟨2, ![128, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_arg15 : FVec F S128 .f32) (main_arg16 : FVec F S128x1 .f32) (main_arg17 : FVec F S1 .f32) (main_v63 : IVec S_ 1) (main_v67 : IVec S_ 1) : IVec S_ 1 :=
  let main_v68 : IVec S_ 1 := andi main_v63 main_v67
  let main_v69 : FVec F S128 .f32 := Host.absf main_arg15
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128x1 .f32 := Host.absf main_arg16
  let main_cst_28 : FVec F S_ .f32 := constant S_ .f32 0x7F800000#32
  let main_v75 : FVec F S128x1 .f32 := broadcastInDim S128x1 ![] bcast_S_S128x1 main_cst_28
  let main_v76 : IVec S128x1 1 := cmpf .olt main_v74 main_v75
  let main_c_29 : IVec S_ 1 := constantI S_ 1 1#1
  let main_v77 : IVec S_ 1 := (fun x v => Host.reduce IntOp.andi x v reducesTo_S128x1_S_d0_1 h_S_) main_v76 main_c_29
  let main_v78 : IVec S_ 1 := andi main_v73 main_v77
  let main_v79 : FVec F S1 .f32 := Host.absf main_arg17
  let main_cst_30 : FVec F S_ .f32 := constant S_ .f32 0x7F800000#32
  let main_v80 : FVec F S1 .f32 := broadcastInDim S1 ![] bcast_S_S1 main_cst_30
  let main_v81 : IVec S1 1 := cmpf .olt main_v79 main_v80
  let main_c_31 : IVec S_ 1 := constantI S_ 1 1#1
  let main_v82 : IVec S_ 1 := (fun x v => Host.reduce IntOp.andi x v reducesTo_S1_S_d0 h_S_) main_v81 main_c_31
  let main_v83 : IVec S_ 1 := andi main_v78 main_v82
  main_v83

def fn_part3 {F : FTy → Type} [FloatOps F] (main_arg12 : FVec F S128x128 .f32) (main_arg13 : FVec F S128 .f32) (main_arg14 : FVec F S128x128 .f32) (main_arg15 : FVec F S128 .f32) (main_arg16 : FVec F S128x1 .f32) (main_arg17 : FVec F S1 .f32) (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  let main_v54 : FVec F S128x128 .f32 := Host.absf main_arg12
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128 .f32 := Host.absf main_arg13
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128x128 .f32 := Host.absf main_arg14
  let main_cst_24 : FVec F S_ .f32 := constant S_ .f32 0x7F800000#32
  let main_v65 : FVec F S128x128 .f32 := broadcastInDim S128x128 ![] bcast_S_S128x128 main_cst_24
  let main_v66 : IVec S128x128 1 := cmpf .olt main_v64 main_v65
  let main_c_25 : IVec S_ 1 := constantI S_ 1 1#1
  let main_v67 : IVec S_ 1 := (fun x v => Host.reduce IntOp.andi x v reducesTo_S128x128_S_d0_1 h_S_) main_v66 main_c_25
  fn_part4 (F := F) main_arg15 main_arg16 main_arg17 main_v63 main_v67

def fn_part2 {F : FTy → Type} [FloatOps F] (main_arg8 : FVec F S128x128 .f32) (main_arg9 : FVec F S128 .f32) (main_arg10 : FVec F S128x1 .f32) (main_arg11 : FVec F S1 .f32) (main_arg12 : FVec F S128x128 .f32) (main_arg13 : FVec F S128 .f32) (main_arg14 : FVec F S128x128 .f32) (main_arg15 : FVec F S128 .f32) (main_arg16 : FVec F S128x1 .f32) (main_arg17 : FVec F S1 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x1 .f32 := Host.absf main_arg10
  let main_cst_16 : FVec F S_ .f32 := constant S_ .f32 0x7F800000#32
  let main_v45 : FVec F S128x1 .f32 := broadcastInDim S128x1 ![] bcast_S_S128x1 main_cst_16
  let main_v46 : IVec S128x1 1 := cmpf .olt main_v44 main_v45
  let main_c_17 : IVec S_ 1 := constantI S_ 1 1#1
  let main_v47 : IVec S_ 1 := (fun x v => Host.reduce IntOp.andi x v reducesTo_S128x1_S_d0_1 h_S_) main_v46 main_c_17
  let main_v48 : IVec S_ 1 := andi main_v43 main_v47
  let main_v49 : FVec F S1 .f32 := Host.absf main_arg11
  let main_cst_18 : FVec F S_ .f32 := constant S_ .f32 0x7F800000#32
  let main_v50 : FVec F S1 .f32 := broadcastInDim S1 ![] bcast_S_S1 main_cst_18
  fn_part3 (F := F) main_arg12 main_arg13 main_arg14 main_arg15 main_arg16 main_arg17 main_v48 main_v49 main_v50

def fn_part1 {F : FTy → Type} [FloatOps F] (main_arg5 : FVec F S128 .f32) (main_arg6 : FVec F S128x128 .f32) (main_arg7 : FVec F S128 .f32) (main_arg8 : FVec F S128x128 .f32) (main_arg9 : FVec F S128 .f32) (main_arg10 : FVec F S128x1 .f32) (main_arg11 : FVec F S1 .f32) (main_arg12 : FVec F S128x128 .f32) (main_arg13 : FVec F S128 .f32) (main_arg14 : FVec F S128x128 .f32) (main_arg15 : FVec F S128 .f32) (main_arg16 : FVec F S128x1 .f32) (main_arg17 : FVec F S1 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_arg12 main_arg13 main_arg14 main_arg15 main_arg16 main_arg17 main_v33

def fn {F : FTy → Type} [FloatOps F] (main_arg0 : FVec F S50000x128 .f32) (main_arg1 : IVec S256 32) (main_arg2 : FVec F S128x128 .f32) (main_arg3 : FVec F S128 .f32) (main_arg4 : FVec F S128x128 .f32) (main_arg5 : FVec F S128 .f32) (main_arg6 : FVec F S128x128 .f32) (main_arg7 : FVec F S128 .f32) (main_arg8 : FVec F S128x128 .f32) (main_arg9 : FVec F S128 .f32) (main_arg10 : FVec F S128x1 .f32) (main_arg11 : FVec F S1 .f32) (main_arg12 : FVec F S128x128 .f32) (main_arg13 : FVec F S128 .f32) (main_arg14 : FVec F S128x128 .f32) (main_arg15 : FVec F S128 .f32) (main_arg16 : FVec F S128x1 .f32) (main_arg17 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_arg10 main_arg11 main_arg12 main_arg13 main_arg14 main_arg15 main_arg16 main_arg17 main_v13 main_v16
-- ==== Kernel.lean ====
abbrev S50000x128 : Shape := ⟨2, ![50000, 128]⟩
abbrev S256 : Shape := ⟨1, ![256]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x128 : Shape := ⟨2, ![1, 128]⟩
abbrev S1x1 : Shape := ⟨2, ![1, 1]⟩
abbrev S256x50000 : Shape := ⟨2, ![256, 50000]⟩
abbrev S2560x128 : Shape := ⟨2, ![2560, 128]⟩
abbrev S256x2560 : Shape := ⟨2, ![256, 2560]⟩
abbrev S1x2560 : Shape := ⟨2, ![1, 2560]⟩
abbrev S_ : Shape := ⟨0, ![]⟩
abbrev S256x1 : Shape := ⟨2, ![256, 1]⟩
abbrev S256x128 : Shape := ⟨2, ![256, 128]⟩

abbrev nBuf : Space → Nat
  | .hbm => 66
  | .vmem => 14
  | .smem => 0
  | _ => 0

abbrev bufTy : (tb : Table) → Fin (tcTables nBuf tb) → BufTy
  | .hbm, ⟨0, _⟩ => ⟨S50000x128, .f32⟩
  | .hbm, ⟨1, _⟩ => ⟨S256, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x1, .f32⟩
  | .hbm, ⟨11, _⟩ => ⟨S1, .f32⟩
  | .hbm, ⟨12, _⟩ => ⟨S128x128, .f32⟩
  | .hbm, ⟨13, _⟩ => ⟨S128, .f32⟩
  | .hbm, ⟨14, _⟩ => ⟨S128x128, .f32⟩
  | .hbm, ⟨15, _⟩ => ⟨S128, .f32⟩
  | .hbm, ⟨16, _⟩ => ⟨S128x1, .f32⟩
  | .hbm, ⟨17, _⟩ => ⟨S1, .f32⟩
  | .hbm, ⟨18, _⟩ => ⟨S128x128, .bf16⟩
  | .hbm, ⟨19, _⟩ => ⟨S128x128, .bf16⟩
  | .hbm, ⟨20, _⟩ => ⟨S128x128, .bf16⟩
  | .hbm, ⟨21, _⟩ => ⟨S128x128, .bf16⟩
  | .hbm, ⟨22, _⟩ => ⟨S1x128, .f32⟩
  | .hbm, ⟨23, _⟩ => ⟨S1x128, .bf16⟩
  | .hbm, ⟨24, _⟩ => ⟨S1x128, .f32⟩
  | .hbm, ⟨25, _⟩ => ⟨S1x128, .f32⟩
  | .hbm, ⟨26, _⟩ => ⟨S1x128, .f32⟩
  | .hbm, ⟨27, _⟩ => ⟨S1x128, .f32⟩
  | .hbm, ⟨28, _⟩ => ⟨S1x1, .f32⟩
  | .hbm, ⟨29, _⟩ => ⟨S256x50000, .f32⟩
  | .hbm, ⟨30, _⟩ => ⟨S_, .i32⟩
  | .hbm, ⟨31, _⟩ => ⟨S256, .i32⟩
  | .hbm, ⟨32, _⟩ => ⟨S256, .i1⟩
  | .hbm, ⟨33, _⟩ => ⟨S_, .i32⟩
  | .hbm, ⟨34, _⟩ => ⟨S256, .i32⟩
  | .hbm, ⟨35, _⟩ => ⟨S256, .i32⟩
  | .hbm, ⟨36, _⟩ => ⟨S256, .i32⟩
  | .hbm, ⟨37, _⟩ => ⟨S256x1, .i32⟩
  | .hbm, ⟨38, _⟩ => ⟨S256x128, .f32⟩
  | .hbm, ⟨39, _⟩ => ⟨S256x128, .f32⟩
  | .hbm, ⟨40, _⟩ => ⟨S1x128, .f32⟩
  | .hbm, ⟨41, _⟩ => ⟨S256x128, .f32⟩
  | .hbm, ⟨42, _⟩ => ⟨S256x128, .f32⟩
  | .hbm, ⟨43, _⟩ => ⟨S_, .f32⟩
  | .hbm, ⟨44, _⟩ => ⟨S256x128, .f32⟩
  | .hbm, ⟨45, _⟩ => ⟨S256x128, .i1⟩
  | .hbm, ⟨46, _⟩ => ⟨S_, .f32⟩
  | .hbm, ⟨47, _⟩ => ⟨S256x128, .f32⟩
  | .hbm, ⟨48, _⟩ => ⟨S256x128, .f32⟩
  | .hbm, ⟨49, _⟩ => ⟨S256x128, .f32⟩
  | .hbm, ⟨50, _⟩ => ⟨S256x128, .f32⟩
  | .hbm, ⟨51, _⟩ => ⟨S1x128, .f32⟩
  | .hbm, ⟨52, _⟩ => ⟨S256x128, .f32⟩
  | .hbm, ⟨53, _⟩ => ⟨S256x128, .f32⟩
  | .hbm, ⟨54, _⟩ => ⟨S_, .f32⟩
  | .hbm, ⟨55, _⟩ => ⟨S256x128, .f32⟩
  | .hbm, ⟨56, _⟩ => ⟨S256x128, .i1⟩
  | .hbm, ⟨57, _⟩ => ⟨S_, .f32⟩
  | .hbm, ⟨58, _⟩ => ⟨S256x128, .f32⟩
  | .hbm, ⟨59, _⟩ => ⟨S256x128, .f32⟩
  | .hbm, ⟨60, _⟩ => ⟨S256x128, .f32⟩
  | .hbm, ⟨61, _⟩ => ⟨S256x1, .f32⟩
  | .hbm, ⟨62, _⟩ => ⟨S1x1, .f32⟩
  | .hbm, ⟨63, _⟩ => ⟨S256x1, .f32⟩
  | .hbm, ⟨64, _⟩ => ⟨S256x1, .f32⟩
  | .hbm, ⟨65, _⟩ => ⟨S256, .f32⟩
  | .local _ .vmem, ⟨0, _⟩ => ⟨S2560x128, .f32⟩
  | .local _ .vmem, ⟨1, _⟩ => ⟨S2560x128, .f32⟩
  | .local _ .vmem, ⟨2, _⟩ => ⟨S128x128, .bf16⟩
  | .local _ .vmem, ⟨3, _⟩ => ⟨S1x128, .f32⟩
  | .local _ .vmem, ⟨4, _⟩ => ⟨S128x128, .bf16⟩
  | .local _ .vmem, ⟨5, _⟩ => ⟨S1x128, .f32⟩
  | .local _ .vmem, ⟨6, _⟩ => ⟨S128x128, .bf16⟩
  | .local _ .vmem, ⟨7, _⟩ => ⟨S1x128, .f32⟩
  | .local _ .vmem, ⟨8, _⟩ => ⟨S128x128, .bf16⟩
  | .local _ .vmem, ⟨9, _⟩ => ⟨S1x128, .f32⟩
  | .local _ .vmem, ⟨10, _⟩ => ⟨S1x128, .bf16⟩
  | .local _ .vmem, ⟨11, _⟩ => ⟨S1x1, .f32⟩
  | .local _ .vmem, ⟨12, _⟩ => ⟨S256x2560, .f32⟩
  | .local _ .vmem, ⟨13, _⟩ => ⟨S256x2560, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_c : Ref sig .tc := ⟨.hbm, 30, rfl⟩
abbrev main_v12 : Ref sig .tc := ⟨.hbm, 31, rfl⟩
abbrev main_v13 : Ref sig .tc := ⟨.hbm, 32, rfl⟩
abbrev main_c_0 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_call0_cst : Ref sig .tc := ⟨.hbm, 43, rfl⟩
abbrev main_call0_v0 : Ref sig .tc := ⟨.hbm, 44, rfl⟩
abbrev main_call0_v1 : Ref sig .tc := ⟨.hbm, 45, rfl⟩
abbrev main_call0_cst_0 : Ref sig .tc := ⟨.hbm, 46, rfl⟩
abbrev main_call0_v2 : Ref sig .tc := ⟨.hbm, 47, rfl⟩
abbrev main_call0_v3 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_call1_cst : Ref sig .tc := ⟨.hbm, 54, rfl⟩
abbrev main_call1_v0 : Ref sig .tc := ⟨.hbm, 55, rfl⟩
abbrev main_call1_v1 : Ref sig .tc := ⟨.hbm, 56, rfl⟩
abbrev main_call1_cst_0 : Ref sig .tc := ⟨.hbm, 57, rfl⟩
abbrev main_call1_v2 : Ref sig .tc := ⟨.hbm, 58, rfl⟩
abbrev main_call1_v3 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2560x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x2560 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  bitsLt_bf16_f32 : FTy.bits .bf16 < FTy.bits .f32
  transposes_S128x1_S1x128_1_0 : S128x1.Transposes [1, 0] S1x128
  shapeCasts_S128_S1x128 : S128.ShapeCasts S1x128
  shapeCasts_S1_S1x1 : S1.ShapeCasts S1x1
  inb_S2560x128_S2560x128_0_0 : ∀ a, (![0, 0] : Fin 2 → Nat) a + S2560x128.size a ≤ S2560x128.size a
  h_S2560x128 : 0 < S2560x128.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2560x128 : S1x128.Broadcasts S2560x128
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S1x2560 : S1x1.Broadcasts S1x2560
  shapeCasts_S1x2560_S1x2560 : S1x2560.ShapeCasts S1x2560
  broadcasts_S1x2560_S256x2560 : S1x2560.Broadcasts S256x2560
  inb_S256x2560_S256x2560_0_0 : ∀ a, (![0, 0] : Fin 2 → Nat) a + S256x2560.size a ≤ S256x2560.size a
  h_S256x2560 : 0 < S256x2560.numel
  bcast_S_S256 : S_.BroadcastsInDim S256 (![] : Fin 0 → Fin S256.rank)
  bcast_S256_S256x1_0 : S256.BroadcastsInDim S256x1 (![0] : Fin 1 → Fin S256x1.rank)
  bcast_S128_S1x128_1 : S128.BroadcastsInDim S1x128 (![1] : Fin 1 → Fin S1x128.rank)
  bcast_S1x128_S256x128_0_1 : S1x128.BroadcastsInDim S256x128 (![0, 1] : Fin 2 → Fin S256x128.rank)
  bcast_S_S256x128 : S_.BroadcastsInDim S256x128 (![] : Fin 0 → Fin S256x128.rank)
  bcast_S1_S1x1_1 : S1.BroadcastsInDim S1x1 (![1] : Fin 1 → Fin S1x1.rank)
  bcast_S1x1_S256x1_0_1 : S1x1.BroadcastsInDim S256x1 (![0, 1] : Fin 2 → Fin S256x1.rank)
  shapeCasts_S256x1_S256 : S256x1.ShapeCasts S256
  dot_S2560x128_S128x128_S2560x128_1_0_0_1_n_n_wf : DotDims.WF S2560x128 S128x128 S2560x128 [1] [0] [0] [1] [] []
  dot_S1x128_S2560x128_S1x2560_1_1_0_0_n_n_wf : DotDims.WF S1x128 S2560x128 S1x2560 [1] [1] [0] [0] [] []
  gather_S50000x128_S256x1_S256x128_1_0_n_n_0_1_1128_wf : GatherDims.WF S50000x128 S256x1 S256x128 [1] [0] [] [0] [] 1 ![1, 128]
  dot_S256x128_S128x128_S256x128_1_0_0_1_n_n_wf : DotDims.WF S256x128 S128x128 S256x128 [1] [0] [0] [1] [] []
  dot_S256x128_S128x1_S256x1_1_0_0_1_n_n_wf : DotDims.WF S256x128 S128x1 S256x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S2560x128.size a < S50000x128.size a
  hwx0_0 : ∀ i : grid0.Coords, EltTy.bits .f32 = 32 ∨ (Rect.unit (s := S50000x128) (fun a => cc0_transform_0 i a * S2560x128.size a) (fun a => (Pipeline.Clip.of (cc0_transform_0 i a) (S2560x128.size a) (S50000x128.size a)).extent (S2560x128.size a)) fun a => Pipeline.Clip.inb (Pipeline.Clip.ok_of (hstart0_0 i a))).WholeWords (EltTy.packing .f32)
  hwxs0_0 : ∀ i : grid0.Coords, EltTy.bits .f32 = 32 ∨ (Rect.unit (s := S2560x128) (fun _ => 0) (fun a => (Pipeline.Clip.of (cc0_transform_0 i a) (S2560x128.size a) (S50000x128.size a)).extent (S2560x128.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .bf16 = 32 ∨ (Rect.block (s := S128x128) S128x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .bf16 = 32 ∨ (Rect.block (s := S128x128) S128x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .bf16 = 32 ∨ (Rect.block (s := S128x128) S128x128.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x128.size a ≤ S1x128.size a
  hwx0_9 : ∀ i : grid0.Coords, EltTy.bits .bf16 = 32 ∨ (Rect.block (s := S1x128) S1x128.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x1.size a ≤ S1x1.size a
  hwx0_10 : ∀ i : grid0.Coords, EltTy.bits .f32 = 32 ∨ (Rect.block (s := S1x1) S1x1.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hstart0_11 : ∀ (i : grid0.Coords) a, cc0_transform_11 i a * S256x2560.size a < S256x50000.size a
  hwx0_11 : ∀ i : grid0.Coords, EltTy.bits .f32 = 32 ∨ (Rect.unit (s := S256x50000) (fun a => cc0_transform_11 i a * S256x2560.size a) (fun a => (Pipeline.Clip.of (cc0_transform_11 i a) (S256x2560.size a) (S256x50000.size a)).extent (S256x2560.size a)) fun a => Pipeline.Clip.inb (Pipeline.Clip.ok_of (hstart0_11 i a))).WholeWords (EltTy.packing .f32)
  hwxs0_11 : ∀ i : grid0.Coords, EltTy.bits .f32 = 32 ∨ (Rect.unit (s := S256x2560) (fun _ => 0) (fun a => (Pipeline.Clip.of (cc0_transform_11 i a) (S256x2560.size a) (S256x50000.size a)).extent (S256x2560.size a)) fun a => (Nat.zero_add _).trans_le (Pipeline.Clip.extent_le (Pipeline.Clip.ok_of (hstart0_11 i a)))).WholeWords (EltTy.packing .f32)

variable [Facts₀]

def dot_S2560x128_S128x128_S2560x128_1_0_0_1_n_n : DotDims S2560x128 S128x128 S2560x128 where
  lhsContracting := [1]
  rhsContracting := [0]
  lhsNonContracting := [0]
  rhsNonContracting := [1]
  lhsBatch := []
  rhsBatch := []
  wf := dot_S2560x128_S128x128_S2560x128_1_0_0_1_n_n_wf
def dot_S1x128_S2560x128_S1x2560_1_1_0_0_n_n : DotDims S1x128 S2560x128 S1x2560 where
  lhsContracting := [1]
  rhsContracting := [1]
  lhsNonContracting := [0]
  rhsNonContracting := [0]
  lhsBatch := []
  rhsBatch := []
  wf := dot_S1x128_S2560x128_S1x2560_1_1_0_0_n_n_wf
def gather_S50000x128_S256x1_S256x128_1_0_n_n_0_1_1128 : GatherDims S50000x128 S256x1 S256x128 where
  offsetDims := [1]
  collapsedSliceDims := [0]
  operandBatchingDims := []
  startIndicesBatchingDims := []
  startIndexMap := [0]
  indexVectorDim := 1
  sliceSizes := ![1, 128]
  wf := gather_S50000x128_S256x1_S256x128_1_0_n_n_0_1_1128_wf
def dot_S256x128_S128x128_S256x128_1_0_0_1_n_n : DotDims S256x128 S128x128 S256x128 where
  lhsContracting := [1]
  rhsContracting := [0]
  lhsNonContracting := [0]
  rhsNonContracting := [1]
  lhsBatch := []
  rhsBatch := []
  wf := dot_S256x128_S128x128_S256x128_1_0_0_1_n_n_wf
def dot_S256x128_S128x1_S256x1_1_0_0_1_n_n : DotDims S256x128 S128x1 S256x1 where
  lhsContracting := [1]
  rhsContracting := [0]
  lhsNonContracting := [0]
  rhsNonContracting := [1]
  lhsBatch := []
  rhsBatch := []
  wf := dot_S256x128_S128x1_S256x1_1_0_0_1_n_n_wf

abbrev win0_0 : Pipeline.Window sig grid0 :=
  Pipeline.Window.ofSpecClip (Memref.whole main_arg0) S2560x128.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpec (Memref.whole main_v0) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v8) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v3) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v9) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v5) S1x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v10) S1x1.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpecClip (Memref.whole main_v11) S256x2560.size cc0_transform_11 reads0_11 true false 2 stage0_11 sem0_11
    hrank0 hreads0_11 hstart0_11 nbuf0_11 (Memref.isWhole_whole _) hwx0_11 hwxs0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S50000x128 : Shape := ⟨2, ![50000, 128]⟩
abbrev S256 : Shape := ⟨1, ![256]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x128 : Shape := ⟨2, ![1, 128]⟩
abbrev S_ : Shape := ⟨0, ![]⟩
abbrev S50000x1 : Shape := ⟨2, ![50000, 1]⟩
abbrev S1x1 : Shape := ⟨2, ![1, 1]⟩
abbrev S50000 : Shape := ⟨1, ![50000]⟩
abbrev S1x50000 : Shape := ⟨2, ![1, 50000]⟩
abbrev S256x50000 : Shape := ⟨2, ![256, 50000]⟩
abbrev S256x1 : Shape := ⟨2, ![256, 1]⟩
abbrev S256x128 : Shape := ⟨2, ![256, 128]⟩

abbrev nBuf : Space → Nat
  | .hbm => 113
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S256, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x1, .f32⟩
  | .hbm, ⟨11, _⟩ => ⟨S1, .f32⟩
  | .hbm, ⟨12, _⟩ => ⟨S128x128, .f32⟩
  | .hbm, ⟨13, _⟩ => ⟨S128, .f32⟩
  | .hbm, ⟨14, _⟩ => ⟨S128x128, .f32⟩
  | .hbm, ⟨15, _⟩ => ⟨S128, .f32⟩
  | .hbm, ⟨16, _⟩ => ⟨S128x1, .f32⟩
  | .hbm, ⟨17, _⟩ => ⟨S1, .f32⟩
  | .hbm, ⟨18, _⟩ => ⟨S50000x128, .f32⟩
  | .hbm, ⟨19, _⟩ => ⟨S1x128, .f32⟩
  | .hbm, ⟨20, _⟩ => ⟨S50000x128, .f32⟩
  | .hbm, ⟨21, _⟩ => ⟨S50000x128, .f32⟩
  | .hbm, ⟨22, _⟩ => ⟨S_, .f32⟩
  | .hbm, ⟨23, _⟩ => ⟨S50000x128, .f32⟩
  | .hbm, ⟨24, _⟩ => ⟨S50000x128, .i1⟩
  | .hbm, ⟨25, _⟩ => ⟨S_, .f32⟩
  | .hbm, ⟨26, _⟩ => ⟨S50000x128, .f32⟩
  | .hbm, ⟨27, _⟩ => ⟨S50000x128, .f32⟩
  | .hbm, ⟨28, _⟩ => ⟨S50000x128, .f32⟩
  | .hbm, ⟨29, _⟩ => ⟨S50000x128, .f32⟩
  | .hbm, ⟨30, _⟩ => ⟨S1x128, .f32⟩
  | .hbm, ⟨31, _⟩ => ⟨S50000x128, .f32⟩
  | .hbm, ⟨32, _⟩ => ⟨S50000x128, .f32⟩
  | .hbm, ⟨33, _⟩ => ⟨S_, .f32⟩
  | .hbm, ⟨34, _⟩ => ⟨S50000x128, .f32⟩
  | .hbm, ⟨35, _⟩ => ⟨S50000x128, .i1⟩
  | .hbm, ⟨36, _⟩ => ⟨S_, .f32⟩
  | .hbm, ⟨37, _⟩ => ⟨S50000x128, .f32⟩
  | .hbm, ⟨38, _⟩ => ⟨S50000x128, .f32⟩
  | .hbm, ⟨39, _⟩ => ⟨S50000x128, .f32⟩
  | .hbm, ⟨40, _⟩ => ⟨S50000x128, .f32⟩
  | .hbm, ⟨41, _⟩ => ⟨S1x128, .f32⟩
  | .hbm, ⟨42, _⟩ => ⟨S50000x128, .f32⟩
  | .hbm, ⟨43, _⟩ => ⟨S50000x128, .f32⟩
  | .hbm, ⟨44, _⟩ => ⟨S_, .f32⟩
  | .hbm, ⟨45, _⟩ => ⟨S50000x128, .f32⟩
  | .hbm, ⟨46, _⟩ => ⟨S50000x128, .i1⟩
  | .hbm, ⟨47, _⟩ => ⟨S_, .f32⟩
  | .hbm, ⟨48, _⟩ => ⟨S50000x128, .f32⟩
  | .hbm, ⟨49, _⟩ => ⟨S50000x128, .f32⟩
  | .hbm, ⟨50, _⟩ => ⟨S50000x128, .f32⟩
  | .hbm, ⟨51, _⟩ => ⟨S50000x128, .f32⟩
  | .hbm, ⟨52, _⟩ => ⟨S1x128, .f32⟩
  | .hbm, ⟨53, _⟩ => ⟨S50000x128, .f32⟩
  | .hbm, ⟨54, _⟩ => ⟨S50000x128, .f32⟩
  | .hbm, ⟨55, _⟩ => ⟨S_, .f32⟩
  | .hbm, ⟨56, _⟩ => ⟨S50000x128, .f32⟩
  | .hbm, ⟨57, _⟩ => ⟨S50000x128, .i1⟩
  | .hbm, ⟨58, _⟩ => ⟨S_, .f32⟩
  | .hbm, ⟨59, _⟩ => ⟨S50000x128, .f32⟩
  | .hbm, ⟨60, _⟩ => ⟨S50000x128, .f32⟩
  | .hbm, ⟨61, _⟩ => ⟨S50000x128, .f32⟩
  | .hbm, ⟨62, _⟩ => ⟨S50000x1, .f32⟩
  | .hbm, ⟨63, _⟩ => ⟨S1x1, .f32⟩
  | .hbm, ⟨64, _⟩ => ⟨S50000x1, .f32⟩
  | .hbm, ⟨65, _⟩ => ⟨S50000x1, .f32⟩
  | .hbm, ⟨66, _⟩ => ⟨S50000x1, .f32⟩
  | .hbm, ⟨67, _⟩ => ⟨S50000x1, .f32⟩
  | .hbm, ⟨68, _⟩ => ⟨S_, .f32⟩
  | .hbm, ⟨69, _⟩ => ⟨S50000x1, .f32⟩
  | .hbm, ⟨70, _⟩ => ⟨S50000x1, .f32⟩
  | .hbm, ⟨71, _⟩ => ⟨S_, .f32⟩
  | .hbm, ⟨72, _⟩ => ⟨S50000x1, .f32⟩
  | .hbm, ⟨73, _⟩ => ⟨S50000x1, .f32⟩
  | .hbm, ⟨74, _⟩ => ⟨S50000, .f32⟩
  | .hbm, ⟨75, _⟩ => ⟨S1x50000, .f32⟩
  | .hbm, ⟨76, _⟩ => ⟨S256x50000, .f32⟩
  | .hbm, ⟨77, _⟩ => ⟨S_, .i32⟩
  | .hbm, ⟨78, _⟩ => ⟨S256, .i32⟩
  | .hbm, ⟨79, _⟩ => ⟨S256, .i1⟩
  | .hbm, ⟨80, _⟩ => ⟨S_, .i32⟩
  | .hbm, ⟨81, _⟩ => ⟨S256, .i32⟩
  | .hbm, ⟨82, _⟩ => ⟨S256, .i32⟩
  | .hbm, ⟨83, _⟩ => ⟨S256, .i32⟩
  | .hbm, ⟨84, _⟩ => ⟨S256x1, .i32⟩
  | .hbm, ⟨85, _⟩ => ⟨S256x128, .f32⟩
  | .hbm, ⟨86, _⟩ => ⟨S256x128, .f32⟩
  | .hbm, ⟨87, _⟩ => ⟨S1x128, .f32⟩
  | .hbm, ⟨88, _⟩ => ⟨S256x128, .f32⟩
  | .hbm, ⟨89, _⟩ => ⟨S256x128, .f32⟩
  | .hbm, ⟨90, _⟩ => ⟨S_, .f32⟩
  | .hbm, ⟨91, _⟩ => ⟨S256x128, .f32⟩
  | .hbm, ⟨92, _⟩ => ⟨S256x128, .i1⟩
  | .hbm, ⟨93, _⟩ => ⟨S_, .f32⟩
  | .hbm, ⟨94, _⟩ => ⟨S256x128, .f32⟩
  | .hbm, ⟨95, _⟩ => ⟨S256x128, .f32⟩
  | .hbm, ⟨96, _⟩ => ⟨S256x128, .f32⟩
  | .hbm, ⟨97, _⟩ => ⟨S256x128, .f32⟩
  | .hbm, ⟨98, _⟩ => ⟨S1x128, .f32⟩
  | .hbm, ⟨99, _⟩ => ⟨S256x128, .f32⟩
  | .hbm, ⟨100, _⟩ => ⟨S256x128, .f32⟩
  | .hbm, ⟨101, _⟩ => ⟨S_, .f32⟩
  | .hbm, ⟨102, _⟩ => ⟨S256x128, .f32⟩
  | .hbm, ⟨103, _⟩ => ⟨S256x128, .i1⟩
  | .hbm, ⟨104, _⟩ => ⟨S_, .f32⟩
  | .hbm, ⟨105, _⟩ => ⟨S256x128, .f32⟩
  | .hbm, ⟨106, _⟩ => ⟨S256x128, .f32⟩
  | .hbm, ⟨107, _⟩ => ⟨S256x128, .f32⟩
  | .hbm, ⟨108, _⟩ => ⟨S256x1, .f32⟩
  | .hbm, ⟨109, _⟩ => ⟨S1x1, .f32⟩
  | .hbm, ⟨110, _⟩ => ⟨S256x1, .f32⟩
  | .hbm, ⟨111, _⟩ => ⟨S256x1, .f32⟩
  | .hbm, ⟨112, _⟩ => ⟨S256, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_call0_cst : Ref sig .tc := ⟨.hbm, 22, rfl⟩
abbrev main_call0_v0 : Ref sig .tc := ⟨.hbm, 23, rfl⟩
abbrev main_call0_v1 : Ref sig .tc := ⟨.hbm, 24, rfl⟩
abbrev main_call0_cst_0 : Ref sig .tc := ⟨.hbm, 25, rfl⟩
abbrev main_call0_v2 : Ref sig .tc := ⟨.hbm, 26, rfl⟩
abbrev main_call0_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_call1_cst : Ref sig .tc := ⟨.hbm, 33, rfl⟩
abbrev main_call1_v0 : Ref sig .tc := ⟨.hbm, 34, rfl⟩
abbrev main_call1_v1 : Ref sig .tc := ⟨.hbm, 35, rfl⟩
abbrev main_call1_cst_0 : Ref sig .tc := ⟨.hbm, 36, rfl⟩
abbrev main_call1_v2 : Ref sig .tc := ⟨.hbm, 37, rfl⟩
abbrev main_call1_v3 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_call2_cst : Ref sig .tc := ⟨.hbm, 44, rfl⟩
abbrev main_call2_v0 : Ref sig .tc := ⟨.hbm, 45, rfl⟩
abbrev main_call2_v1 : Ref sig .tc := ⟨.hbm, 46, rfl⟩
abbrev main_call2_cst_0 : Ref sig .tc := ⟨.hbm, 47, rfl⟩
abbrev main_call2_v2 : Ref sig .tc := ⟨.hbm, 48, rfl⟩
abbrev main_call2_v3 : Ref sig .tc := ⟨.hbm, 49, rfl⟩
abbrev main_v14 : Ref sig .tc := ⟨.hbm, 50, rfl⟩
abbrev main_v15 : Ref sig .tc := ⟨.hbm, 51, rfl⟩
abbrev main_v16 : Ref sig .tc := ⟨.hbm, 52, rfl⟩
abbrev main_v17 : Ref sig .tc := ⟨.hbm, 53, rfl⟩
abbrev main_v18 : Ref sig .tc := ⟨.hbm, 54, rfl⟩
abbrev main_call3_cst : Ref sig .tc := ⟨.hbm, 55, rfl⟩
abbrev main_call3_v0 : Ref sig .tc := ⟨.hbm, 56, rfl⟩
abbrev main_call3_v1 : Ref sig .tc := ⟨.hbm, 57, rfl⟩
abbrev main_call3_cst_0 : Ref sig .tc := ⟨.hbm, 58, rfl⟩
abbrev main_call3_v2 : Ref sig .tc := ⟨.hbm, 59, rfl⟩
abbrev main_call3_v3 : Ref sig .tc := ⟨.hbm, 60, rfl⟩
abbrev main_v19 : Ref sig .tc := ⟨.hbm, 61, rfl⟩
abbrev main_v20 : Ref sig .tc := ⟨.hbm, 62, rfl⟩
abbrev main_v21 : Ref sig .tc := ⟨.hbm, 63, rfl⟩
abbrev main_v22 : Ref sig .tc := ⟨.hbm, 64, rfl⟩
abbrev main_v23 : Ref sig .tc := ⟨.hbm, 65, rfl⟩
abbrev main_v24 : Ref sig .tc := ⟨.hbm, 66, rfl⟩
abbrev main_v25 : Ref sig .tc := ⟨.hbm, 67, rfl⟩
abbrev main_cst : Ref sig .tc := ⟨.hbm, 68, rfl⟩
abbrev main_v26 : Ref sig .tc := ⟨.hbm, 69, rfl⟩
abbrev main_v27 : Ref sig .tc := ⟨.hbm, 70, rfl⟩
abbrev main_cst_0 : Ref sig .tc := ⟨.hbm, 71, rfl⟩
abbrev main_v28 : Ref sig .tc := ⟨.hbm, 72, rfl⟩
abbrev main_v29 : Ref sig .tc := ⟨.hbm, 73, rfl⟩
abbrev main_v30 : Ref sig .tc := ⟨.hbm, 74, rfl⟩
abbrev main_v31 : Ref sig .tc := ⟨.hbm, 75, rfl⟩
abbrev main_v32 : Ref sig .tc := ⟨.hbm, 76, rfl⟩
abbrev main_c : Ref sig .tc := ⟨.hbm, 77, rfl⟩
abbrev main_v33 : Ref sig .tc := ⟨.hbm, 78, rfl⟩
abbrev main_v34 : Ref sig .tc := ⟨.hbm, 79, rfl⟩
abbrev main_c_1 : Ref sig .tc := ⟨.hbm, 80, rfl⟩
abbrev main_v35 : Ref sig .tc := ⟨.hbm, 81, rfl⟩
abbrev main_v36 : Ref sig .tc := ⟨.hbm, 82, rfl⟩
abbrev main_v37 : Ref sig .tc := ⟨.hbm, 83, rfl⟩
abbrev main_v38 : Ref sig .tc := ⟨.hbm, 84, rfl⟩
abbrev main_v39 : Ref sig .tc := ⟨.hbm, 85, rfl⟩
abbrev main_v40 : Ref sig .tc := ⟨.hbm, 86, rfl⟩
abbrev main_v41 : Ref sig .tc := ⟨.hbm, 87, rfl⟩
abbrev main_v42 : Ref sig .tc := ⟨.hbm, 88, rfl⟩
abbrev main_v43 : Ref sig .tc := ⟨.hbm, 89, rfl⟩
abbrev main_call4_cst : Ref sig .tc := ⟨.hbm, 90, rfl⟩
abbrev main_call4_v0 : Ref sig .tc := ⟨.hbm, 91, rfl⟩
abbrev main_call4_v1 : Ref sig .tc := ⟨.hbm, 92, rfl⟩
abbrev main_call4_cst_0 : Ref sig .tc := ⟨.hbm, 93, rfl⟩
abbrev main_call4_v2 : Ref sig .tc := ⟨.hbm, 94, rfl⟩
abbrev main_call4_v3 : Ref sig .tc := ⟨.hbm, 95, rfl⟩
abbrev main_v44 : Ref sig .tc := ⟨.hbm, 96, rfl⟩
abbrev main_v45 : Ref sig .tc := ⟨.hbm, 97, rfl⟩
abbrev main_v46 : Ref sig .tc := ⟨.hbm, 98, rfl⟩
abbrev main_v47 : Ref sig .tc := ⟨.hbm, 99, rfl⟩
abbrev main_v48 : Ref sig .tc := ⟨.hbm, 100, rfl⟩
abbrev main_call5_cst : Ref sig .tc := ⟨.hbm, 101, rfl⟩
abbrev main_call5_v0 : Ref sig .tc := ⟨.hbm, 102, rfl⟩
abbrev main_call5_v1 : Ref sig .tc := ⟨.hbm, 103, rfl⟩
abbrev main_call5_cst_0 : Ref sig .tc := ⟨.hbm, 104, rfl⟩
abbrev main_call5_v2 : Ref sig .tc := ⟨.hbm, 105, rfl⟩
abbrev main_call5_v3 : Ref sig .tc := ⟨.hbm, 106, rfl⟩
abbrev main_v49 : Ref sig .tc := ⟨.hbm, 107, rfl⟩
abbrev main_v50 : Ref sig .tc := ⟨.hbm, 108, rfl⟩
abbrev main_v51 : Ref sig .tc := ⟨.hbm, 109, rfl⟩
abbrev main_v52 : Ref sig .tc := ⟨.hbm, 110, rfl⟩
abbrev main_v53 : Ref sig .tc := ⟨.hbm, 111, rfl⟩
abbrev main_v54 : Ref sig .tc := ⟨.hbm, 112, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  bcast_S_S50000x1 : S_.BroadcastsInDim S50000x1 (![] : Fin 0 → Fin S50000x1.rank)
  shapeCasts_S50000x1_S50000 : S50000x1.ShapeCasts S50000
  bcast_S50000_S1x50000_1 : S50000.BroadcastsInDim S1x50000 (![1] : Fin 1 → Fin S1x50000.rank)
  bcast_S1x50000_S256x50000_0_1 : S1x50000.BroadcastsInDim S256x50000 (![0, 1] : Fin 2 → Fin S256x50000.rank)
  bcast_S_S256 : S_.BroadcastsInDim S256 (![] : Fin 0 → Fin S256.rank)
  bcast_S256_S256x1_0 : S256.BroadcastsInDim S256x1 (![0] : Fin 1 → Fin S256x1.rank)
  bcast_S1x128_S256x128_0_1 : S1x128.BroadcastsInDim S256x128 (![0, 1] : Fin 2 → Fin S256x128.rank)
  bcast_S_S256x128 : S_.BroadcastsInDim S256x128 (![] : Fin 0 → Fin S256x128.rank)
  bcast_S1x1_S256x1_0_1 : S1x1.BroadcastsInDim S256x1 (![0, 1] : Fin 2 → Fin S256x1.rank)
  shapeCasts_S256x1_S256 : S256x1.ShapeCasts S256
  dot_S50000x128_S128x128_S50000x128_1_0_0_1_n_n_wf : DotDims.WF S50000x128 S128x128 S50000x128 [1] [0] [0] [1] [] []
  dot_S50000x128_S128x1_S50000x1_1_0_0_1_n_n_wf : DotDims.WF S50000x128 S128x1 S50000x1 [1] [0] [0] [1] [] []
  gather_S50000x128_S256x1_S256x128_1_0_n_n_0_1_1128_wf : GatherDims.WF S50000x128 S256x1 S256x128 [1] [0] [] [0] [] 1 ![1, 128]
  dot_S256x128_S128x128_S256x128_1_0_0_1_n_n_wf : DotDims.WF S256x128 S128x128 S256x128 [1] [0] [0] [1] [] []
  dot_S256x128_S128x1_S256x1_1_0_0_1_n_n_wf : DotDims.WF S256x128 S128x1 S256x1 [1] [0] [0] [1] [] []

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x1_S50000x1_1_0_0_1_n_n : DotDims S50000x128 S128x1 S50000x1 where
  lhsContracting := [1]
  rhsContracting := [0]
  lhsNonContracting := [0]
  rhsNonContracting := [1]
  lhsBatch := []
  rhsBatch := []
  wf := dot_S50000x128_S128x1_S50000x1_1_0_0_1_n_n_wf
def gather_S50000x128_S256x1_S256x128_1_0_n_n_0_1_1128 : GatherDims S50000x128 S256x1 S256x128 where
  offsetDims := [1]
  collapsedSliceDims := [0]
  operandBatchingDims := []
  startIndicesBatchingDims := []
  startIndexMap := [0]
  indexVectorDim := 1
  sliceSizes := ![1, 128]
  wf := gather_S50000x128_S256x1_S256x128_1_0_n_n_0_1_1128_wf
def dot_S256x128_S128x128_S256x128_1_0_0_1_n_n : DotDims S256x128 S128x128 S256x128 where
  lhsContracting := [1]
  rhsContracting := [0]
  lhsNonContracting := [0]
  rhsNonContracting := [1]
  lhsBatch := []
  rhsBatch := []
  wf := dot_S256x128_S128x128_S256x128_1_0_0_1_n_n_wf
def dot_S256x128_S128x1_S256x1_1_0_0_1_n_n : DotDims S256x128 S128x1 S256x1 where
  lhsContracting := [1]
  rhsContracting := [0]
  lhsNonContracting := [0]
  rhsNonContracting := [1]
  lhsBatch := []
  rhsBatch := []
  wf := dot_S256x128_S128x1_S256x1_1_0_0_1_n_n_wf

class Facts : Prop extends Facts₀ where

variable [Facts]
-- ==== Proof.BDats.lean ====
/-
  The proof data of the one pipeline of the word-level kernel program, at any float instance. The program's body is
  the same text as its idealization's, so the data have the same shape. The node array is read in twenty blocks of
  2560 rows, the last of which reaches 1200 rows past the array's end; nothing names what its staging buffer holds on
  those rows. After the body at each grid point the data name: the node block with ZERO written on the rows past
  the end; every weight and bias block as it was fetched; and, for the result block, the body's own arithmetic on
  those eleven — one definite array, whose columns inside the result array do not depend on what the rows past the
  end held.
-/
import proofs.«163596_j83107617178205_1_alg».proof.Proof.Gen.Kernel.Skeleton
import proofs.«163596_j83107617178205_1_alg».proof.Proof.Gen.Kernel.Frame

noncomputable section

namespace Cert.Kernel.BDats

open Cert.Kernel Cert.Kernel.Gen
open Idealize.ShloMosaic Idealize.ShloMosaic.TcCoe
open Idealize.SL Idealize.SL.RA Idealize.SL.BI
open scoped Idealize.SL.BI
open Idealize.SL.BI.BIBase Idealize.SL.Sem
open Idealize.ShloMosaic.Rounds
open Idealize.ShloMosaic.Pipeline (Dat Cfg Window)

variable {F : FTy → Type} [FloatOps F]
variable (m : (ℓ : Loc nD τ sig) → Buf (Elt F) ℓ)

/-- The node block at point `t`: the rows inside the array as the array holds them, zero past its end. -/
def zblk (c : Dev nD) (t : Fin cfg0.N) : Vec F S2560x128 .f32 :=
  win0_0.fill (grid0.coords t) (fun _ => Scalar.ofBits .f32 0x00000000#32) (iblk m c 0 t)

/-- The body's arithmetic on a node block and the ten weight and bias blocks: what it stores. -/
def stored (X0 : Vec F S2560x128 .f32) (X1 : Vec F S128x128 .bf16) (X2 : Vec F S1x128 .f32) (X3 : Vec F S128x128 .bf16)
    (X4 : Vec F S1x128 .f32) (X5 : Vec F S128x128 .bf16) (X6 : Vec F S1x128 .f32) (X7 : Vec F S128x128 .bf16)
    (X8 : Vec F S1x128 .f32) (X9 : Vec F S1x128 .bf16) (X10 : Vec F S1x1 .f32) : Vec F S256x2560 .f32 :=
  k0_pay1 (k0_pay2 X0 X1 X2 X3 X4 X5 X6) (k0_pay3 X0 X1 X2 X3 X4 X5 X6) X7 X8 X9 X10

/-- The result block after the body at point `t`. -/
def oblk (c : Dev nD) (t : Fin cfg0.N) : Vec F S256x2560 .f32 :=
  stored (zblk m c t) (iblk m c 1 t) (iblk m c 2 t) (iblk m c 3 t) (iblk m c 4 t) (iblk m c 5 t) (iblk m c 6 t)
    (iblk m c 7 t) (iblk m c 8 t) (iblk m c 9 t) (iblk m c 10 t)

/-- The proof data on device `c`. -/
def dats (_ : Fin 1) (c : Dev nD) : Dat τ (Elt F) Unit ℕ (UR sig nD τ) ℕ cfg0 c where
  A w := V m c (Pipeline.arrRef spec0 w)
  after w t := match w with
    | ⟨0, _⟩ => zblk m c t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => oblk m c t
  Φ _ := Pipeline.ΦA spec0 c
  q _ := fullShare
  owed _ := 0

theorem A_eq (c : Dev nD) (w : Fin cfg0.W) : (dats m 0 c).A w = V m c (Pipeline.arrRef spec0 w) := by
  dsimp only [dats]

end Cert.Kernel.BDats

end
-- ==== Proof.BBody.lean ====
/-
  The triple of the word-level kernel program's body, at any float instance (the body is the same text as its
  idealization's): given the twelve current staging buffers at contents X0 … X11 the body runs; the node block and
  the ten weight and bias blocks end as they began, and the result block ends holding `BDats.stored` of those eleven,
  the body's arithmetic. The result block's earlier contents are loaded once and never used.
-/
import proofs.«163596_j83107617178205_1_alg».proof.Proof.BDats
import proofs.«163596_j83107617178205_1_alg».proof.Proof.Gen.Kernel.Points
import Idealize.ShloMosaic.Lib.Tactic

noncomputable section

namespace Cert.Kernel.BBody

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## Whole accesses through any view

The body's loads and its store go through the rectangle of the buffer's own sizes at offsets `![0, 0]`: with the
zeros substituted that is the shape's whole rectangle, through which a load reads what the view reads and one
unmasked store leaves its payload, whatever the view. -/

/-- The offsets `![0, 0]` are the zero offsets. -/
theorem zeros2 : (![0, 0] : Fin 2 → ℕ) = fun _ => 0 := funext fun a => by fin_cases a <;> rfl

/-- A load through the whole-shape rectangle at zero offsets reads what the view reads. -/
theorem readAt_unit_zeros {Val : EltTy → Type} {sg : RefSig} {κ : Kind} {sp : Space} {S : Shape} {e : EltTy}
    (v : View sg κ sp S e) {off : Fin S.rank → ℕ} (h : off = fun _ => 0) (inb : ∀ a, off a + S.size a ≤ S.size a)
    (f : v.ty.Contents Val) :
    v.readAt Val (Rect.unit off S.size inb).toLoadRect f = v.read Val f := by
  subst h; funext x
  show v.read Val f ((LoadRect.whole S).idx x) = v.read Val f x
  rw [LoadRect.idx_whole]

/-- One store through it, read back through the view, is its payload. -/
theorem read_writes_unit_zeros {Val : EltTy → Type} {sg : RefSig} {κ : Kind} {sp : Space} {S : Shape} {e : EltTy}
    (v : View sg κ sp S e) {off : Fin S.rank → ℕ} (h : off = fun _ => 0) (inb : ∀ a, off a + S.size a ≤ S.size a)
    (f : v.ty.Contents Val) (w : S.Idx → Val e) :
    v.read Val (v.writes Val f [(⟨Rect.unit off S.size inb, w⟩ : View.Piece Val S e)]) = w := by
  subst h; exact View.read_writes_whole v f w

/-! ## The body on any twelve whole memrefs -/

/-- The eleven whole loads read the contents, the load of the result block is dropped, and the whole unmasked store
    leaves the payload, which is `BDats.stored` of the eleven contents by the definitions of the payload names. -/
theorem sound_kernel (c : Dev nD) (E : Set ℕ) (i : grid0.Coords)
    (arg1 : Memref sig .tc .vmem S2560x128 .f32) (harg1 : arg1.IsWhole)
    (arg2 : Memref sig .tc .vmem S128x128 .bf16) (harg2 : arg2.IsWhole)
    (arg3 : Memref sig .tc .vmem S1x128 .f32) (harg3 : arg3.IsWhole)
    (arg4 : Memref sig .tc .vmem S128x128 .bf16) (harg4 : arg4.IsWhole)
    (arg5 : Memref sig .tc .vmem S1x128 .f32) (harg5 : arg5.IsWhole)
    (arg6 : Memref sig .tc .vmem S128x128 .bf16) (harg6 : arg6.IsWhole)
    (arg7 : Memref sig .tc .vmem S1x128 .f32) (harg7 : arg7.IsWhole)
    (arg8 : Memref sig .tc .vmem S128x128 .bf16) (harg8 : arg8.IsWhole)
    (arg9 : Memref sig .tc .vmem S1x128 .f32) (harg9 : arg9.IsWhole)
    (arg10 : Memref sig .tc .vmem S1x128 .bf16) (harg10 : arg10.IsWhole)
    (arg11 : Memref sig .tc .vmem S1x1 .f32) (harg11 : arg11.IsWhole)
    (arg12 : Memref sig .tc .vmem S256x2560 .f32) (harg12 : arg12.IsWhole)
    (X0 : Vec F S2560x128 .f32) (X1 : Vec F S128x128 .bf16) (X2 : Vec F S1x128 .f32) (X3 : Vec F S128x128 .bf16)
    (X4 : Vec F S1x128 .f32) (X5 : Vec F S128x128 .bf16) (X6 : Vec F S1x128 .f32) (X7 : Vec F S128x128 .bf16)
    (X8 : Vec F S1x128 .f32) (X9 : Vec F S1x128 .bf16) (X10 : Vec F S1x1 .f32) (X11 : Vec F S256x2560 .f32)
    (K : PUnit → sProp 𝕄) :
    iprop((owns (c : Thread nD τ) arg1 fullShare X0
          ∗ owns (c : Thread nD τ) arg2 fullShare X1
          ∗ owns (c : Thread nD τ) arg3 fullShare X2
          ∗ owns (c : Thread nD τ) arg4 fullShare X3
          ∗ owns (c : Thread nD τ) arg5 fullShare X4
          ∗ owns (c : Thread nD τ) arg6 fullShare X5
          ∗ owns (c : Thread nD τ) arg7 fullShare X6
          ∗ owns (c : Thread nD τ) arg8 fullShare X7
          ∗ owns (c : Thread nD τ) arg9 fullShare X8
          ∗ owns (c : Thread nD τ) arg10 fullShare X9
          ∗ owns (c : Thread nD τ) arg11 fullShare X10
          ∗ owns (c : Thread nD τ) arg12 fullShare X11)
        ∗ (iprop(owns (c : Thread nD τ) arg1 fullShare X0
              ∗ owns (c : Thread nD τ) arg2 fullShare X1
              ∗ owns (c : Thread nD τ) arg3 fullShare X2
              ∗ owns (c : Thread nD τ) arg4 fullShare X3
              ∗ owns (c : Thread nD τ) arg5 fullShare X4
              ∗ owns (c : Thread nD τ) arg6 fullShare X5
              ∗ owns (c : Thread nD τ) arg7 fullShare X6
              ∗ owns (c : Thread nD τ) arg8 fullShare X7
              ∗ owns (c : Thread nD τ) arg9 fullShare X8
              ∗ owns (c : Thread nD τ) arg10 fullShare X9
              ∗ owns (c : Thread nD τ) arg11 fullShare X10
              ∗ owns (c : Thread nD τ) arg12 fullShare (BDats.stored X0 X1 X2 X3 X4 X5 X6 X7 X8 X9 X10)) -∗ K ⟨⟩))
      ⊢ wp frame (wpE (defs₀ (F := F)) Variants.none c none) E
          (cc0__prob_kernel i arg1 harg1 arg2 harg2 arg3 harg3 arg4 harg4 arg5 harg5 arg6 harg6 arg7 harg7 arg8 harg8
            arg9 harg9 arg10 harg10 arg11 harg11 arg12 harg12) K := by
  simp only [cc0__prob_kernel_eq_skeleton]; unfold cc0__prob_kernel_skel
  unfold owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩,
    ⟨%f6, %hf6, H6⟩, ⟨%f7, %hf7, H7⟩, ⟨%f8, %hf8, H8⟩, ⟨%f9, %hf9, H9⟩, ⟨%f10, %hf10, H10⟩, ⟨%f11, %hf11, H11⟩⟩, Hk⟩
  subst hf0 hf1 hf2 hf3 hf4 hf5 hf6 hf7 hf8 hf9 hf10
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  iexists _; isplitr
  swap; · iexact H11
  ipureintro
  -- the stored payload over the loads' values, each load the view's read; the two halves of the payload are the
  -- first part's two results
  sl_unfold_run_names
  rw [read_writes_unit_zeros _ zeros2]
  rw [readAt_unit_zeros arg1.view zeros2,
    readAt_unit_zeros arg2.view zeros2,
    readAt_unit_zeros arg3.view zeros2,
    readAt_unit_zeros arg4.view zeros2,
    readAt_unit_zeros arg5.view zeros2,
    readAt_unit_zeros arg6.view zeros2,
    readAt_unit_zeros arg7.view zeros2,
    readAt_unit_zeros arg8.view zeros2,
    readAt_unit_zeros arg9.view zeros2,
    readAt_unit_zeros arg10.view zeros2,
    readAt_unit_zeros arg11.view zeros2]
  rfl

/-! ## The body at a grid point -/

theorem sound_body (c : Dev nD) (t : Fin cfg0.N)
    (X0 : Vec F S2560x128 .f32) (X1 : Vec F S128x128 .bf16) (X2 : Vec F S1x128 .f32) (X3 : Vec F S128x128 .bf16)
    (X4 : Vec F S1x128 .f32) (X5 : Vec F S128x128 .bf16) (X6 : Vec F S1x128 .f32) (X7 : Vec F S128x128 .bf16)
    (X8 : Vec F S1x128 .f32) (X9 : Vec F S1x128 .bf16) (X10 : Vec F S1x1 .f32) (X11 : Vec F S256x2560 .f32) :
    (iprop(owns (c : Thread nD τ) (st0_0 t) fullShare X0
        ∗ owns (c : Thread nD τ) (st0_1 t) fullShare X1
        ∗ owns (c : Thread nD τ) (st0_2 t) fullShare X2
        ∗ owns (c : Thread nD τ) (st0_3 t) fullShare X3
        ∗ owns (c : Thread nD τ) (st0_4 t) fullShare X4
        ∗ owns (c : Thread nD τ) (st0_5 t) fullShare X5
        ∗ owns (c : Thread nD τ) (st0_6 t) fullShare X6
        ∗ owns (c : Thread nD τ) (st0_7 t) fullShare X7
        ∗ owns (c : Thread nD τ) (st0_8 t) fullShare X8
        ∗ owns (c : Thread nD τ) (st0_9 t) fullShare X9
        ∗ owns (c : Thread nD τ) (st0_10 t) fullShare X10
        ∗ owns (c : Thread nD τ) (st0_11 t) fullShare X11) : sProp 𝕄)
      ⊢ wp frame (wpE (defs₀ (F := F)) Variants.none c none) Set.univ (bodyAt0 (F := F) t) (fun _ =>
          iprop(owns (c : Thread nD τ) (st0_0 t) fullShare X0
        ∗ owns (c : Thread nD τ) (st0_1 t) fullShare X1
        ∗ owns (c : Thread nD τ) (st0_2 t) fullShare X2
        ∗ owns (c : Thread nD τ) (st0_3 t) fullShare X3
        ∗ owns (c : Thread nD τ) (st0_4 t) fullShare X4
        ∗ owns (c : Thread nD τ) (st0_5 t) fullShare X5
        ∗ owns (c : Thread nD τ) (st0_6 t) fullShare X6
        ∗ owns (c : Thread nD τ) (st0_7 t) fullShare X7
        ∗ owns (c : Thread nD τ) (st0_8 t) fullShare X8
        ∗ owns (c : Thread nD τ) (st0_9 t) fullShare X9
        ∗ owns (c : Thread nD τ) (st0_10 t) fullShare X10
        ∗ owns (c : Thread nD τ) (st0_11 t) fullShare (BDats.stored X0 X1 X2 X3 X4 X5 X6 X7 X8 X9 X10))) := by
  -- the point's memrefs are whole staging buffers, whichever slot each window is on
  unfold bodyAt0
  iintro H
  iapply (sound_kernel c Set.univ (grid0.coords t) _ _ _ _ _ _ _ _ _ _ _ _ _ _ _ _ _ _ _ _ _ _ _ _
    X0 X1 X2 X3 X4 X5 X6 X7 X8 X9 X10 X11 _)
  isplitl [H]
  · iexact H
  · iintro H; iexact H

end Cert.Kernel.BBody

end
-- ==== Proof.BFrame.lean ====
/-
  The word-level kernel program's frame: it runs to the end, faults nowhere, and leaves its eighteen arguments as they
  were. Nothing is said of the result block: at the word level what the body stores on the columns fed by the node
  block's rows past the array's end cannot be named, and the claim does not read the result, so the proof data leave
  that window unnamed.
-/
import proofs.«163596_j83107617178205_1_alg».proof.Proof.BDats
import proofs.«163596_j83107617178205_1_alg».proof.Proof.BBody
import proofs.«163596_j83107617178205_1_alg».proof.Proof.Gen.Kernel.Frame
import Idealize.ShloMosaic.Lib.Pipeline.FrameSuffix
import Idealize.ShloMosaic.Lib.Tactic

noncomputable section

namespace Cert.Kernel.BFrame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]
variable (m : (ℓ : Loc nD τ sig) → Buf (Elt F) ℓ) (ρ : Dev nD → PrngReg)

local notation "𝕄" => MT nD τ sig Unit (Elt F) ℕ (UR sig nD τ) ℕ

/-! ## The window left unnamed, and what the named windows hold around the body -/

/-- The one window of which the proof data say nothing: the result block (window 11). -/
def fgt : Fin cfg0.W → Bool := fun w => w.val == 11

/-- After the body the node block's buffer is named with zero past the array's end; -/
theorem after_0 (c : Dev nD) (t : Fin cfg0.N) : (BDats.dats m 0 c).after 0 t = BDats.zblk m c t := by
  dsimp only [BDats.dats]
theorem after_1 (c : Dev nD) (t : Fin cfg0.N) : (BDats.dats m 0 c).after 1 t = iblk m c 1 t := by
  dsimp only [BDats.dats]
theorem after_2 (c : Dev nD) (t : Fin cfg0.N) : (BDats.dats m 0 c).after 2 t = iblk m c 2 t := by
  dsimp only [BDats.dats]
theorem after_3 (c : Dev nD) (t : Fin cfg0.N) : (BDats.dats m 0 c).after 3 t = iblk m c 3 t := by
  dsimp only [BDats.dats]
theorem after_4 (c : Dev nD) (t : Fin cfg0.N) : (BDats.dats m 0 c).after 4 t = iblk m c 4 t := by
  dsimp only [BDats.dats]
theorem after_5 (c : Dev nD) (t : Fin cfg0.N) : (BDats.dats m 0 c).after 5 t = iblk m c 5 t := by
  dsimp only [BDats.dats]
theorem after_6 (c : Dev nD) (t : Fin cfg0.N) : (BDats.dats m 0 c).after 6 t = iblk m c 6 t := by
  dsimp only [BDats.dats]
theorem after_7 (c : Dev nD) (t : Fin cfg0.N) : (BDats.dats m 0 c).after 7 t = iblk m c 7 t := by
  dsimp only [BDats.dats]
theorem after_8 (c : Dev nD) (t : Fin cfg0.N) : (BDats.dats m 0 c).after 8 t = iblk m c 8 t := by
  dsimp only [BDats.dats]
theorem after_9 (c : Dev nD) (t : Fin cfg0.N) : (BDats.dats m 0 c).after 9 t = iblk m c 9 t := by
  dsimp only [BDats.dats]
theorem after_10 (c : Dev nD) (t : Fin cfg0.N) : (BDats.dats m 0 c).after 10 t = iblk m c 10 t := by
  dsimp only [BDats.dats]

/-- so the part of it a transfer moves, the rows inside the array, is the array's block. -/
theorem cut_after_0 (c : Dev nD) (t : Fin cfg0.N) :
    win0_0.cut (grid0.coords t) ((BDats.dats m 0 c).after 0 t) = iblk m c 0 t := by
  rw [after_0]; exact win0_0.cut_fill _ _ _

/-- The node block is fetched at every point: its buffer holds the array's block on the rows inside the array and,
    past the array's end, whatever it held (`d`). -/
theorem before_0 (c : Dev nD) (t : Fin cfg0.N) (d) :
    (BDats.dats m 0 c).before 0 t d = win0_0.fill (grid0.coords t) d (iblk m c 0 t) := by
  unfold Dat.before
  rw [if_pos (fetch0_0 t)]
  unfold Dat.fetched Dat.blockOf iblk
  rw [BDats.A_eq]

/-- A weight or bias block is fetched once and stays: its buffer holds the array's block at every point. -/
theorem before_1 (c : Dev nD) (t : Fin cfg0.N) (d) : (BDats.dats m 0 c).before 1 t d = iblk m c 1 t :=
  before0_1_of m (BDats.dats m 0 c) (BDats.A_eq m c 1) (after_1 m c) t d
theorem before_2 (c : Dev nD) (t : Fin cfg0.N) (d) : (BDats.dats m 0 c).before 2 t d = iblk m c 2 t :=
  before0_2_of m (BDats.dats m 0 c) (BDats.A_eq m c 2) (after_2 m c) t d
theorem before_3 (c : Dev nD) (t : Fin cfg0.N) (d) : (BDats.dats m 0 c).before 3 t d = iblk m c 3 t :=
  before0_3_of m (BDats.dats m 0 c) (BDats.A_eq m c 3) (after_3 m c) t d
theorem before_4 (c : Dev nD) (t : Fin cfg0.N) (d) : (BDats.dats m 0 c).before 4 t d = iblk m c 4 t :=
  before0_4_of m (BDats.dats m 0 c) (BDats.A_eq m c 4) (after_4 m c) t d
theorem before_5 (c : Dev nD) (t : Fin cfg0.N) (d) : (BDats.dats m 0 c).before 5 t d = iblk m c 5 t :=
  before0_5_of m (BDats.dats m 0 c) (BDats.A_eq m c 5) (after_5 m c) t d
theorem before_6 (c : Dev nD) (t : Fin cfg0.N) (d) : (BDats.dats m 0 c).before 6 t d = iblk m c 6 t :=
  before0_6_of m (BDats.dats m 0 c) (BDats.A_eq m c 6) (after_6 m c) t d
theorem before_7 (c : Dev nD) (t : Fin cfg0.N) (d) : (BDats.dats m 0 c).before 7 t d = iblk m c 7 t :=
  before0_7_of m (BDats.dats m 0 c) (BDats.A_eq m c 7) (after_7 m c) t d
theorem before_8 (c : Dev nD) (t : Fin cfg0.N) (d) : (BDats.dats m 0 c).before 8 t d = iblk m c 8 t :=
  before0_8_of m (BDats.dats m 0 c) (BDats.A_eq m c 8) (after_8 m c) t d
theorem before_9 (c : Dev nD) (t : Fin cfg0.N) (d) : (BDats.dats m 0 c).before 9 t d = iblk m c 9 t :=
  before0_9_of m (BDats.dats m 0 c) (BDats.A_eq m c 9) (after_9 m c) t d
theorem before_10 (c : Dev nD) (t : Fin cfg0.N) (d) : (BDats.dats m 0 c).before 10 t d = iblk m c 10 t :=
  before0_10_of m (BDats.dats m 0 c) (BDats.A_eq m c 10) (after_10 m c) t d

/-! ## The body obligation, with the result block forgotten -/

/-- What the body is called with at point `t`: each named window's buffer at what it then holds, the result block's at
    anything. -/
def bodyPre (c : Dev nD) (t : Fin cfg0.N) : sProp 𝕄 :=
  iprop((BDats.dats m 0 c).Φ t.castSucc ∗ (BDats.dats m 0 c).owesAt () t.castSucc
    ∗ (∃ d, owns (c : Thread nD τ) (st0_0 t) fullShare ((BDats.dats m 0 c).before 0 t d))
    ∗ (∃ d, owns (c : Thread nD τ) (st0_1 t) fullShare ((BDats.dats m 0 c).before 1 t d))
    ∗ (∃ d, owns (c : Thread nD τ) (st0_2 t) fullShare ((BDats.dats m 0 c).before 2 t d))
    ∗ (∃ d, owns (c : Thread nD τ) (st0_3 t) fullShare ((BDats.dats m 0 c).before 3 t d))
    ∗ (∃ d, owns (c : Thread nD τ) (st0_4 t) fullShare ((BDats.dats m 0 c).before 4 t d))
    ∗ (∃ d, owns (c : Thread nD τ) (st0_5 t) fullShare ((BDats.dats m 0 c).before 5 t d))
    ∗ (∃ d, owns (c : Thread nD τ) (st0_6 t) fullShare ((BDats.dats m 0 c).before 6 t d))
    ∗ (∃ d, owns (c : Thread nD τ) (st0_7 t) fullShare ((BDats.dats m 0 c).before 7 t d))
    ∗ (∃ d, owns (c : Thread nD τ) (st0_8 t) fullShare ((BDats.dats m 0 c).before 8 t d))
    ∗ (∃ d, owns (c : Thread nD τ) (st0_9 t) fullShare ((BDats.dats m 0 c).before 9 t d))
    ∗ (∃ d, owns (c : Thread nD τ) (st0_10 t) fullShare ((BDats.dats m 0 c).before 10 t d))
    ∗ (∃ X, owns (c : Thread nD τ) (st0_11 t) fullShare X))

/-- What it hands back: the node block's buffer as the data name it on the rows inside the array, each weight and bias
    block's as named, the result block's at anything. -/
def bodyPost (c : Dev nD) (t : Fin cfg0.N) : sProp 𝕄 :=
  iprop((BDats.dats m 0 c).Φ t.succ ∗ (BDats.dats m 0 c).owesAt () t.succ
    ∗ (∃ d, owns (c : Thread nD τ) (st0_0 t) fullShare
        (win0_0.fill (grid0.coords t) d (win0_0.cut (grid0.coords t) ((BDats.dats m 0 c).after 0 t))))
    ∗ owns (c : Thread nD τ) (st0_1 t) fullShare ((BDats.dats m 0 c).after 1 t)
    ∗ owns (c : Thread nD τ) (st0_2 t) fullShare ((BDats.dats m 0 c).after 2 t)
    ∗ owns (c : Thread nD τ) (st0_3 t) fullShare ((BDats.dats m 0 c).after 3 t)
    ∗ owns (c : Thread nD τ) (st0_4 t) fullShare ((BDats.dats m 0 c).after 4 t)
    ∗ owns (c : Thread nD τ) (st0_5 t) fullShare ((BDats.dats m 0 c).after 5 t)
    ∗ owns (c : Thread nD τ) (st0_6 t) fullShare ((BDats.dats m 0 c).after 6 t)
    ∗ owns (c : Thread nD τ) (st0_7 t) fullShare ((BDats.dats m 0 c).after 7 t)
    ∗ owns (c : Thread nD τ) (st0_8 t) fullShare ((BDats.dats m 0 c).after 8 t)
    ∗ owns (c : Thread nD τ) (st0_9 t) fullShare ((BDats.dats m 0 c).after 9 t)
    ∗ owns (c : Thread nD τ) (st0_10 t) fullShare ((BDats.dats m 0 c).after 10 t)
    ∗ (∃ X, owns (c : Thread nD τ) (st0_11 t) fullShare X))

/-- The body at any point. It finds the node block filled out past the array's end with whatever the buffer held, and
    leaves the eleven input buffers as it found them: on the rows inside the array the node block's is the array's
    block, which is all the data name there. What it stores in the result block is handed back unnamed. The
    invariant and the owed tallies pass through unread. -/
theorem sound_at (c : Dev nD) (t : Fin cfg0.N) :
    bodyPre m c t ⊢ wp Idealize.ShloMosaic.frame (wpE (defs₀ (F := F)) Variants.none c none) Set.univ (bodyAt0 (F := F) t)
      (fun _ => bodyPost m c t) := by
  unfold bodyPre bodyPost
  rw [show (BDats.dats m 0 c).Φ t.succ = (BDats.dats m 0 c).Φ t.castSucc from rfl,
    show (BDats.dats m 0 c).owesAt () t.succ = (BDats.dats m 0 c).owesAt () t.castSucc from rfl,
    cut_after_0, after_1, after_2, after_3, after_4, after_5, after_6, after_7, after_8, after_9, after_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%X, H11⟩⟩
  rw [before_0 m c t d0, before_1 m c t d1, before_2 m c t d2, before_3 m c t d3, before_4 m c t d4, before_5 m c t d5, before_6 m c t d6, before_7 m c t d7, before_8 m c t d8, before_9 m c t d9, before_10 m c t d10]
  iapply (wp_wand_r Idealize.ShloMosaic.frame (wpE (defs₀ (F := F)) Variants.none (c : Thread nD τ) none) Set.univ)
  isplitl [H0 H1 H2 H3 H4 H5 H6 H7 H8 H9 H10 H11]
  · iapply (BBody.sound_body (F := F) c t (win0_0.fill (grid0.coords t) d0 (iblk m c 0 t))
      (iblk m c 1 t) (iblk m c 2 t) (iblk m c 3 t) (iblk m c 4 t) (iblk m c 5 t) (iblk m c 6 t) (iblk m c 7 t) (iblk m c 8 t) (iblk m c 9 t) (iblk m c 10 t) X)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  · iintro %_ ⟨H0, H1, H2, H3, H4, H5, H6, H7, H8, H9, H10, H11⟩
    isplitl [HΦ]; · iexact HΦ
    isplitl [Ho]; · iexact Ho
    isplitl [H0]; · iexists d0; iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexists _; iexact H11

/-- The library's body obligation with window 11 forgotten, at every point: its conjunction over the twelve windows
    written out, no point idle, windows 0 and 11 the ones stated only on the moved part. -/
theorem body_obligation (c : Dev nD) :
    BodyObligationLoose (BDats.dats (F := F) m 0 c) (defs₀ (F := F)) Variants.none () Set.univ fgt := fun t => by
  rw [bigSep_W0, bigSep_W0]
  exact sound_at m c t

/-! ## The launch -/

/-- The buffers the host lines after the region write: each line's own result. -/
def T : Finset (Ref sig .tc) :=
  {main_c, main_v12, main_v13, main_c_0, main_v14, main_v15, main_v16, main_v17, main_v18, main_v19, main_v20, main_v21, main_v22, main_call0_cst, main_call0_v0, main_call0_v1, main_call0_cst_0, main_call0_v2, main_call0_v3, main_v23, main_v24, main_v25, main_v26, main_v27, main_call1_cst, main_call1_v0, main_call1_v1, main_call1_cst_0, main_call1_v2, main_call1_v3, main_v28, main_v29, main_v30, main_v31, main_v32, main_v33}

/-- Every buffer a line after the region writes is one of those. -/
theorem writes_T : ∀ ops ∈ ([hostOps1, hostOps1_1, hostOps1_2, hostOps1_3, hostOps1_4] : List (List (HloOp τ sig (Elt F)))), ∀ op ∈ ops,
    ∀ b : Ref sig .tc, Proc.devRef .tc b ∈ op.writes → b ∈ T := by
  intro ops hops op hop
  simp only [List.mem_cons, List.mem_nil_iff, or_false] at hops
  rcases hops with rfl | rfl | rfl | rfl | rfl
  · simp only [hostOps1, List.mem_cons, List.mem_nil_iff, or_false] at hop
    rcases hop with rfl | rfl | rfl | rfl | rfl | rfl | rfl | rfl | rfl | rfl | rfl | rfl | rfl
    all_goals
      intro b hb
      simp only [StableHlo.nullary_writes, StableHlo.unary_writes, StableHlo.binary_writes, StableHlo.ternary_writes, StableHlo.quaternary_writes, StableHlo.reshape_writes, StableHlo.binaryIndexed_writes, Finset.mem_singleton] at hb
      obtain rfl := Proc.devRef_injective (τ := τ) _ hb
      decide
  · simp only [hostOps1_1, List.mem_cons, List.mem_nil_iff, or_false] at hop
    rcases hop with rfl | rfl | rfl | rfl | rfl | rfl | rfl
    all_goals
      intro b hb
      simp only [StableHlo.nullary_writes, StableHlo.unary_writes, StableHlo.binary_writes, StableHlo.ternary_writes, StableHlo.quaternary_writes, StableHlo.reshape_writes, StableHlo.binaryIndexed_writes, Finset.mem_singleton] at hb
      obtain rfl := Proc.devRef_injective (τ := τ) _ hb
      decide
  · simp only [hostOps1_2, List.mem_cons, List.mem_nil_iff, or_false] at hop
    rcases hop with rfl | rfl | rfl | rfl
    all_goals
      intro b hb
      simp only [StableHlo.nullary_writes, StableHlo.unary_writes, StableHlo.binary_writes, StableHlo.ternary_writes, StableHlo.quaternary_writes, StableHlo.reshape_writes, StableHlo.binaryIndexed_writes, Finset.mem_singleton] at hb
      obtain rfl := Proc.devRef_injective (τ := τ) _ hb
      decide
  · simp only [hostOps1_3, List.mem_cons, List.mem_nil_iff, or_false] at hop
    rcases hop with rfl | rfl | rfl | rfl | rfl | rfl | rfl
    all_goals
      intro b hb
      simp only [StableHlo.nullary_writes, StableHlo.unary_writes, StableHlo.binary_writes, StableHlo.ternary_writes, StableHlo.quaternary_writes, StableHlo.reshape_writes, StableHlo.binaryIndexed_writes, Finset.mem_singleton] at hb
      obtain rfl := Proc.devRef_injective (τ := τ) _ hb
      decide
  · simp only [hostOps1_4, List.mem_cons, List.mem_nil_iff, or_false] at hop
    rcases hop with rfl | rfl | rfl | rfl | rfl
    all_goals
      intro b hb
      simp only [StableHlo.nullary_writes, StableHlo.unary_writes, StableHlo.binary_writes, StableHlo.ternary_writes, StableHlo.quaternary_writes, StableHlo.reshape_writes, StableHlo.binaryIndexed_writes, Finset.mem_singleton] at hb
      obtain rfl := Proc.devRef_injective (τ := τ) _ hb
      decide

/-- The relational proof data of core `c`: the exact data with the result block's relation saying nothing. -/
abbrev rdat (c : Dev nD) : Pipeline.RDat τ (Elt F) Unit ℕ (UR sig nD τ) ℕ (cfgs 0) c :=
  (BDats.dats m 0 c).toRForget fgt

set_option backward.isDefEq.respectTransparency.types false in
/-- From any memory with zero counters every weakly fair execution of @main on the TensorCores terminates, and in every
    final state each input window's array holds what it held when the region was entered, and every buffer that no
    window stages and no later host line writes holds what it held then. Nothing is said of the result array. -/
theorem run_main : θ_run defs (onTc (τ := τ) (main (F := F))) (s₀ m ρ)
    (Pipeline.RDat.FramePostR (cfgs 0) (rdat m) T (fun c b => V0 m c (Proc.devRef .tc b))) :=
  Pipeline.RDat.θ_run_frame_around_T cfgs (0 : Fin 1) launch0 defs₀ Variants.none (rdat m) T m ρ main
    (hbody := fun c => (body_obligation m c).toRForget)
    (hshare := fun c => (rdat m c).share_full fun _ => rfl) (howed := fun _ _ => rfl)
    (V₀ := V0 m) (opss := [hostOps1, hostOps1_1, hostOps1_2, hostOps1_3, hostOps1_4])
    (hsub := sfx_sub) (hfresh := sfx_fresh) (hkeep := sfx_keeps) (hT := writes_T)
    (hmain := hmain m Variants.none) (hA := BDats.A_eq m) (hΦ := fun _ _ => rfl)

/-- The frame. Argument 0 is the node array: an input window's array, which the region leaves as it found it and no
    later line writes. Each other argument is staged by no window and written by no host line, before the region or
    after it. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun _ h c =>
    ⟨(Pipeline.RDat.FramePostR.arr_in h c 0 rfl).trans ((BDats.A_eq m c 0).trans (V_main_arg0 m c)),
      ((h c).2 main_arg1 (Finset.mem_sdiff.mpr ⟨Pipeline.mem_restRefs_of main_arg1 (by decide) (by decide), by decide⟩)).trans (V_main_arg1 m c),
      ((h c).2 main_arg2 (Finset.mem_sdiff.mpr ⟨Pipeline.mem_restRefs_of main_arg2 (by decide) (by decide), by decide⟩)).trans (V_main_arg2 m c),
      ((h c).2 main_arg3 (Finset.mem_sdiff.mpr ⟨Pipeline.mem_restRefs_of main_arg3 (by decide) (by decide), by decide⟩)).trans (V_main_arg3 m c),
      ((h c).2 main_arg4 (Finset.mem_sdiff.mpr ⟨Pipeline.mem_restRefs_of main_arg4 (by decide) (by decide), by decide⟩)).trans (V_main_arg4 m c),
      ((h c).2 main_arg5 (Finset.mem_sdiff.mpr ⟨Pipeline.mem_restRefs_of main_arg5 (by decide) (by decide), by decide⟩)).trans (V_main_arg5 m c),
      ((h c).2 main_arg6 (Finset.mem_sdiff.mpr ⟨Pipeline.mem_restRefs_of main_arg6 (by decide) (by decide), by decide⟩)).trans (V_main_arg6 m c),
      ((h c).2 main_arg7 (Finset.mem_sdiff.mpr ⟨Pipeline.mem_restRefs_of main_arg7 (by decide) (by decide), by decide⟩)).trans (V_main_arg7 m c),
      ((h c).2 main_arg8 (Finset.mem_sdiff.mpr ⟨Pipeline.mem_restRefs_of main_arg8 (by decide) (by decide), by decide⟩)).trans (V_main_arg8 m c),
      ((h c).2 main_arg9 (Finset.mem_sdiff.mpr ⟨Pipeline.mem_restRefs_of main_arg9 (by decide) (by decide), by decide⟩)).trans (V_main_arg9 m c),
      ((h c).2 main_arg10 (Finset.mem_sdiff.mpr ⟨Pipeline.mem_restRefs_of main_arg10 (by decide) (by decide), by decide⟩)).trans (V_main_arg10 m c),
      ((h c).2 main_arg11 (Finset.mem_sdiff.mpr ⟨Pipeline.mem_restRefs_of main_arg11 (by decide) (by decide), by decide⟩)).trans (V_main_arg11 m c),
      ((h c).2 main_arg12 (Finset.mem_sdiff.mpr ⟨Pipeline.mem_restRefs_of main_arg12 (by decide) (by decide), by decide⟩)).trans (V_main_arg12 m c),
      ((h c).2 main_arg13 (Finset.mem_sdiff.mpr ⟨Pipeline.mem_restRefs_of main_arg13 (by decide) (by decide), by decide⟩)).trans (V_main_arg13 m c),
      ((h c).2 main_arg14 (Finset.mem_sdiff.mpr ⟨Pipeline.mem_restRefs_of main_arg14 (by decide) (by decide), by decide⟩)).trans (V_main_arg14 m c),
      ((h c).2 main_arg15 (Finset.mem_sdiff.mpr ⟨Pipeline.mem_restRefs_of main_arg15 (by decide) (by decide), by decide⟩)).trans (V_main_arg15 m c),
      ((h c).2 main_arg16 (Finset.mem_sdiff.mpr ⟨Pipeline.mem_restRefs_of main_arg16 (by decide) (by decide), by decide⟩)).trans (V_main_arg16 m c),
      ((h c).2 main_arg17 (Finset.mem_sdiff.mpr ⟨Pipeline.mem_restRefs_of main_arg17 (by decide) (by decide), by decide⟩)).trans (V_main_arg17 m c)⟩) (run_main m ρ)

end Cert.Kernel.BFrame

end
-- ==== Proof.KDats.lean ====
/-
  The proof data of the one pipeline of the idealized kernel program, at any float instance.
  The node array is cut into twenty blocks of 2560 rows; the last block runs 1200 rows past the array's end, and what
  its staging buffer holds on those rows nothing names. The data name, after the body at each grid point:
  the node block with ZERO on the rows past the end; each weight and bias block as fetched; and for the result block
  the body's own arithmetic applied to those — a definite array, which on the columns inside the result array does
  not depend on what the rows past the end held.
-/
import proofs.«163596_j83107617178205_1_alg».proof.Proof.Gen.KernelIdeal.Skeleton
import proofs.«163596_j83107617178205_1_alg».proof.Proof.Gen.KernelIdeal.Frame

noncomputable section

namespace Cert.KernelIdeal.KDats

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.Sem
open Idealize.ShloMosaic.Rounds
open Idealize.ShloMosaic.Pipeline (Dat Cfg Window)

variable {F : FTy → Type} [FloatOps F]
variable (m : (ℓ : Loc nD τ sig) → Buf (Elt F) ℓ)

/-- The node block at point `t`: the rows inside the array as the array holds them, zero past its end. -/
def zblk (c : Dev nD) (t : Fin cfg0.N) : Vec F S2560x128 .f32 :=
  win0_0.fill (grid0.coords t) (fun _ => Scalar.ofBits .f32 0x00000000#32) (iblk m c 0 t)

/-- The body's arithmetic on a node block and the ten weight and bias blocks: what it stores. -/
def stored (X0 : Vec F S2560x128 .f32) (X1 : Vec F S128x128 .bf16) (X2 : Vec F S1x128 .f32) (X3 : Vec F S128x128 .bf16)
    (X4 : Vec F S1x128 .f32) (X5 : Vec F S128x128 .bf16) (X6 : Vec F S1x128 .f32) (X7 : Vec F S128x128 .bf16)
    (X8 : Vec F S1x128 .f32) (X9 : Vec F S1x128 .bf16) (X10 : Vec F S1x1 .f32) : Vec F S256x2560 .f32 :=
  k0_pay1 (k0_pay2 X0 X1 X2 X3 X4 X5 X6) (k0_pay3 X0 X1 X2 X3 X4 X5 X6) X7 X8 X9 X10

/-- The result block after the body at point `t`. -/
def oblk (c : Dev nD) (t : Fin cfg0.N) : Vec F S256x2560 .f32 :=
  stored (zblk m c t) (iblk m c 1 t) (iblk m c 2 t) (iblk m c 3 t) (iblk m c 4 t) (iblk m c 5 t) (iblk m c 6 t)
    (iblk m c 7 t) (iblk m c 8 t) (iblk m c 9 t) (iblk m c 10 t)

/-- The proof data on device `c`. -/
def dats (_ : Fin 1) (c : Dev nD) : Dat τ (Elt F) Unit ℕ (UR sig nD τ) ℕ cfg0 c where
  A w := V m c (Pipeline.arrRef spec0 w)
  after w t := match w with
    | ⟨0, _⟩ => zblk m c t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => oblk m c t
  Φ _ := Pipeline.ΦA spec0 c
  q _ := fullShare
  owed _ := 0

theorem A_eq (c : Dev nD) (w : Fin cfg0.W) : (dats m 0 c).A w = V m c (Pipeline.arrRef spec0 w) := by
  dsimp only [dats]

end Cert.KernelIdeal.KDats

end
-- ==== Proof.KBody.lean ====
/-
  The kernel body's triple, at any float instance: on the twelve current staging buffers holding X0 … X11 the body
  runs, leaves the node block and the ten weight and bias blocks as they were, and leaves in the result block its
  arithmetic on those eleven (`KDats.stored`); what the result block held before is read once and dropped.
-/
import proofs.«163596_j83107617178205_1_alg».proof.Proof.KDats
import proofs.«163596_j83107617178205_1_alg».proof.Proof.Gen.KernelIdeal.Points
import Idealize.ShloMosaic.Lib.Tactic

noncomputable section

namespace Cert.KernelIdeal.KBody

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## Whole accesses through any view

The body's loads and its store go through the rectangle of the buffer's own sizes at offsets `![0, 0]`: with the
zeros substituted that is the shape's whole rectangle, through which a load reads what the view reads and one
unmasked store leaves its payload, whatever the view. -/

/-- The offsets `![0, 0]` are the zero offsets. -/
theorem zeros2 : (![0, 0] : Fin 2 → ℕ) = fun _ => 0 := funext fun a => by fin_cases a <;> rfl

/-- A load through the whole-shape rectangle at zero offsets reads what the view reads. -/
theorem readAt_unit_zeros {Val : EltTy → Type} {sg : RefSig} {κ : Kind} {sp : Space} {S : Shape} {e : EltTy}
    (v : View sg κ sp S e) {off : Fin S.rank → ℕ} (h : off = fun _ => 0) (inb : ∀ a, off a + S.size a ≤ S.size a)
    (f : v.ty.Contents Val) :
    v.readAt Val (Rect.unit off S.size inb).toLoadRect f = v.read Val f := by
  subst h; funext x
  show v.read Val f ((LoadRect.whole S).idx x) = v.read Val f x
  rw [LoadRect.idx_whole]

/-- One store through it, read back through the view, is its payload. -/
theorem read_writes_unit_zeros {Val : EltTy → Type} {sg : RefSig} {κ : Kind} {sp : Space} {S : Shape} {e : EltTy}
    (v : View sg κ sp S e) {off : Fin S.rank → ℕ} (h : off = fun _ => 0) (inb : ∀ a, off a + S.size a ≤ S.size a)
    (f : v.ty.Contents Val) (w : S.Idx → Val e) :
    v.read Val (v.writes Val f [(⟨Rect.unit off S.size inb, w⟩ : View.Piece Val S e)]) = w := by
  subst h; exact View.read_writes_whole v f w

/-! ## The body on any twelve whole memrefs -/

/-- The eleven whole loads read the contents, the load of the result block is dropped, and the whole unmasked store
    leaves the payload, which is `KDats.stored` of the eleven contents by the definitions of the payload names. -/
theorem sound_kernel (c : Dev nD) (E : Set ℕ) (i : grid0.Coords)
    (arg1 : Memref sig .tc .vmem S2560x128 .f32) (harg1 : arg1.IsWhole)
    (arg2 : Memref sig .tc .vmem S128x128 .bf16) (harg2 : arg2.IsWhole)
    (arg3 : Memref sig .tc .vmem S1x128 .f32) (harg3 : arg3.IsWhole)
    (arg4 : Memref sig .tc .vmem S128x128 .bf16) (harg4 : arg4.IsWhole)
    (arg5 : Memref sig .tc .vmem S1x128 .f32) (harg5 : arg5.IsWhole)
    (arg6 : Memref sig .tc .vmem S128x128 .bf16) (harg6 : arg6.IsWhole)
    (arg7 : Memref sig .tc .vmem S1x128 .f32) (harg7 : arg7.IsWhole)
    (arg8 : Memref sig .tc .vmem S128x128 .bf16) (harg8 : arg8.IsWhole)
    (arg9 : Memref sig .tc .vmem S1x128 .f32) (harg9 : arg9.IsWhole)
    (arg10 : Memref sig .tc .vmem S1x128 .bf16) (harg10 : arg10.IsWhole)
    (arg11 : Memref sig .tc .vmem S1x1 .f32) (harg11 : arg11.IsWhole)
    (arg12 : Memref sig .tc .vmem S256x2560 .f32) (harg12 : arg12.IsWhole)
    (X0 : Vec F S2560x128 .f32) (X1 : Vec F S128x128 .bf16) (X2 : Vec F S1x128 .f32) (X3 : Vec F S128x128 .bf16)
    (X4 : Vec F S1x128 .f32) (X5 : Vec F S128x128 .bf16) (X6 : Vec F S1x128 .f32) (X7 : Vec F S128x128 .bf16)
    (X8 : Vec F S1x128 .f32) (X9 : Vec F S1x128 .bf16) (X10 : Vec F S1x1 .f32) (X11 : Vec F S256x2560 .f32)
    (K : PUnit → sProp 𝕄) :
    iprop((owns (c : Thread nD τ) arg1 fullShare X0
          ∗ owns (c : Thread nD τ) arg2 fullShare X1
          ∗ owns (c : Thread nD τ) arg3 fullShare X2
          ∗ owns (c : Thread nD τ) arg4 fullShare X3
          ∗ owns (c : Thread nD τ) arg5 fullShare X4
          ∗ owns (c : Thread nD τ) arg6 fullShare X5
          ∗ owns (c : Thread nD τ) arg7 fullShare X6
          ∗ owns (c : Thread nD τ) arg8 fullShare X7
          ∗ owns (c : Thread nD τ) arg9 fullShare X8
          ∗ owns (c : Thread nD τ) arg10 fullShare X9
          ∗ owns (c : Thread nD τ) arg11 fullShare X10
          ∗ owns (c : Thread nD τ) arg12 fullShare X11)
        ∗ (iprop(owns (c : Thread nD τ) arg1 fullShare X0
              ∗ owns (c : Thread nD τ) arg2 fullShare X1
              ∗ owns (c : Thread nD τ) arg3 fullShare X2
              ∗ owns (c : Thread nD τ) arg4 fullShare X3
              ∗ owns (c : Thread nD τ) arg5 fullShare X4
              ∗ owns (c : Thread nD τ) arg6 fullShare X5
              ∗ owns (c : Thread nD τ) arg7 fullShare X6
              ∗ owns (c : Thread nD τ) arg8 fullShare X7
              ∗ owns (c : Thread nD τ) arg9 fullShare X8
              ∗ owns (c : Thread nD τ) arg10 fullShare X9
              ∗ owns (c : Thread nD τ) arg11 fullShare X10
              ∗ owns (c : Thread nD τ) arg12 fullShare (KDats.stored X0 X1 X2 X3 X4 X5 X6 X7 X8 X9 X10)) -∗ K ⟨⟩))
      ⊢ wp frame (wpE (defs₀ (F := F)) Variants.none c none) E
          (cc0__prob_kernel i arg1 harg1 arg2 harg2 arg3 harg3 arg4 harg4 arg5 harg5 arg6 harg6 arg7 harg7 arg8 harg8
            arg9 harg9 arg10 harg10 arg11 harg11 arg12 harg12) K := by
  simp only [cc0__prob_kernel_eq_skeleton]; unfold cc0__prob_kernel_skel
  unfold owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩,
    ⟨%f6, %hf6, H6⟩, ⟨%f7, %hf7, H7⟩, ⟨%f8, %hf8, H8⟩, ⟨%f9, %hf9, H9⟩, ⟨%f10, %hf10, H10⟩, ⟨%f11, %hf11, H11⟩⟩, Hk⟩
  subst hf0 hf1 hf2 hf3 hf4 hf5 hf6 hf7 hf8 hf9 hf10
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  iexists _; isplitr
  swap; · iexact H11
  ipureintro
  -- the stored payload over the loads' values, each load the view's read; the two halves of the payload are the
  -- first part's two results
  sl_unfold_run_names
  rw [read_writes_unit_zeros _ zeros2]
  rw [readAt_unit_zeros arg1.view zeros2,
    readAt_unit_zeros arg2.view zeros2,
    readAt_unit_zeros arg3.view zeros2,
    readAt_unit_zeros arg4.view zeros2,
    readAt_unit_zeros arg5.view zeros2,
    readAt_unit_zeros arg6.view zeros2,
    readAt_unit_zeros arg7.view zeros2,
    readAt_unit_zeros arg8.view zeros2,
    readAt_unit_zeros arg9.view zeros2,
    readAt_unit_zeros arg10.view zeros2,
    readAt_unit_zeros arg11.view zeros2]
  rfl

/-! ## The body at a grid point -/

theorem sound_body (c : Dev nD) (t : Fin cfg0.N)
    (X0 : Vec F S2560x128 .f32) (X1 : Vec F S128x128 .bf16) (X2 : Vec F S1x128 .f32) (X3 : Vec F S128x128 .bf16)
    (X4 : Vec F S1x128 .f32) (X5 : Vec F S128x128 .bf16) (X6 : Vec F S1x128 .f32) (X7 : Vec F S128x128 .bf16)
    (X8 : Vec F S1x128 .f32) (X9 : Vec F S1x128 .bf16) (X10 : Vec F S1x1 .f32) (X11 : Vec F S256x2560 .f32) :
    (iprop(owns (c : Thread nD τ) (st0_0 t) fullShare X0
        ∗ owns (c : Thread nD τ) (st0_1 t) fullShare X1
        ∗ owns (c : Thread nD τ) (st0_2 t) fullShare X2
        ∗ owns (c : Thread nD τ) (st0_3 t) fullShare X3
        ∗ owns (c : Thread nD τ) (st0_4 t) fullShare X4
        ∗ owns (c : Thread nD τ) (st0_5 t) fullShare X5
        ∗ owns (c : Thread nD τ) (st0_6 t) fullShare X6
        ∗ owns (c : Thread nD τ) (st0_7 t) fullShare X7
        ∗ owns (c : Thread nD τ) (st0_8 t) fullShare X8
        ∗ owns (c : Thread nD τ) (st0_9 t) fullShare X9
        ∗ owns (c : Thread nD τ) (st0_10 t) fullShare X10
        ∗ owns (c : Thread nD τ) (st0_11 t) fullShare X11) : sProp 𝕄)
      ⊢ wp frame (wpE (defs₀ (F := F)) Variants.none c none) Set.univ (bodyAt0 (F := F) t) (fun _ =>
          iprop(owns (c : Thread nD τ) (st0_0 t) fullShare X0
        ∗ owns (c : Thread nD τ) (st0_1 t) fullShare X1
        ∗ owns (c : Thread nD τ) (st0_2 t) fullShare X2
        ∗ owns (c : Thread nD τ) (st0_3 t) fullShare X3
        ∗ owns (c : Thread nD τ) (st0_4 t) fullShare X4
        ∗ owns (c : Thread nD τ) (st0_5 t) fullShare X5
        ∗ owns (c : Thread nD τ) (st0_6 t) fullShare X6
        ∗ owns (c : Thread nD τ) (st0_7 t) fullShare X7
        ∗ owns (c : Thread nD τ) (st0_8 t) fullShare X8
        ∗ owns (c : Thread nD τ) (st0_9 t) fullShare X9
        ∗ owns (c : Thread nD τ) (st0_10 t) fullShare X10
        ∗ owns (c : Thread nD τ) (st0_11 t) fullShare (KDats.stored X0 X1 X2 X3 X4 X5 X6 X7 X8 X9 X10))) := by
  -- the point's memrefs are whole staging buffers, whichever slot each window is on
  unfold bodyAt0
  iintro H
  iapply (sound_kernel c Set.univ (grid0.coords t) _ _ _ _ _ _ _ _ _ _ _ _ _ _ _ _ _ _ _ _ _ _ _ _
    X0 X1 X2 X3 X4 X5 X6 X7 X8 X9 X10 X11 _)
  isplitl [H]
  · iexact H
  · iintro H; iexact H

end Cert.KernelIdeal.KBody

end
-- ==== Proof.Spec.lean ====
/-
  What both programs compute, stated once over the extended reals and over no program.

  A row x of 128 numbers is sent through four hidden layers, each
      h ↦ ( j ↦ ρ( Σ_k h_k · W_kj + b_j ) ),
  ρ the leaky rectifier (ρ(v) = v when v ≥ 0, else the slope times v, the slope being the f32 word the programs
  share), then through the read-out  h ↦ Σ_k h_k · w_k + β  and the logistic function. The first result array holds,
  at (b, n), that number for row n of the node array, whatever b is.
-/
import Idealize.ShloMosaic.PureOps.Ideal
import Idealize.ShloMosaic.PureOps.Ideal.Laws
import Idealize.ShloMosaic.Lib.ValueIdx

noncomputable section

open scoped BigOperators

namespace Cert.Spec

open Idealize.ShloMosaic Idealize.ShloMosaic.ValueIdx

/-- The leaky rectifier: the argument where it is at least zero, the slope word times it elsewhere. -/
def lrelu (v : EReal) : EReal :=
  if Ideal.cmp .oge v (Ideal.ofBits .f32 0x00000000#32) = 1 then v else Ideal.ofBits .f32 0x3C23D70A#32 * v

/-- One hidden layer applied to a row. -/
def layer (W : Fin 128 → Fin 128 → EReal) (b : Fin 128 → EReal) (h : Fin 128 → EReal) (j : Fin 128) : EReal :=
  lrelu ((∑ k : Fin 128, h k * W k j) + b j)

/-- The read-out of a row: its inner product with the last weight column, plus the last bias. -/
def logit (w : Fin 128 → EReal) (β : EReal) (h : Fin 128 → EReal) : EReal :=
  (∑ k : Fin 128, h k * w k) + β

/-- The whole map on a row: four hidden layers, the read-out, the logistic function. -/
def prob (W1 : Fin 128 → Fin 128 → EReal) (b1 : Fin 128 → EReal) (W2 : Fin 128 → Fin 128 → EReal) (b2 : Fin 128 → EReal)
    (W3 : Fin 128 → Fin 128 → EReal) (b3 : Fin 128 → EReal) (W4 : Fin 128 → Fin 128 → EReal) (b4 : Fin 128 → EReal)
    (w : Fin 128 → EReal) (β : EReal) (x : Fin 128 → EReal) : EReal :=
  Ideal.logistic (logit w β (layer W4 b4 (layer W3 b3 (layer W2 b2 (layer W1 b1 x)))))

abbrev SZ : Shape := ⟨2, ![50000, 128]⟩
abbrev SW : Shape := ⟨2, ![128, 128]⟩
abbrev SB : Shape := ⟨1, ![128]⟩
abbrev SW5 : Shape := ⟨2, ![128, 1]⟩
abbrev SB5 : Shape := ⟨1, ![1]⟩
abbrev SO : Shape := ⟨2, ![256, 50000]⟩

/-- The map on row `n` of the node array, the weights given as arrays. -/
def probAt (z : SZ.Idx → EReal) (W1 : SW.Idx → EReal) (b1 : SB.Idx → EReal) (W2 : SW.Idx → EReal) (b2 : SB.Idx → EReal)
    (W3 : SW.Idx → EReal) (b3 : SB.Idx → EReal) (W4 : SW.Idx → EReal) (b4 : SB.Idx → EReal)
    (w5 : SW5.Idx → EReal) (b5 : SB5.Idx → EReal) (n : Fin 50000) : EReal :=
  prob (fun k j => W1 (ix2 k j)) (fun j => b1 (ix1 j)) (fun k j => W2 (ix2 k j)) (fun j => b2 (ix1 j))
    (fun k j => W3 (ix2 k j)) (fun j => b3 (ix1 j)) (fun k j => W4 (ix2 k j)) (fun j => b4 (ix1 j))
    (fun k => w5 (ix2 k (0 : Fin 1))) (b5 (ix1 (0 : Fin 1))) (fun k => z (ix2 n k))

/-- The first result array: at (b, n) the map on row n, for every b. -/
def probArr (z : SZ.Idx → EReal) (W1 : SW.Idx → EReal) (b1 : SB.Idx → EReal) (W2 : SW.Idx → EReal) (b2 : SB.Idx → EReal)
    (W3 : SW.Idx → EReal) (b3 : SB.Idx → EReal) (W4 : SW.Idx → EReal) (b4 : SB.Idx → EReal)
    (w5 : SW5.Idx → EReal) (b5 : SB5.Idx → EReal) : SO.Idx → EReal :=
  fun i => probAt z W1 b1 W2 b2 W3 b3 W4 b4 w5 b5 (i 1)

theorem probArr_ix2 (z : SZ.Idx → EReal) (W1 : SW.Idx → EReal) (b1 : SB.Idx → EReal) (W2 : SW.Idx → EReal) (b2 : SB.Idx → EReal)
    (W3 : SW.Idx → EReal) (b3 : SB.Idx → EReal) (W4 : SW.Idx → EReal) (b4 : SB.Idx → EReal)
    (w5 : SW5.Idx → EReal) (b5 : SB5.Idx → EReal) (b : Fin 256) (n : Fin 50000) :
    probArr z W1 b1 W2 b2 W3 b3 W4 b4 w5 b5 (ix2 b n) = probAt z W1 b1 W2 b2 W3 b3 W4 b4 w5 b5 n := rfl

/-- An array that is the map on row n at every (b, n) is the first result array. -/
theorem eq_probArr (z : SZ.Idx → EReal) (W1 : SW.Idx → EReal) (b1 : SB.Idx → EReal) (W2 : SW.Idx → EReal) (b2 : SB.Idx → EReal)
    (W3 : SW.Idx → EReal) (b3 : SB.Idx → EReal) (W4 : SW.Idx → EReal) (b4 : SB.Idx → EReal)
    (w5 : SW5.Idx → EReal) (b5 : SB5.Idx → EReal) (X : SO.Idx → EReal)
    (h : ∀ (b : Fin 256) (n : Fin 50000), X (ix2 b n) = probAt z W1 b1 W2 b2 W3 b3 W4 b4 w5 b5 n) :
    X = probArr z W1 b1 W2 b2 W3 b3 W4 b4 w5 b5 := by
  funext i
  rw [eq_ix2 i]
  exact h (i 0) (i 1)

end Cert.Spec

end
-- ==== Proof.LibPlainMatmul.lean ====
/-
  A general fact about the ideal reading of a matrix product, independent of any program: a kernel's matrix product of an
  m×k by a k×n matrix (no batch axis; the left operand's columns contracted with the right operand's rows) into a zero
  accumulator, read at the entry (a, b), is the textbook sum  Σ_c A(a, c) · B(c, b)  on the extended reals.
  (The host's `dot_general` of the same shape has this reading in the library already; this is its twin for the kernel's
  accumulate-into-zero form.)
-/
import Idealize.ShloMosaic.PureOps.Ideal.Laws
import Idealize.ShloMosaic.Lib.ValueIdx

noncomputable section

namespace Idealize.ShloMosaic.LibPlainMatmul

open Idealize.ShloMosaic Idealize.ShloMosaic.ValueIdx

/-- The plain product of an m×k by a k×n matrix accumulated into the f32 zero splat, at the ideal values and at the
    entry (a, b): the sum over the contracted coordinate c of A(a, c) · B(c, b). -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant (⟨2, ![m, n]⟩ : Shape) .f32 0x00000000#32) (ix2 a b)
      = ∑ c : Fin k, A (ix2 a c) * B (ix2 c b) := by
  show FloatOps.matmul (DotDims.plain m k n) prec A B (constant (⟨2, ![m, n]⟩ : Shape) .f32 0x00000000#32) (ix2 a b) = _
  rw [Ideal.matmul_constant_zero_apply, ← Equiv.sum_comp (contrEquiv1 (DotDims.plain m k n) k rfl rfl).symm]
  refine Finset.sum_congr rfl fun c _ => ?_
  have hc := contrEquiv1_symm_val (DotDims.plain m k n) k rfl rfl c
  -- the left operand is read at (a, c): its row is the output's row, its column the contracted coordinate
  have hl : (DotDims.plain m k n).lhsIdx (ix2 a b) ((contrEquiv1 _ k rfl rfl).symm c) = ix2 a c := by
    funext ax; apply Fin.ext
    match ax with
    | ⟨0, _⟩ => simp [DotDims.lhsIdx, DotDims.plain]; rfl
    | ⟨1, _⟩ => simp [DotDims.lhsIdx, DotDims.plain]; exact hc
  -- the right operand at (c, b): its row the contracted coordinate, its column the output's column
  have hr : (DotDims.plain m k n).rhsIdx (ix2 a b) ((contrEquiv1 _ k rfl rfl).symm c) = ix2 c b := by
    funext ax; apply Fin.ext
    match ax with
    | ⟨0, _⟩ => simp [DotDims.rhsIdx, DotDims.plain]; exact hc
    | ⟨1, _⟩ => simp [DotDims.rhsIdx, DotDims.plain]; rfl
  rw [hl, hr]

end Idealize.ShloMosaic.LibPlainMatmul

end
-- ==== Proof.LibPlainDot.lean ====
/-
  General facts about plain matrix products read as extended reals, independent of any program.
  A contraction whose dimension numbers are the plain ones (left columns against right rows, no batch axis) is,
  entry by entry, the textbook sum  Σ_c A(a,c)·B(c,b):  for the host's product, and for a kernel's product
  accumulated into zero, whatever name the dimension record carries.
-/
import proofs.«163596_j83107617178205_1_alg».proof.Proof.LibPlainMatmul

noncomputable section

namespace Idealize.ShloMosaic.LibPlainDot

open Idealize.ShloMosaic Idealize.ShloMosaic.ValueIdx

/-- The host's plain product of an m×k by a k×n matrix at the entry (a, b): Σ_c A(a,c)·B(c,b). -/
theorem dotGeneral_plain_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    Host.dotGeneral (DotDims.plain m k n) prec A B (ix2 a b) = ∑ c : Fin k, A (ix2 a c) * B (ix2 c b) := by
  show FloatOps.dotGeneral (DotDims.plain m k n) prec .single A B (ix2 a b) = _
  -- the host's product is the bare sum over the contraction's index set, which has the one coordinate c
  rw [Ideal.dotGeneral_apply, ← Equiv.sum_comp (contrEquiv1 (DotDims.plain m k n) k rfl rfl).symm]
  refine Finset.sum_congr rfl fun c _ => ?_
  have hc := contrEquiv1_symm_val (DotDims.plain m k n) k rfl rfl c
  -- the left factor sits at row a, column c
  have hl : (DotDims.plain m k n).lhsIdx (ix2 a b) ((contrEquiv1 _ k rfl rfl).symm c) = ix2 a c := by
    funext ax; apply Fin.ext
    match ax with
    | ⟨0, _⟩ => simp [DotDims.lhsIdx, DotDims.plain]; rfl
    | ⟨1, _⟩ => simp [DotDims.lhsIdx, DotDims.plain]; exact hc
  -- the right factor sits at row c, column b
  have hr : (DotDims.plain m k n).rhsIdx (ix2 a b) ((contrEquiv1 _ k rfl rfl).symm c) = ix2 c b := by
    funext ax; apply Fin.ext
    match ax with
    | ⟨0, _⟩ => simp [DotDims.rhsIdx, DotDims.plain]; exact hc
    | ⟨1, _⟩ => simp [DotDims.rhsIdx, DotDims.plain]; rfl
  rw [hl, hr]

/-- The same for a dimension record that is the plain one under another name. -/
theorem dotGeneral_apply_of_plain {m k n : Nat} {φ₁ φ₂ : FTy} (d : DotDims ⟨2, ![m, k]⟩ ⟨2, ![k, n]⟩ ⟨2, ![m, n]⟩)
    (hd : d = DotDims.plain m k n) (prec : Option ContractPrecision)
    (A : FVec Ideal ⟨2, ![m, k]⟩ φ₁) (B : FVec Ideal ⟨2, ![k, n]⟩ φ₂) (a : Fin m) (b : Fin n) :
    Host.dotGeneral d prec A B (ix2 a b) = ∑ c : Fin k, A (ix2 a c) * B (ix2 c b) := by
  subst hd; exact dotGeneral_plain_apply prec A B a b

/-- A kernel's product into the zero splat, for a dimension record that is the plain one under another name. -/
theorem matmul_zero_apply_of_plain {m k n : Nat} {φ₁ φ₂ : FTy} (d : DotDims ⟨2, ![m, k]⟩ ⟨2, ![k, n]⟩ ⟨2, ![m, n]⟩)
    (hd : d = DotDims.plain m k n) (prec : Option ContractPrecision)
    (A : FVec Ideal ⟨2, ![m, k]⟩ φ₁) (B : FVec Ideal ⟨2, ![k, n]⟩ φ₂) (a : Fin m) (b : Fin n) :
    matmul d prec A B (constant (⟨2, ![m, n]⟩ : Shape) .f32 0x00000000#32) (ix2 a b)
      = ∑ c : Fin k, A (ix2 a c) * B (ix2 c b) := by
  subst hd; exact LibPlainMatmul.matmul_plain_zero_apply prec A B a b

end Idealize.ShloMosaic.LibPlainDot

end
-- ==== Proof.KPayload.lean ====
/-
  The body's arithmetic read at one entry, on the extended reals: the entry (b, y) of what the body stores is the
  row map of `Cert.Spec.prob` applied to row y of the node block, with the weight blocks read entry by entry
  (a narrowed matrix is the matrix; the last weights arrive as a row; each bias as a one-row matrix).
-/
import proofs.«163596_j83107617178205_1_alg».proof.Proof.KDats
import proofs.«163596_j83107617178205_1_alg».proof.Proof.Spec
import proofs.«163596_j83107617178205_1_alg».proof.Proof.LibPlainDot
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.KPayload

open Cert.KernelIdeal Cert.KernelIdeal.Gen
open Idealize.ShloMosaic Idealize.ShloMosaic.ValueIdx

/-! ## Two readings at an entry: a product that contracts both second axes, and a one-entry matrix laid along a row -/

/-- A product of an m×k matrix with an n×k matrix that contracts the second axis of BOTH (the right operand used
    transposed), accumulated into zero, read at the entry (a, b): the sum over c of A(a, c) · B(b, c). -/
theorem matmul_transposedRhs_zero_apply {m k n : Nat} {φ₁ φ₂ : FTy} (prec : Option ContractPrecision)
    (A : FVec Ideal ⟨2, ![m, k]⟩ φ₁) (B : FVec Ideal ⟨2, ![n, k]⟩ φ₂) (a : Fin m) (b : Fin n) :
    matmul (DotDims.transposedRhs m k n) prec A B (constant (⟨2, ![m, n]⟩ : Shape) .f32 0x00000000#32) (ix2 a b)
      = ∑ c : Fin k, A (ix2 a c) * B (ix2 b c) := by
  show FloatOps.matmul (DotDims.transposedRhs m k n) prec A B (constant (⟨2, ![m, n]⟩ : Shape) .f32 0x00000000#32) (ix2 a b) = _
  rw [Ideal.matmul_constant_zero_apply, ← Equiv.sum_comp (contrEquiv1 (DotDims.transposedRhs m k n) k rfl rfl).symm]
  refine Finset.sum_congr rfl fun c _ => ?_
  have hc := contrEquiv1_symm_val (DotDims.transposedRhs m k n) k rfl rfl c
  -- the left operand is read at (a, c): its row is the output's row, its column the contracted coordinate
  have hl : (DotDims.transposedRhs m k n).lhsIdx (ix2 a b) ((contrEquiv1 _ k rfl rfl).symm c) = ix2 a c := by
    funext ax; apply Fin.ext
    match ax with
    | ⟨0, _⟩ => simp [DotDims.lhsIdx, DotDims.transposedRhs]; rfl
    | ⟨1, _⟩ => simp [DotDims.lhsIdx, DotDims.transposedRhs]; exact hc
  -- the right operand at (b, c): its ROW is the output's column, its column the contracted coordinate
  have hr : (DotDims.transposedRhs m k n).rhsIdx (ix2 a b) ((contrEquiv1 _ k rfl rfl).symm c) = ix2 b c := by
    funext ax; apply Fin.ext
    match ax with
    | ⟨0, _⟩ => simp [DotDims.rhsIdx, DotDims.transposedRhs]; rfl
    | ⟨1, _⟩ => simp [DotDims.rhsIdx, DotDims.transposedRhs]; exact hc
  rw [hl, hr]

/-- The same for a dimension record that is that one under another name. -/
theorem matmul_zero_apply_of_transposedRhs {m k n : Nat} {φ₁ φ₂ : FTy} (d : DotDims ⟨2, ![m, k]⟩ ⟨2, ![n, k]⟩ ⟨2, ![m, n]⟩)
    (hd : d = DotDims.transposedRhs m k n) (prec : Option ContractPrecision)
    (A : FVec Ideal ⟨2, ![m, k]⟩ φ₁) (B : FVec Ideal ⟨2, ![n, k]⟩ φ₂) (a : Fin m) (b : Fin n) :
    matmul d prec A B (constant (⟨2, ![m, n]⟩ : Shape) .f32 0x00000000#32) (ix2 a b)
      = ∑ c : Fin k, A (ix2 a c) * B (ix2 b c) := by
  subst hd; exact matmul_transposedRhs_zero_apply prec A B a b

/-- A one-entry matrix broadcast along a row reads that entry everywhere. -/
theorem broadcastTo_11_1b_apply {α : Type} {n : ℕ} (v : (⟨2, ![1, 1]⟩ : Shape).Idx → α)
    (h : (⟨2, ![1, 1]⟩ : Shape).Broadcasts ⟨2, ![1, n]⟩) (p : Fin 1) (c : Fin n) :
    broadcastTo ⟨2, ![1, n]⟩ v h (ix2 p c) = v (ix2 (0 : Fin 1) (0 : Fin 1)) := by
  refine broadcastTo_apply v h (ix2 p c) (ix2 (0 : Fin 1) (0 : Fin 1)) fun ax => ?_
  match ax with
  | ⟨0, _⟩ => rfl
  | ⟨1, _⟩ => rfl

/-! ## The body's term in three named pieces -/

/-- The affine part of a hidden layer on a block, as the body spells it: the narrowed block times the weight matrix
    into a zero accumulator, plus the bias row laid over every row. -/
def affine (h : FVec Ideal S2560x128 .f32) (W : FVec Ideal S128x128 .bf16) (b : FVec Ideal S1x128 .f32) : FVec Ideal S2560x128 .f32 :=
  addf (matmul dot_S2560x128_S128x128_S2560x128_1_0_0_1_n_n none (truncf .bf16 h bitsLt_bf16_f32)
        (shapeCast S128x128 W shapeCasts_S128x128_S128x128) (constant (F := Ideal) S2560x128 .f32 0x00000000#32))
    (broadcastTo S2560x128 (shapeCast S1x128 b shapeCasts_S1x128_S1x128) broadcasts_S1x128_S2560x128)

/-- The leaky rectifier on a block, as the body spells it: compare with zero, scale by the slope word, select. -/
def rect (v : FVec Ideal S2560x128 .f32) : FVec Ideal S2560x128 .f32 :=
  select (cmpf .oge v (broadcast S2560x128 (Scalar.ofBits (F := Ideal) .f32 0x00000000#32))) v
    (mulf (broadcast S2560x128 (Scalar.ofBits (F := Ideal) .f32 0x3C23D70A#32)) v)

/-- The read-out of a block, as the body spells it: the last-weight row times the narrowed block with the second axis
    of both contracted, plus the one-entry bias laid along the row, the logistic function, and the row laid over 256 rows. -/
def readout (h : FVec Ideal S2560x128 .f32) (w : FVec Ideal S1x128 .bf16) (β : FVec Ideal S1x1 .f32) : FVec Ideal S256x2560 .f32 :=
  broadcastTo S256x2560
    (shapeCast S1x2560
      (logistic (addf
        (matmul dot_S1x128_S2560x128_S1x2560_1_1_0_0_n_n none (shapeCast S1x128 w shapeCasts_S1x128_S1x128)
          (truncf .bf16 h bitsLt_bf16_f32) (constant (F := Ideal) S1x2560 .f32 0x00000000#32))
        (broadcastTo S1x2560 (shapeCast S1x1 β shapeCasts_S1x1_S1x1) broadcasts_S1x1_S1x2560)))
      shapeCasts_S1x2560_S1x2560)
    broadcasts_S1x2560_S256x2560

/-- The first payload is the affine part of the third layer over the first two layers. -/
theorem pay2_eq (X0 : Vec Ideal S2560x128 .f32) (X1 : Vec Ideal S128x128 .bf16) (X2 : Vec Ideal S1x128 .f32) (X3 : Vec Ideal S128x128 .bf16)
    (X4 : Vec Ideal S1x128 .f32) (X5 : Vec Ideal S128x128 .bf16) (X6 : Vec Ideal S1x128 .f32) :
    k0_pay2 X0 X1 X2 X3 X4 X5 X6 = affine (rect (affine (rect (affine X0 X1 X2)) X3 X4)) X5 X6 := rfl

/-- What the body stores is the read-out of the fourth layer over the rectified first payload (the second payload is
    the rectifier's comparison of the first). -/
theorem stored_eq (X0 : Vec Ideal S2560x128 .f32) (X1 : Vec Ideal S128x128 .bf16) (X2 : Vec Ideal S1x128 .f32) (X3 : Vec Ideal S128x128 .bf16)
    (X4 : Vec Ideal S1x128 .f32) (X5 : Vec Ideal S128x128 .bf16) (X6 : Vec Ideal S1x128 .f32) (X7 : Vec Ideal S128x128 .bf16)
    (X8 : Vec Ideal S1x128 .f32) (X9 : Vec Ideal S1x128 .bf16) (X10 : Vec Ideal S1x1 .f32) :
    KDats.stored X0 X1 X2 X3 X4 X5 X6 X7 X8 X9 X10
      = readout (rect (affine (rect (k0_pay2 X0 X1 X2 X3 X4 X5 X6)) X7 X8)) X9 X10 := rfl

/-! ## The pieces read at an entry -/

/-- The logistic function on a block is the extended reals' entry by entry. -/
theorem logistic_apply {s : Shape} {φ : FTy} (v : FVec Ideal s φ) (i : s.Idx) : logistic v i = Ideal.logistic (v i) := rfl

/-- The rectifier piece is the leaky rectifier entry by entry. -/
theorem rect_apply (v : FVec Ideal S2560x128 .f32) (i : S2560x128.Idx) : rect v i = Cert.Spec.lrelu (v i) := rfl

/-- The affine piece on a block `h` whose row `y` is `x`, at (y, j): Σ_k x_k · W(k, j) + b(0, j). (The narrowing of
    `h` before the product is the identity on extended reals, and the two re-shapings are to the shape they start from.) -/
theorem affine_apply (h : FVec Ideal S2560x128 .f32) (W : FVec Ideal S128x128 .bf16) (b : FVec Ideal S1x128 .f32)
    (y : Fin 2560) (j : Fin 128) (x : Fin 128 → EReal) (hx : ∀ k : Fin 128, h (ix2 y k) = x k) :
    affine h W b (ix2 y j) = (∑ k : Fin 128, x k * W (ix2 k j)) + b (ix2 (0 : Fin 1) j) := by
  unfold affine
  rw [addf_apply, shapeCast_self, shapeCast_self,
    LibPlainDot.matmul_zero_apply_of_plain dot_S2560x128_S128x128_S2560x128_1_0_0_1_n_n rfl none _ W y j,
    broadcastTo_1b_ab_apply b _ y j]
  exact congrArg (· + b (ix2 (0 : Fin 1) j)) (Finset.sum_congr rfl fun k _ => congrArg (· * W (ix2 k j)) (hx k))

/-- A whole hidden layer on such a block, at (y, j): `Cert.Spec.layer` of the weight matrix and the bias row, read entry
    by entry, applied to the row `x`. -/
theorem layer_apply (h : FVec Ideal S2560x128 .f32) (W : FVec Ideal S128x128 .bf16) (b : FVec Ideal S1x128 .f32)
    (y : Fin 2560) (j : Fin 128) (x : Fin 128 → EReal) (hx : ∀ k : Fin 128, h (ix2 y k) = x k) :
    rect (affine h W b) (ix2 y j)
      = Cert.Spec.layer (fun k j => W (ix2 k j)) (fun j => b (ix2 (0 : Fin 1) j)) x j :=
  (rect_apply _ (ix2 y j)).trans (congrArg Cert.Spec.lrelu (affine_apply h W b y j x hx))

/-- The read-out piece on a block `h` whose row `y` is `x`, at (r, y) for any of the 256 rows r: the logistic function
    of Σ_k x_k · w(0, k) + β(0, 0). The body's product has the weight as its LEFT factor, w(0, k) · h(y, k); the
    extended reals' product is commutative, so no finiteness is asked. -/
theorem readout_apply (h : FVec Ideal S2560x128 .f32) (w : FVec Ideal S1x128 .bf16) (β : FVec Ideal S1x1 .f32)
    (r : Fin 256) (y : Fin 2560) (x : Fin 128 → EReal) (hx : ∀ k : Fin 128, h (ix2 y k) = x k) :
    readout h w β (ix2 r y)
      = Ideal.logistic (Cert.Spec.logit (fun k => w (ix2 (0 : Fin 1) k)) (β (ix2 (0 : Fin 1) (0 : Fin 1))) x) := by
  unfold readout
  rw [broadcastTo_1b_ab_apply _ _ r y, shapeCast_self]
  rw [logistic_apply, addf_apply, shapeCast_self, shapeCast_self,
    matmul_zero_apply_of_transposedRhs dot_S1x128_S2560x128_S1x2560_1_1_0_0_n_n rfl none w _ (0 : Fin 1) y,
    broadcastTo_11_1b_apply β _ (0 : Fin 1) y]
  refine congrArg Ideal.logistic (congrArg (· + β (ix2 (0 : Fin 1) (0 : Fin 1))) (Finset.sum_congr rfl fun k _ => ?_))
  show w (ix2 (0 : Fin 1) k) * h (ix2 y k) = x k * w (ix2 (0 : Fin 1) k)
  rw [hx k]
  exact mul_comm _ _

theorem stored_apply (X0 : Vec Ideal S2560x128 .f32) (X1 : Vec Ideal S128x128 .bf16) (X2 : Vec Ideal S1x128 .f32) (X3 : Vec Ideal S128x128 .bf16)
    (X4 : Vec Ideal S1x128 .f32) (X5 : Vec Ideal S128x128 .bf16) (X6 : Vec Ideal S1x128 .f32) (X7 : Vec Ideal S128x128 .bf16)
    (X8 : Vec Ideal S1x128 .f32) (X9 : Vec Ideal S1x128 .bf16) (X10 : Vec Ideal S1x1 .f32) (b : Fin 256) (y : Fin 2560) :
    KDats.stored X0 X1 X2 X3 X4 X5 X6 X7 X8 X9 X10 (ix2 b y)
      = Cert.Spec.prob (fun k j => X1 (ix2 k j)) (fun j => X2 (ix2 (0 : Fin 1) j)) (fun k j => X3 (ix2 k j)) (fun j => X4 (ix2 (0 : Fin 1) j))
          (fun k j => X5 (ix2 k j)) (fun j => X6 (ix2 (0 : Fin 1) j)) (fun k j => X7 (ix2 k j)) (fun j => X8 (ix2 (0 : Fin 1) j))
          (fun k => X9 (ix2 (0 : Fin 1) k)) (X10 (ix2 (0 : Fin 1) (0 : Fin 1))) (fun k => X0 (ix2 y k)) := by
  -- the stored block is the read-out of the fourth layer; under it the first payload is the third layer's affine part
  rw [stored_eq, pay2_eq]
  -- row y of the block after each layer is that layer of `Cert.Spec` on the row before it
  exact readout_apply _ X9 X10 b y _ fun k4 =>
    layer_apply _ X7 X8 y k4 _ fun k3 =>
      layer_apply _ X5 X6 y k3 _ fun k2 =>
        layer_apply _ X3 X4 y k2 _ fun k1 =>
          layer_apply X0 X1 X2 y k1 _ fun _ => rfl

end Cert.KernelIdeal.KPayload

end
-- ==== Proof.KTerms.lean ====
/-
  The kernel program's host side as whole-array terms of its arguments.
  Before the launch: each weight matrix changed to the narrow format (the identity on extended reals), the last weight
  column turned into a row and changed likewise, each bias vector recast as a one-row matrix.
  After the launch: the rows of the node array picked by the (wrapped) event indices, two layers with the leaky
  rectifier and a read-out — the second result.
-/
import proofs.«163596_j83107617178205_1_alg».proof.KernelIdeal
import Idealize.ShloMosaic.PureOps.Ideal

noncomputable section

namespace Cert.KernelIdeal.KTerms

open Idealize.ShloMosaic Cert.KernelIdeal

variable [Facts]
open Facts₀ Facts

variable {F : FTy → Type} [FloatOps F]

/-- A weight matrix as the launch stages it. -/
def wNarrow (W : FVec F S128x128 .f32) : FVec F S128x128 .bf16 := truncf .bf16 W bitsLt_bf16_f32

/-- The last weight column as the launch stages it: a row, narrowed. -/
def w5Row (w5 : FVec F S128x1 .f32) : FVec F S1x128 .bf16 :=
  truncf .bf16 (transpose S1x128 [1, 0] w5 transposes_S128x1_S1x128_1_0) bitsLt_bf16_f32

/-- A bias vector as the launch stages it: a one-row matrix. -/
def bRow (b : FVec F S128 .f32) : FVec F S1x128 .f32 := shapeCast S1x128 b shapeCasts_S128_S1x128

/-- The last bias as the launch stages it: a one-entry matrix. -/
def b5Cell (b5 : FVec F S1 .f32) : FVec F S1x1 .f32 := shapeCast S1x1 b5 shapeCasts_S1_S1x1

/-- The leaky rectifier on an event-sized array. -/
def lreluB (x : FVec F S256x128 .f32) : FVec F S256x128 .f32 :=
  select (cmpf .oge x (broadcastInDim S256x128 ![] bcast_S_S256x128 (constant (F := F) S_ .f32 0x00000000#32))) x
    (mulf (broadcastInDim S256x128 ![] bcast_S_S256x128 (constant (F := F) S_ .f32 0x3C23D70A#32)) x)

/-- A linear layer on an event-sized array. -/
def linB (x : FVec F S256x128 .f32) (W : FVec F S128x128 .f32) (b : FVec F S128 .f32) : FVec F S256x128 .f32 :=
  addf (Host.dotGeneral dot_S256x128_S128x128_S256x128_1_0_0_1_n_n none x W)
    (broadcastInDim S256x128 ![0, 1] bcast_S1x128_S256x128_0_1 (broadcastInDim S1x128 ![1] bcast_S128_S1x128_1 b))

/-- The event indices, a negative one wrapped by the node count. -/
def wrapIdx (u : IVec S256 32) : IVec S256x1 32 :=
  broadcastInDim S256x1 ![0] bcast_S256_S256x1_0
    (select (cmpi .slt u (broadcastInDim S256 ![] bcast_S_S256 (constantI S_ 32 0#32)))
      (addi u (broadcastInDim S256 ![] bcast_S_S256 (constantI S_ 32 50000#32))) u)

/-- The kernel program's second result. -/
def KTime (z : FVec F S50000x128 .f32) (u : IVec S256 32) (T1 : FVec F S128x128 .f32) (c1 : FVec F S128 .f32)
    (T2 : FVec F S128x128 .f32) (c2 : FVec F S128 .f32) (t3 : FVec F S128x1 .f32) (c3 : FVec F S1 .f32) :
    FVec F S256 .f32 :=
  shapeCast S256
    (addf (Host.dotGeneral dot_S256x128_S128x1_S256x1_1_0_0_1_n_n none
        (lreluB (linB (lreluB (linB (Host.gather gather_S50000x128_S256x1_S256x128_1_0_n_n_0_1_1128 z (wrapIdx u)) T1 c1)) T2 c2)) t3)
      (broadcastInDim S256x1 ![0, 1] bcast_S1x1_S256x1_0_1 (broadcastInDim S1x1 ![1] bcast_S1_S1x1_1 c3)))
    shapeCasts_S256x1_S256

end Cert.KernelIdeal.KTerms

end
-- ==== Proof.KFinal.lean ====
/-
  What the idealized kernel program's two results hold after the run, in closed form.
  The result array is written back block by block, twenty blocks of 2560 columns, the last cut at column 50000; the
  column n lies in block n / 2560 at offset n % 2560, inside the part written back; there the stored block is the row
  map of `Cert.Spec` on row n % 2560 of the node block, which inside the array is row n of the node array. The
  weight blocks are the whole weight arrays as the host prepared them (narrowed, the last column turned into a row,
  the biases recast), read back entry by entry. The second result is the host operations after the launch applied to
  the arguments, which the launch leaves unchanged.
-/
import proofs.«163596_j83107617178205_1_alg».proof.Proof.KDats
import proofs.«163596_j83107617178205_1_alg».proof.Proof.KTerms
import proofs.«163596_j83107617178205_1_alg».proof.Proof.KPayload
import proofs.«163596_j83107617178205_1_alg».proof.Proof.Spec
import Idealize.ShloMosaic.Lib.Pipeline.Value
import Idealize.ShloMosaic.Lib.ValueIdx
import Idealize.ShloMosaic.Lib.ValueLayout
import Idealize.ShloMosaic.Lib.StableHlo.Run

noncomputable section

namespace Cert.KernelIdeal.KFinal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.ValueIdx

variable (m : (ℓ : Loc nD τ sig) → Buf (Elt Ideal) ℓ)

/-! ### The weight and bias arrays the launch stages: each a host operation's result on an argument -/

/-- The array of window 1 is the weight matrix `arg2` narrowed. -/
theorem V_main_v0 (c : Dev nD) : V m c main_v0 = KTerms.wNarrow (F := Ideal) (m ((c.tc : Thread nD τ).loc main_arg2)) := by
  show StableHlo.after hostOps0 (fun b => m (c, b)) (Proc.devRef .tc main_v0) = _
  after_results
  rfl

/-- The array of window 3 is the weight matrix `arg4` narrowed. -/
theorem V_main_v1 (c : Dev nD) : V m c main_v1 = KTerms.wNarrow (F := Ideal) (m ((c.tc : Thread nD τ).loc main_arg4)) := by
  show StableHlo.after hostOps0 (fun b => m (c, b)) (Proc.devRef .tc main_v1) = _
  after_results
  rfl

/-- The array of window 5 is the weight matrix `arg6` narrowed. -/
theorem V_main_v2 (c : Dev nD) : V m c main_v2 = KTerms.wNarrow (F := Ideal) (m ((c.tc : Thread nD τ).loc main_arg6)) := by
  show StableHlo.after hostOps0 (fun b => m (c, b)) (Proc.devRef .tc main_v2) = _
  after_results
  rfl

/-- The array of window 7 is the weight matrix `arg8` narrowed. -/
theorem V_main_v3 (c : Dev nD) : V m c main_v3 = KTerms.wNarrow (F := Ideal) (m ((c.tc : Thread nD τ).loc main_arg8)) := by
  show StableHlo.after hostOps0 (fun b => m (c, b)) (Proc.devRef .tc main_v3) = _
  after_results
  rfl

/-- The array of window 9 is the last weight column `arg10` turned into a row and narrowed. -/
theorem V_main_v5 (c : Dev nD) : V m c main_v5 = KTerms.w5Row (F := Ideal) (m ((c.tc : Thread nD τ).loc main_arg10)) := by
  show StableHlo.after hostOps0 (fun b => m (c, b)) (Proc.devRef .tc main_v5) = _
  after_results
  rfl

/-- The array of window 2 is the bias vector `arg3` recast as a one-row matrix. -/
theorem V_main_v6 (c : Dev nD) : V m c main_v6 = KTerms.bRow (F := Ideal) (m ((c.tc : Thread nD τ).loc main_arg3)) := by
  show StableHlo.after hostOps0 (fun b => m (c, b)) (Proc.devRef .tc main_v6) = _
  after_results
  rfl

/-- The array of window 4 is the bias vector `arg5` recast as a one-row matrix. -/
theorem V_main_v7 (c : Dev nD) : V m c main_v7 = KTerms.bRow (F := Ideal) (m ((c.tc : Thread nD τ).loc main_arg5)) := by
  show StableHlo.after hostOps0 (fun b => m (c, b)) (Proc.devRef .tc main_v7) = _
  after_results
  rfl

/-- The array of window 6 is the bias vector `arg7` recast as a one-row matrix. -/
theorem V_main_v8 (c : Dev nD) : V m c main_v8 = KTerms.bRow (F := Ideal) (m ((c.tc : Thread nD τ).loc main_arg7)) := by
  show StableHlo.after hostOps0 (fun b => m (c, b)) (Proc.devRef .tc main_v8) = _
  after_results
  rfl

/-- The array of window 8 is the bias vector `arg9` recast as a one-row matrix. -/
theorem V_main_v9 (c : Dev nD) : V m c main_v9 = KTerms.bRow (F := Ideal) (m ((c.tc : Thread nD τ).loc main_arg9)) := by
  show StableHlo.after hostOps0 (fun b => m (c, b)) (Proc.devRef .tc main_v9) = _
  after_results
  rfl

/-- The array of window 10 is the last bias `arg11` recast as a one-entry matrix. -/
theorem V_main_v10 (c : Dev nD) : V m c main_v10 = KTerms.b5Cell (F := Ideal) (m ((c.tc : Thread nD τ).loc main_arg11)) := by
  show StableHlo.after hostOps0 (fun b => m (c, b)) (Proc.devRef .tc main_v10) = _
  after_results
  rfl

/-! ### The windows' blocks as entries of the arrays -/

/-- The index maps and the cut extents of the node window and the result window, decided over the twenty points:
    the node window's block index is (t, 0), the result window's (0, t); the cut axis keeps
    min 2560 (50000 - 2560·t) coordinates, the other axis all of its own. -/
theorem idx_facts : ∀ t : Fin cfg0.N,
    win0_0.index t (0 : Fin 2) = t.val ∧ win0_0.index t (1 : Fin 2) = 0
    ∧ win0_11.index t (0 : Fin 2) = 0 ∧ win0_11.index t (1 : Fin 2) = t.val
    ∧ win0_0.xsize (grid0.coords t) (0 : Fin 2) = min 2560 (50000 - 2560 * t.val)
    ∧ win0_0.xsize (grid0.coords t) (1 : Fin 2) = 128
    ∧ win0_11.xsize (grid0.coords t) (0 : Fin 2) = 256
    ∧ win0_11.xsize (grid0.coords t) (1 : Fin 2) = min 2560 (50000 - 2560 * t.val) :=
  (by decide +kernel : ∀ t : Fin grid0.N, _)

/-- Inside the array, row `y` of the node block at point `t` is row `2560·t + y` of the node array. -/
theorem zblk_apply (c : Dev nD) (t : Fin cfg0.N) (y : Fin 2560) (k : Fin 128) (n : Fin 50000)
    (hn : n.val = 2560 * t.val + y.val) :
    KDats.zblk (F := Ideal) m c t (ix2 y k) = m ((c.tc : Thread nD τ).loc main_arg0) (ix2 n k) := by
  obtain ⟨e0, e1, -, -, e4, e5, -, -⟩ := idx_facts t
  have hnlt : n.val < 50000 := n.isLt
  have hy : y.val < 2560 := y.isLt
  have hmv : win0_0.moved (grid0.coords t) (ix2 y k) = true :=
    (win0_0.moved_iff _ _).mpr fun a => match a with
      | ⟨0, _⟩ => by show y.val < win0_0.xsize (grid0.coords t) (0 : Fin 2); rw [e4]; omega
      | ⟨1, _⟩ => by show k.val < win0_0.xsize (grid0.coords t) (1 : Fin 2); rw [e5]; exact k.isLt
  unfold KDats.zblk Pipeline.Window.fill
  rw [dif_pos hmv]
  unfold iblk
  rw [View.read_apply]
  show V m c main_arg0 _ = _
  rw [V_main_arg0]
  refine congrArg _ (funext fun a => Fin.ext ?_)
  match a with
  | ⟨0, _⟩ => show win0_0.index t (0 : Fin 2) * 2560 + 1 * y.val = n.val; rw [e0, hn]; omega
  | ⟨1, _⟩ => show win0_0.index t (1 : Fin 2) * 128 + 1 * k.val = k.val; rw [e1]; omega

/-- The ten weight and bias windows sit at block index (0, 0) at every point. -/
theorem idx_zero : ∀ t : Fin cfg0.N,
    (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0) :=
  (by decide +kernel : ∀ t : Fin grid0.N, _)

/-- The block of window 1 is the weight matrix `arg2`, entry by entry (narrowing is the identity on extended reals). -/
theorem blk1_apply (c : Dev nD) (t : Fin cfg0.N) (k j : Fin 128) :
    (iblk m c 1 t : Vec Ideal S128x128 .bf16) (ix2 k j) = m ((c.tc : Thread nD τ).loc main_arg2) (ix2 k j) := by
  obtain ⟨⟨z0, z1⟩, -, -, -, -, -, -, -, -, -⟩ := idx_zero t
  unfold iblk
  rw [View.read_apply]
  show V m c main_v0 _ = _
  rw [V_main_v0]
  show m ((c.tc : Thread nD τ).loc main_arg2) _ = _
  refine congrArg _ (funext fun a => Fin.ext ?_)
  match a with
  | ⟨0, _⟩ => show win0_1.index t (0 : Fin 2) * 128 + 1 * k.val = k.val; rw [z0]; omega
  | ⟨1, _⟩ => show win0_1.index t (1 : Fin 2) * 128 + 1 * j.val = j.val; rw [z1]; omega

/-- The block of window 3 is the weight matrix `arg4`, entry by entry (narrowing is the identity on extended reals). -/
theorem blk3_apply (c : Dev nD) (t : Fin cfg0.N) (k j : Fin 128) :
    (iblk m c 3 t : Vec Ideal S128x128 .bf16) (ix2 k j) = m ((c.tc : Thread nD τ).loc main_arg4) (ix2 k j) := by
  obtain ⟨-, -, ⟨z0, z1⟩, -, -, -, -, -, -, -⟩ := idx_zero t
  unfold iblk
  rw [View.read_apply]
  show V m c main_v1 _ = _
  rw [V_main_v1]
  show m ((c.tc : Thread nD τ).loc main_arg4) _ = _
  refine congrArg _ (funext fun a => Fin.ext ?_)
  match a with
  | ⟨0, _⟩ => show win0_3.index t (0 : Fin 2) * 128 + 1 * k.val = k.val; rw [z0]; omega
  | ⟨1, _⟩ => show win0_3.index t (1 : Fin 2) * 128 + 1 * j.val = j.val; rw [z1]; omega

/-- The block of window 5 is the weight matrix `arg6`, entry by entry (narrowing is the identity on extended reals). -/
theorem blk5_apply (c : Dev nD) (t : Fin cfg0.N) (k j : Fin 128) :
    (iblk m c 5 t : Vec Ideal S128x128 .bf16) (ix2 k j) = m ((c.tc : Thread nD τ).loc main_arg6) (ix2 k j) := by
  obtain ⟨-, -, -, -, ⟨z0, z1⟩, -, -, -, -, -⟩ := idx_zero t
  unfold iblk
  rw [View.read_apply]
  show V m c main_v2 _ = _
  rw [V_main_v2]
  show m ((c.tc : Thread nD τ).loc main_arg6) _ = _
  refine congrArg _ (funext fun a => Fin.ext ?_)
  match a with
  | ⟨0, _⟩ => show win0_5.index t (0 : Fin 2) * 128 + 1 * k.val = k.val; rw [z0]; omega
  | ⟨1, _⟩ => show win0_5.index t (1 : Fin 2) * 128 + 1 * j.val = j.val; rw [z1]; omega

/-- The block of window 7 is the weight matrix `arg8`, entry by entry (narrowing is the identity on extended reals). -/
theorem blk7_apply (c : Dev nD) (t : Fin cfg0.N) (k j : Fin 128) :
    (iblk m c 7 t : Vec Ideal S128x128 .bf16) (ix2 k j) = m ((c.tc : Thread nD τ).loc main_arg8) (ix2 k j) := by
  obtain ⟨-, -, -, -, -, -, ⟨z0, z1⟩, -, -, -⟩ := idx_zero t
  unfold iblk
  rw [View.read_apply]
  show V m c main_v3 _ = _
  rw [V_main_v3]
  show m ((c.tc : Thread nD τ).loc main_arg8) _ = _
  refine congrArg _ (funext fun a => Fin.ext ?_)
  match a with
  | ⟨0, _⟩ => show win0_7.index t (0 : Fin 2) * 128 + 1 * k.val = k.val; rw [z0]; omega
  | ⟨1, _⟩ => show win0_7.index t (1 : Fin 2) * 128 + 1 * j.val = j.val; rw [z1]; omega

/-- The block of window 2 is the bias vector `arg3` as a one-row matrix: its entry (0, j) is entry j of the vector. -/
theorem blk2_apply (c : Dev nD) (t : Fin cfg0.N) (j : Fin 128) :
    (iblk m c 2 t : Vec Ideal S1x128 .f32) (ix2 (0 : Fin 1) j) = m ((c.tc : Thread nD τ).loc main_arg3) (ix1 j) := by
  obtain ⟨-, ⟨z0, z1⟩, -, -, -, -, -, -, -, -⟩ := idx_zero t
  have he : ((cfg0.win 2).blk t).view.emb (ix2 (0 : Fin 1) j) = (ix2 (0 : Fin 1) j : S1x128.Idx) :=
    funext fun a => Fin.ext (match a with
      | ⟨0, _⟩ => by show win0_2.index t (0 : Fin 2) * 1 + 1 * 0 = 0; rw [z0]
      | ⟨1, _⟩ => by show win0_2.index t (1 : Fin 2) * 128 + 1 * j.val = j.val; rw [z1]; omega)
  unfold iblk
  rw [View.read_apply]
  show V m c main_v6 _ = _
  rw [V_main_v6, he]
  exact shapeCast_a_1a_apply (m ((c.tc : Thread nD τ).loc main_arg3)) shapeCasts_S128_S1x128 (0 : Fin 1) j

/-- The block of window 4 is the bias vector `arg5` as a one-row matrix: its entry (0, j) is entry j of the vector. -/
theorem blk4_apply (c : Dev nD) (t : Fin cfg0.N) (j : Fin 128) :
    (iblk m c 4 t : Vec Ideal S1x128 .f32) (ix2 (0 : Fin 1) j) = m ((c.tc : Thread nD τ).loc main_arg5) (ix1 j) := by
  obtain ⟨-, -, -, ⟨z0, z1⟩, -, -, -, -, -, -⟩ := idx_zero t
  have he : ((cfg0.win 4).blk t).view.emb (ix2 (0 : Fin 1) j) = (ix2 (0 : Fin 1) j : S1x128.Idx) :=
    funext fun a => Fin.ext (match a with
      | ⟨0, _⟩ => by show win0_4.index t (0 : Fin 2) * 1 + 1 * 0 = 0; rw [z0]
      | ⟨1, _⟩ => by show win0_4.index t (1 : Fin 2) * 128 + 1 * j.val = j.val; rw [z1]; omega)
  unfold iblk
  rw [View.read_apply]
  show V m c main_v7 _ = _
  rw [V_main_v7, he]
  exact shapeCast_a_1a_apply (m ((c.tc : Thread nD τ).loc main_arg5)) shapeCasts_S128_S1x128 (0 : Fin 1) j

/-- The block of window 6 is the bias vector `arg7` as a one-row matrix: its entry (0, j) is entry j of the vector. -/
theorem blk6_apply (c : Dev nD) (t : Fin cfg0.N) (j : Fin 128) :
    (iblk m c 6 t : Vec Ideal S1x128 .f32) (ix2 (0 : Fin 1) j) = m ((c.tc : Thread nD τ).loc main_arg7) (ix1 j) := by
  obtain ⟨-, -, -, -, -, ⟨z0, z1⟩, -, -, -, -⟩ := idx_zero t
  have he : ((cfg0.win 6).blk t).view.emb (ix2 (0 : Fin 1) j) = (ix2 (0 : Fin 1) j : S1x128.Idx) :=
    funext fun a => Fin.ext (match a with
      | ⟨0, _⟩ => by show win0_6.index t (0 : Fin 2) * 1 + 1 * 0 = 0; rw [z0]
      | ⟨1, _⟩ => by show win0_6.index t (1 : Fin 2) * 128 + 1 * j.val = j.val; rw [z1]; omega)
  unfold iblk
  rw [View.read_apply]
  show V m c main_v8 _ = _
  rw [V_main_v8, he]
  exact shapeCast_a_1a_apply (m ((c.tc : Thread nD τ).loc main_arg7)) shapeCasts_S128_S1x128 (0 : Fin 1) j

/-- The block of window 8 is the bias vector `arg9` as a one-row matrix: its entry (0, j) is entry j of the vector. -/
theorem blk8_apply (c : Dev nD) (t : Fin cfg0.N) (j : Fin 128) :
    (iblk m c 8 t : Vec Ideal S1x128 .f32) (ix2 (0 : Fin 1) j) = m ((c.tc : Thread nD τ).loc main_arg9) (ix1 j) := by
  obtain ⟨-, -, -, -, -, -, -, ⟨z0, z1⟩, -, -⟩ := idx_zero t
  have he : ((cfg0.win 8).blk t).view.emb (ix2 (0 : Fin 1) j) = (ix2 (0 : Fin 1) j : S1x128.Idx) :=
    funext fun a => Fin.ext (match a with
      | ⟨0, _⟩ => by show win0_8.index t (0 : Fin 2) * 1 + 1 * 0 = 0; rw [z0]
      | ⟨1, _⟩ => by show win0_8.index t (1 : Fin 2) * 128 + 1 * j.val = j.val; rw [z1]; omega)
  unfold iblk
  rw [View.read_apply]
  show V m c main_v9 _ = _
  rw [V_main_v9, he]
  exact shapeCast_a_1a_apply (m ((c.tc : Thread nD τ).loc main_arg9)) shapeCasts_S128_S1x128 (0 : Fin 1) j

/-- The block of window 9 is the last weight column `arg10` as a row: its entry (0, k) is entry (k, 0) of the column. -/
theorem blk9_apply (c : Dev nD) (t : Fin cfg0.N) (k : Fin 128) :
    (iblk m c 9 t : Vec Ideal S1x128 .bf16) (ix2 (0 : Fin 1) k) = m ((c.tc : Thread nD τ).loc main_arg10) (ix2 k (0 : Fin 1)) := by
  obtain ⟨-, -, -, -, -, -, -, -, ⟨z0, z1⟩, -⟩ := idx_zero t
  have he : ((cfg0.win 9).blk t).view.emb (ix2 (0 : Fin 1) k) = (ix2 (0 : Fin 1) k : S1x128.Idx) :=
    funext fun a => Fin.ext (match a with
      | ⟨0, _⟩ => by show win0_9.index t (0 : Fin 2) * 1 + 1 * 0 = 0; rw [z0]
      | ⟨1, _⟩ => by show win0_9.index t (1 : Fin 2) * 128 + 1 * k.val = k.val; rw [z1]; omega)
  unfold iblk
  rw [View.read_apply]
  show V m c main_v5 _ = _
  rw [V_main_v5, he]
  exact transpose_ix2_apply (m ((c.tc : Thread nD τ).loc main_arg10)) transposes_S128x1_S1x128_1_0 (0 : Fin 1) k

/-- The block of window 10 is the last bias `arg11` as a one-entry matrix. -/
theorem blk10_apply (c : Dev nD) (t : Fin cfg0.N) :
    (iblk m c 10 t : Vec Ideal S1x1 .f32) (ix2 (0 : Fin 1) (0 : Fin 1)) = m ((c.tc : Thread nD τ).loc main_arg11) (ix1 (0 : Fin 1)) := by
  obtain ⟨-, -, -, -, -, -, -, -, -, ⟨z0, z1⟩⟩ := idx_zero t
  have he : ((cfg0.win 10).blk t).view.emb (ix2 (0 : Fin 1) (0 : Fin 1)) = (ix2 (0 : Fin 1) (0 : Fin 1) : S1x1.Idx) :=
    funext fun a => Fin.ext (match a with
      | ⟨0, _⟩ => by show win0_10.index t (0 : Fin 2) * 1 + 1 * 0 = 0; rw [z0]
      | ⟨1, _⟩ => by show win0_10.index t (1 : Fin 2) * 1 + 1 * 0 = 0; rw [z1])
  unfold iblk
  rw [View.read_apply]
  show V m c main_v10 _ = _
  rw [V_main_v10, he]
  exact shapeCast_a_1a_apply (m ((c.tc : Thread nD τ).loc main_arg11)) shapeCasts_S1_S1x1 (0 : Fin 1) (0 : Fin 1)

/-- The row map of `Cert.Spec` depends on its weights, biases and row only through their entries. -/
theorem prob_congr {W1 W1' : Fin 128 → Fin 128 → EReal} {b1 b1' : Fin 128 → EReal} {W2 W2' : Fin 128 → Fin 128 → EReal}
    {b2 b2' : Fin 128 → EReal} {W3 W3' : Fin 128 → Fin 128 → EReal} {b3 b3' : Fin 128 → EReal}
    {W4 W4' : Fin 128 → Fin 128 → EReal} {b4 b4' : Fin 128 → EReal} {w w' : Fin 128 → EReal} {β β' : EReal}
    {x x' : Fin 128 → EReal}
    (h1 : ∀ k j, W1 k j = W1' k j) (g1 : ∀ j, b1 j = b1' j) (h2 : ∀ k j, W2 k j = W2' k j) (g2 : ∀ j, b2 j = b2' j)
    (h3 : ∀ k j, W3 k j = W3' k j) (g3 : ∀ j, b3 j = b3' j) (h4 : ∀ k j, W4 k j = W4' k j) (g4 : ∀ j, b4 j = b4' j)
    (hw : ∀ k, w k = w' k) (hβ : β = β') (hx : ∀ k, x k = x' k) :
    Cert.Spec.prob W1 b1 W2 b2 W3 b3 W4 b4 w β x = Cert.Spec.prob W1' b1' W2' b2' W3' b3' W4' b4' w' β' x' := by
  obtain rfl : W1 = W1' := funext fun k => funext fun j => h1 k j
  obtain rfl : b1 = b1' := funext g1
  obtain rfl : W2 = W2' := funext fun k => funext fun j => h2 k j
  obtain rfl : b2 = b2' := funext g2
  obtain rfl : W3 = W3' := funext fun k => funext fun j => h3 k j
  obtain rfl : b3 = b3' := funext g3
  obtain rfl : W4 = W4' := funext fun k => funext fun j => h4 k j
  obtain rfl : b4 = b4' := funext g4
  obtain rfl : w = w' := funext hw
  obtain rfl : x = x' := funext hx
  rw [hβ]

/-- Entry (b, y) of the result block at point `t`, for a column `2560·t + y` inside the array: the row map on row
    `2560·t + y` of the node array, with the weights and biases of the arguments. -/
theorem oblk_apply (c : Dev nD) (t : Fin cfg0.N) (b : Fin 256) (y : Fin 2560) (n : Fin 50000)
    (hn : n.val = 2560 * t.val + y.val) :
    KDats.oblk (F := Ideal) m c t (ix2 b y)
      = Cert.Spec.probAt (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) n := by
  unfold KDats.oblk
  refine (KPayload.stored_apply (KDats.zblk m c t) (iblk m c 1 t) (iblk m c 2 t) (iblk m c 3 t) (iblk m c 4 t)
    (iblk m c 5 t) (iblk m c 6 t) (iblk m c 7 t) (iblk m c 8 t) (iblk m c 9 t) (iblk m c 10 t) b y).trans ?_
  unfold Cert.Spec.probAt
  exact prob_congr (fun k j => blk1_apply m c t k j) (fun j => blk2_apply m c t j)
    (fun k j => blk3_apply m c t k j) (fun j => blk4_apply m c t j)
    (fun k j => blk5_apply m c t k j) (fun j => blk6_apply m c t j)
    (fun k j => blk7_apply m c t k j) (fun j => blk8_apply m c t j)
    (fun k => blk9_apply m c t k) (blk10_apply m c t) (fun k => zblk_apply m c t y k n hn)

/-- The result array after the last write-back is the first result of `Cert.Spec`. -/
theorem arrAt11_eq (c : Dev nD) :
    (KDats.dats (F := Ideal) m 0 c).arrAt 11 cfg0.N = Cert.Spec.probArr (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
  refine (KDats.dats (F := Ideal) m 0 c).arrAt_eq_of_cover 11 _ (fun t _ => ?_) (fun (i : S256x50000.Idx) => ?_)
  · -- what point `t` writes back: the columns of its block inside the array, each the row map on its own row
    funext j
    obtain ⟨-, -, -, f3, -, -, f6, f7⟩ := idx_facts t
    have hb : (j 0).val < 256 := by
      have h : (j 0).val < win0_11.xsize (grid0.coords t) (0 : Fin 2) := (j 0).isLt
      rw [f6] at h; exact h
    have hj1 : (j 1).val < min 2560 (50000 - 2560 * t.val) := by
      have h : (j 1).val < win0_11.xsize (grid0.coords t) (1 : Fin 2) := (j 1).isLt
      rw [f7] at h; exact h
    have hy : (j 1).val < 2560 := by omega
    have hn : ((((cfg0.win 11).blk t).view.emb j) 1).val = 2560 * t.val + (j 1).val := by
      show win0_11.index t (1 : Fin 2) * 2560 + 1 * (j 1).val = _
      rw [f3]; omega
    have hx : win0_11.xinj (grid0.coords t) j = (ix2 (⟨(j 0).val, hb⟩ : Fin 256) (⟨(j 1).val, hy⟩ : Fin 2560) : S256x2560.Idx) :=
      funext fun a => match a with | ⟨0, _⟩ => rfl | ⟨1, _⟩ => rfl
    show (cfg0.win 11).cut (grid0.coords t) ((KDats.dats (F := Ideal) m 0 c).after 11 t) j = _
    dsimp only [KDats.dats]
    refine (congrArg (KDats.oblk (F := Ideal) m c t) hx).trans ?_
    refine (oblk_apply m c t ⟨(j 0).val, hb⟩ ⟨(j 1).val, hy⟩ ((((cfg0.win 11).blk t).view.emb j) 1) hn).trans ?_
    rfl
  · -- column `i 1` lies in the block of point `i 1 / 2560`, within the part written back
    have hi0 : (i 0).val < 256 := (i 0).isLt
    have hi1 : (i 1).val < 50000 := (i 1).isLt
    have hN : grid0.N = 20 := N_0
    obtain ⟨t, ht⟩ : ∃ t : Fin cfg0.N, t.val = (i 1).val / 2560 :=
      ⟨⟨(i 1).val / 2560, by show (i 1).val / 2560 < grid0.N; rw [hN]; omega⟩, rfl⟩
    obtain ⟨-, -, f2, f3, -, -, f6, f7⟩ := idx_facts t
    refine ⟨t, flush0_11 t, ?_⟩
    show i ∈ ((View.whole main_v11).slice (win0_11.rect t)).set
    rw [View.set_slice_whole, Rect.mem_set_unit]
    intro a
    match a with
    | ⟨0, _⟩ =>
      show win0_11.index t (0 : Fin 2) * 256 ≤ (i 0).val
        ∧ (i 0).val < win0_11.index t (0 : Fin 2) * 256 + win0_11.xsize (grid0.coords t) (0 : Fin 2)
      rw [f2, f6]; omega
    | ⟨1, _⟩ =>
      show win0_11.index t (1 : Fin 2) * 2560 ≤ (i 1).val
        ∧ (i 1).val < win0_11.index t (1 : Fin 2) * 2560 + win0_11.xsize (grid0.coords t) (1 : Fin 2)
      rw [f3, f7]; omega

/-- The second result after the host operations that follow the launch. -/
theorem tail_v33_eq (c : Dev nD) :
    Pipeline.afterTail₀ cfgs (KDats.dats (F := Ideal) m) 0 (V0 m) [hostOps1, hostOps1_1, hostOps1_2, hostOps1_3, hostOps1_4] c main_v33
      = KTerms.KTime (F := Ideal) (m ((c.tc : Thread nD τ).loc main_arg0)) (m ((c.tc : Thread nD τ).loc main_arg1)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) := by
  -- the node array is an input window's array: the launch never writes it, and it ends as launched
  have e0 : Pipeline.withArrays (cfgs 0).spec c (V0 m c) (fun w => (KDats.dats (F := Ideal) m 0 c).arrAt w (cfgs 0).N)
      (Proc.devRef .tc main_arg0) = m ((c.tc : Thread nD τ).loc main_arg0) :=
    (Pipeline.withArrays_arr spec0 launch0.win.arr_inj c _ _ 0).trans
      (((KDats.dats (F := Ideal) m 0 c).arrAt_in 0 rfl _).trans ((KDats.A_eq m c 0).trans (V_main_arg0 m c)))
  -- the other seven arguments the later operations read are no window's array: the launch leaves them as launched
  have e1 : Pipeline.withArrays (cfgs 0).spec c (V0 m c) (fun w => (KDats.dats (F := Ideal) m 0 c).arrAt w (cfgs 0).N)
      (Proc.devRef .tc main_arg1) = m ((c.tc : Thread nD τ).loc main_arg1) :=
    (Pipeline.withArrays_of_ne _ c (V0 m c) _ main_arg1 (by exact (by decide : ∀ w, Pipeline.arrRef spec0 w ≠ main_arg1))).trans
      (V_main_arg1 m c)
  have e12 : Pipeline.withArrays (cfgs 0).spec c (V0 m c) (fun w => (KDats.dats (F := Ideal) m 0 c).arrAt w (cfgs 0).N)
      (Proc.devRef .tc main_arg12) = m ((c.tc : Thread nD τ).loc main_arg12) :=
    (Pipeline.withArrays_of_ne _ c (V0 m c) _ main_arg12 (by exact (by decide : ∀ w, Pipeline.arrRef spec0 w ≠ main_arg12))).trans
      (V_main_arg12 m c)
  have e13 : Pipeline.withArrays (cfgs 0).spec c (V0 m c) (fun w => (KDats.dats (F := Ideal) m 0 c).arrAt w (cfgs 0).N)
      (Proc.devRef .tc main_arg13) = m ((c.tc : Thread nD τ).loc main_arg13) :=
    (Pipeline.withArrays_of_ne _ c (V0 m c) _ main_arg13 (by exact (by decide : ∀ w, Pipeline.arrRef spec0 w ≠ main_arg13))).trans
      (V_main_arg13 m c)
  have e14 : Pipeline.withArrays (cfgs 0).spec c (V0 m c) (fun w => (KDats.dats (F := Ideal) m 0 c).arrAt w (cfgs 0).N)
      (Proc.devRef .tc main_arg14) = m ((c.tc : Thread nD τ).loc main_arg14) :=
    (Pipeline.withArrays_of_ne _ c (V0 m c) _ main_arg14 (by exact (by decide : ∀ w, Pipeline.arrRef spec0 w ≠ main_arg14))).trans
      (V_main_arg14 m c)
  have e15 : Pipeline.withArrays (cfgs 0).spec c (V0 m c) (fun w => (KDats.dats (F := Ideal) m 0 c).arrAt w (cfgs 0).N)
      (Proc.devRef .tc main_arg15) = m ((c.tc : Thread nD τ).loc main_arg15) :=
    (Pipeline.withArrays_of_ne _ c (V0 m c) _ main_arg15 (by exact (by decide : ∀ w, Pipeline.arrRef spec0 w ≠ main_arg15))).trans
      (V_main_arg15 m c)
  have e16 : Pipeline.withArrays (cfgs 0).spec c (V0 m c) (fun w => (KDats.dats (F := Ideal) m 0 c).arrAt w (cfgs 0).N)
      (Proc.devRef .tc main_arg16) = m ((c.tc : Thread nD τ).loc main_arg16) :=
    (Pipeline.withArrays_of_ne _ c (V0 m c) _ main_arg16 (by exact (by decide : ∀ w, Pipeline.arrRef spec0 w ≠ main_arg16))).trans
      (V_main_arg16 m c)
  have e17 : Pipeline.withArrays (cfgs 0).spec c (V0 m c) (fun w => (KDats.dats (F := Ideal) m 0 c).arrAt w (cfgs 0).N)
      (Proc.devRef .tc main_arg17) = m ((c.tc : Thread nD τ).loc main_arg17) :=
    (Pipeline.withArrays_of_ne _ c (V0 m c) _ main_arg17 (by exact (by decide : ∀ w, Pipeline.arrRef spec0 w ≠ main_arg17))).trans
      (V_main_arg17 m c)
  -- the operations after the launch, applied in order to those eight arrays, are the term `KTerms.KTime`
  unfold Pipeline.afterTail₀
  show StableHlo.after (List.flatten [hostOps1, hostOps1_1, hostOps1_2, hostOps1_3, hostOps1_4]) _ (Proc.devRef .tc main_v33) = _
  simp only [hostOps1, hostOps1_1, hostOps1_2, hostOps1_3, hostOps1_4, List.flatten_cons, List.flatten_nil, List.append_nil, List.cons_append, List.nil_append]
  after_results_simp
  rw [e0, e1, e12, e13, e14, e15, e16, e17]
  rfl

end Cert.KernelIdeal.KFinal

end
-- ==== Proof.KRun.lean ====
/-
  The idealized kernel program's run with its proof data: the body obligation at every grid point, the launch around
  the region, and the two results in closed form.

  The one point that is not routine is the last grid point. There the node block's staging buffer holds, on its
  last 1200 rows, contents `d` nothing names, and the body's result is computed from all of the buffer. But entry
  (b, y) of what the body stores depends on row y of the node block only (`stored_apply`), and the part of the result
  block that is written back has y below the number of rows inside the array; so on that part the stored block is the
  same whatever `d` is, and the obligation — which for a cut window speaks of that part only — holds with the
  proof data's definite block (the one computed from the zero-filled node block).
-/
import proofs.«163596_j83107617178205_1_alg».proof.Proof.KDats
import proofs.«163596_j83107617178205_1_alg».proof.Proof.KBody
import proofs.«163596_j83107617178205_1_alg».proof.Proof.KPayload
import proofs.«163596_j83107617178205_1_alg».proof.Proof.KFinal
import proofs.«163596_j83107617178205_1_alg».proof.Proof.KTerms
import proofs.«163596_j83107617178205_1_alg».proof.Proof.Spec
import Idealize.ShloMosaic.Lib.Pipeline.FrameSuffix
import Idealize.ShloMosaic.Lib.Tactic

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.ValueIdx

variable (m : (ℓ : Loc nD τ sig) → Buf (Elt Ideal) ℓ) (ρ : Dev nD → PrngReg)

local notation "𝕄" => MT nD τ sig Unit (Elt Ideal) ℕ (UR sig nD τ) ℕ

/-! ## What the body finds in each staging buffer -/

/-- The node window is fetched at every point: its buffer holds the block on the rows inside the array, `d` past them. -/
theorem before_0 (c : Dev nD) (t : Fin cfg0.N) (d) :
    (KDats.dats (F := Ideal) m 0 c).before 0 t d = win0_0.fill (grid0.coords t) d (iblk m c 0 t) := by
  unfold Dat.before; rw [if_pos (fetch0_0 t)]
  unfold Dat.fetched Dat.blockOf iblk; rw [KDats.A_eq]
theorem before_1 (c : Dev nD) (t : Fin cfg0.N) (d) : (KDats.dats (F := Ideal) m 0 c).before 1 t d = iblk m c 1 t :=
  before0_1_of m (KDats.dats m 0 c) (KDats.A_eq m c 1) (fun t => by dsimp only [KDats.dats]) t d
theorem before_2 (c : Dev nD) (t : Fin cfg0.N) (d) : (KDats.dats (F := Ideal) m 0 c).before 2 t d = iblk m c 2 t :=
  before0_2_of m (KDats.dats m 0 c) (KDats.A_eq m c 2) (fun t => by dsimp only [KDats.dats]) t d
theorem before_3 (c : Dev nD) (t : Fin cfg0.N) (d) : (KDats.dats (F := Ideal) m 0 c).before 3 t d = iblk m c 3 t :=
  before0_3_of m (KDats.dats m 0 c) (KDats.A_eq m c 3) (fun t => by dsimp only [KDats.dats]) t d
theorem before_4 (c : Dev nD) (t : Fin cfg0.N) (d) : (KDats.dats (F := Ideal) m 0 c).before 4 t d = iblk m c 4 t :=
  before0_4_of m (KDats.dats m 0 c) (KDats.A_eq m c 4) (fun t => by dsimp only [KDats.dats]) t d
theorem before_5 (c : Dev nD) (t : Fin cfg0.N) (d) : (KDats.dats (F := Ideal) m 0 c).before 5 t d = iblk m c 5 t :=
  before0_5_of m (KDats.dats m 0 c) (KDats.A_eq m c 5) (fun t => by dsimp only [KDats.dats]) t d
theorem before_6 (c : Dev nD) (t : Fin cfg0.N) (d) : (KDats.dats (F := Ideal) m 0 c).before 6 t d = iblk m c 6 t :=
  before0_6_of m (KDats.dats m 0 c) (KDats.A_eq m c 6) (fun t => by dsimp only [KDats.dats]) t d
theorem before_7 (c : Dev nD) (t : Fin cfg0.N) (d) : (KDats.dats (F := Ideal) m 0 c).before 7 t d = iblk m c 7 t :=
  before0_7_of m (KDats.dats m 0 c) (KDats.A_eq m c 7) (fun t => by dsimp only [KDats.dats]) t d
theorem before_8 (c : Dev nD) (t : Fin cfg0.N) (d) : (KDats.dats (F := Ideal) m 0 c).before 8 t d = iblk m c 8 t :=
  before0_8_of m (KDats.dats m 0 c) (KDats.A_eq m c 8) (fun t => by dsimp only [KDats.dats]) t d
theorem before_9 (c : Dev nD) (t : Fin cfg0.N) (d) : (KDats.dats (F := Ideal) m 0 c).before 9 t d = iblk m c 9 t :=
  before0_9_of m (KDats.dats m 0 c) (KDats.A_eq m c 9) (fun t => by dsimp only [KDats.dats]) t d
theorem before_10 (c : Dev nD) (t : Fin cfg0.N) (d) : (KDats.dats (F := Ideal) m 0 c).before 10 t d = iblk m c 10 t :=
  before0_10_of m (KDats.dats m 0 c) (KDats.A_eq m c 10) (fun t => by dsimp only [KDats.dats]) t d

/-! ## The stored block does not depend on the rows past the array's end, where it is written back -/

/-- The extents the transfers move at each point: the result block's columns are as many as the node block's rows, and
    the node block keeps all its 128 columns. -/
theorem extents : ∀ t : Fin cfg0.N, win0_11.xsize (grid0.coords t) 1 = win0_0.xsize (grid0.coords t) 0
    ∧ win0_0.xsize (grid0.coords t) 1 = 128 :=
  (by decide +kernel : ∀ t : Fin grid0.N, win0_11.xsize (grid0.coords t) 1 = win0_0.xsize (grid0.coords t) 0
    ∧ win0_0.xsize (grid0.coords t) 1 = 128)

/-- Two node blocks that agree on row `y` give the same stored entry in column `y`. -/
theorem stored_congr (X0 X0' : Vec Ideal S2560x128 .f32) (X1 : Vec Ideal S128x128 .bf16) (X2 : Vec Ideal S1x128 .f32) (X3 : Vec Ideal S128x128 .bf16)
    (X4 : Vec Ideal S1x128 .f32) (X5 : Vec Ideal S128x128 .bf16) (X6 : Vec Ideal S1x128 .f32) (X7 : Vec Ideal S128x128 .bf16)
    (X8 : Vec Ideal S1x128 .f32) (X9 : Vec Ideal S1x128 .bf16) (X10 : Vec Ideal S1x1 .f32) (b : Fin 256) (y : Fin 2560)
    (h : ∀ k : Fin 128, X0 (ix2 y k) = X0' (ix2 y k)) :
    KDats.stored X0 X1 X2 X3 X4 X5 X6 X7 X8 X9 X10 (ix2 b y) = KDats.stored X0' X1 X2 X3 X4 X5 X6 X7 X8 X9 X10 (ix2 b y) := by
  rw [KPayload.stored_apply, KPayload.stored_apply]
  exact congrArg _ (funext h)

/-- On the part of the result block that is written back, the stored block is the same for every filling of the node
    block past the array's end. -/
theorem cut_stored (c : Dev nD) (t : Fin cfg0.N) (d d' : S2560x128.Idx → EReal) (g : (win0_0.xblock (grid0.coords t)).Idx → EReal)
    (X1 : Vec Ideal S128x128 .bf16) (X2 : Vec Ideal S1x128 .f32) (X3 : Vec Ideal S128x128 .bf16)
    (X4 : Vec Ideal S1x128 .f32) (X5 : Vec Ideal S128x128 .bf16) (X6 : Vec Ideal S1x128 .f32) (X7 : Vec Ideal S128x128 .bf16)
    (X8 : Vec Ideal S1x128 .f32) (X9 : Vec Ideal S1x128 .bf16) (X10 : Vec Ideal S1x1 .f32) :
    win0_11.cut (grid0.coords t) (KDats.stored (win0_0.fill (grid0.coords t) d g) X1 X2 X3 X4 X5 X6 X7 X8 X9 X10)
      = win0_11.cut (grid0.coords t) (KDats.stored (win0_0.fill (grid0.coords t) d' g) X1 X2 X3 X4 X5 X6 X7 X8 X9 X10) := by
  funext j
  obtain ⟨b, y, hby⟩ : ∃ (b : Fin 256) (y : Fin 2560), win0_11.xinj (grid0.coords t) j = ix2 b y := ⟨_, _, eq_ix2 _⟩
  have hy : y.val = (j 1).val := by
    have := congrArg Fin.val (congrFun hby 1); exact this.symm
  show KDats.stored _ X1 X2 X3 X4 X5 X6 X7 X8 X9 X10 (win0_11.xinj (grid0.coords t) j)
    = KDats.stored _ X1 X2 X3 X4 X5 X6 X7 X8 X9 X10 (win0_11.xinj (grid0.coords t) j)
  rw [hby]
  refine stored_congr _ _ X1 X2 X3 X4 X5 X6 X7 X8 X9 X10 b y fun k => ?_
  have hmoved : win0_0.moved (grid0.coords t) (ix2 y k) = true := by
    rw [Window.moved_iff]
    intro a
    have hj1 : (j 1).val < win0_11.xsize (grid0.coords t) 1 := (j 1).isLt
    match a with
    | ⟨0, _⟩ => show y.val < win0_0.xsize (grid0.coords t) 0; rw [← (extents t).1, hy]; exact hj1
    | ⟨1, _⟩ => show k.val < win0_0.xsize (grid0.coords t) 1; rw [(extents t).2]; exact k.isLt
  unfold Window.fill
  rw [dif_pos hmoved, dif_pos hmoved]

/-! ## The body obligation -/

theorem body_obligation (c : Dev nD) :
    BodyObligationLoose (KDats.dats (F := Ideal) m 0 c) (defs₀ (F := Ideal)) Variants.none () Set.univ := fun t => by
  rw [bigSep_W0, bigSep_W0]
  simp only
  rw [show (KDats.dats (F := Ideal) m 0 c).Φ t.succ = (KDats.dats m 0 c).Φ t.castSucc from rfl,
    show (KDats.dats (F := Ideal) m 0 c).owesAt () t.succ = (KDats.dats m 0 c).owesAt () t.castSucc from rfl]
  show _ ⊢ wp frame (wpE (defs₀ (F := Ideal)) Variants.none c none) Set.univ (bodyAt0 (F := Ideal) t) _
  unfold bodyAt0
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  rw [before_0 m c t d0, before_1 m c t d1, before_2 m c t d2, before_3 m c t d3, before_4 m c t d4, before_5 m c t d5,
    before_6 m c t d6, before_7 m c t d7, before_8 m c t d8, before_9 m c t d9, before_10 m c t d10]
  iapply (KBody.sound_kernel c Set.univ (grid0.coords t) _ _ _ _ _ _ _ _ _ _ _ _ _ _ _ _ _ _ _ _ _ _ _ _
    (win0_0.fill (grid0.coords t) d0 (iblk m c 0 t)) (iblk m c 1 t) (iblk m c 2 t) (iblk m c 3 t) (iblk m c 4 t) (iblk m c 5 t) (iblk m c 6 t) (iblk m c 7 t) (iblk m c 8 t) (iblk m c 9 t) (iblk m c 10 t) ((KDats.dats m 0 c).before 11 t d11) _)
  isplitl [H0 H1 H2 H3 H4 H5 H6 H7 H8 H9 H10 H11]
  ·
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  iintro ⟨H0, H1, H2, H3, H4, H5, H6, H7, H8, H9, H10, H11⟩
  isplitl [HΦ]; · iexact HΦ
  isplitl [Ho]; · iexact Ho
  -- the node block: left as it was found; its part inside the array is the data's
  have h0 : win0_0.cut (grid0.coords t) ((KDats.dats (F := Ideal) m 0 c).after 0 t) = iblk m c 0 t := by
    dsimp only [KDats.dats]; exact win0_0.cut_fill _ _ _
  -- the result block: on the part written back, what was stored is the data's block
  have h11 : win0_11.fill (grid0.coords t)
        (KDats.stored (win0_0.fill (grid0.coords t) d0 (iblk m c 0 t)) (iblk m c 1 t) (iblk m c 2 t) (iblk m c 3 t) (iblk m c 4 t) (iblk m c 5 t) (iblk m c 6 t) (iblk m c 7 t) (iblk m c 8 t) (iblk m c 9 t) (iblk m c 10 t))
        (win0_11.cut (grid0.coords t) ((KDats.dats (F := Ideal) m 0 c).after 11 t))
      = KDats.stored (win0_0.fill (grid0.coords t) d0 (iblk m c 0 t)) (iblk m c 1 t) (iblk m c 2 t) (iblk m c 3 t) (iblk m c 4 t) (iblk m c 5 t) (iblk m c 6 t) (iblk m c 7 t) (iblk m c 8 t) (iblk m c 9 t) (iblk m c 10 t) := by
    dsimp only [KDats.dats]
    exact win0_11.fill_congr_cut _ (cut_stored c t _ _ _ _ _ _ _ _ _ _ _ _ _)
  isplitl [H0]
  · iexists d0
    change _ ⊢ owns (c : Thread nD τ) (st0_0 t) fullShare (win0_0.fill (grid0.coords t) d0 (win0_0.cut (grid0.coords t) ((KDats.dats (F := Ideal) m 0 c).after 0 t)))
    rw [h0]; try iexact H0
  isplitl [H1]
  · dsimp only [KDats.dats]; iexact H1
  isplitl [H2]
  · dsimp only [KDats.dats]; iexact H2
  isplitl [H3]
  · dsimp only [KDats.dats]; iexact H3
  isplitl [H4]
  · dsimp only [KDats.dats]; iexact H4
  isplitl [H5]
  · dsimp only [KDats.dats]; iexact H5
  isplitl [H6]
  · dsimp only [KDats.dats]; iexact H6
  isplitl [H7]
  · dsimp only [KDats.dats]; iexact H7
  isplitl [H8]
  · dsimp only [KDats.dats]; iexact H8
  isplitl [H9]
  · dsimp only [KDats.dats]; iexact H9
  isplitl [H10]
  · dsimp only [KDats.dats]; iexact H10
  · iexists (KDats.stored (win0_0.fill (grid0.coords t) d0 (iblk m c 0 t)) (iblk m c 1 t) (iblk m c 2 t) (iblk m c 3 t) (iblk m c 4 t) (iblk m c 5 t) (iblk m c 6 t) (iblk m c 7 t) (iblk m c 8 t) (iblk m c 9 t) (iblk m c 10 t))
    change _ ⊢ owns (c : Thread nD τ) (st0_11 t) fullShare (win0_11.fill (grid0.coords t) _ (win0_11.cut (grid0.coords t) ((KDats.dats (F := Ideal) m 0 c).after 11 t)))
    rw [h11]; try iexact H11

/-! ## The launch around the region -/

set_option backward.isDefEq.respectTransparency.types false in
theorem run_main : θ_run defs (onTc (τ := τ) (main (F := Ideal))) (s₀ m ρ)
    (Pipeline.FramePost cfgs (KDats.dats m) 0 (Pipeline.afterTail₀ cfgs (KDats.dats m) 0 (V0 m) [hostOps1, hostOps1_1, hostOps1_2, hostOps1_3, hostOps1_4])) :=
  Pipeline.θ_run_frame_around cfgs (KDats.dats m) (0 : Fin 1) launch0 defs₀ Variants.none m ρ main
    (hbody := body_obligation m) (hshare := fun c => (KDats.dats m 0 c).share_full fun _ => rfl)
    (howed := fun _ _ => rfl) (V₀ := V0 m) (opss := [hostOps1, hostOps1_1, hostOps1_2, hostOps1_3, hostOps1_4])
    (hsub := sfx_sub) (hfresh := sfx_fresh) (hkeep := sfx_keeps)
    (hmain := hmain m Variants.none) (hA := KDats.A_eq m) (hΦ := fun _ _ => rfl)

/-! ## The two results and the arguments after the run -/

theorem run : θ_run (defs (F := Ideal)) (onTc (τ := τ) (main (F := Ideal))) ⟨m, fun _ => 0, ρ⟩ (fun r => ∀ c : Dev nD,
      r.2.mem ((c.tc : Thread nD τ).loc main_v11) = Cert.Spec.probArr (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_v33) = KTerms.KTime (F := Ideal) (m ((c.tc : Thread nD τ).loc main_arg0)) (m ((c.tc : Thread nD τ).loc main_arg1)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun _ hr c => ⟨((hr c).1 11).trans (KFinal.arrAt11_eq m c),
      ((hr c).2 main_v33 (Pipeline.mem_restRefs_of main_v33 (by decide) (by decide))).trans (KFinal.tail_v33_eq m c),
      ((hr c).1 0).trans (((KDats.dats m 0 c).arrAt_in 0 rfl _).trans ((KDats.A_eq m c 0).trans (V_main_arg0 m c))),
      (((hr c).2 main_arg1 (Pipeline.mem_restRefs_of main_arg1 (by decide) (by decide))).trans (W_main_arg1 m (KDats.dats m) c)),
      (((hr c).2 main_arg2 (Pipeline.mem_restRefs_of main_arg2 (by decide) (by decide))).trans (W_main_arg2 m (KDats.dats m) c)),
      (((hr c).2 main_arg3 (Pipeline.mem_restRefs_of main_arg3 (by decide) (by decide))).trans (W_main_arg3 m (KDats.dats m) c)),
      (((hr c).2 main_arg4 (Pipeline.mem_restRefs_of main_arg4 (by decide) (by decide))).trans (W_main_arg4 m (KDats.dats m) c)),
      (((hr c).2 main_arg5 (Pipeline.mem_restRefs_of main_arg5 (by decide) (by decide))).trans (W_main_arg5 m (KDats.dats m) c)),
      (((hr c).2 main_arg6 (Pipeline.mem_restRefs_of main_arg6 (by decide) (by decide))).trans (W_main_arg6 m (KDats.dats m) c)),
      (((hr c).2 main_arg7 (Pipeline.mem_restRefs_of main_arg7 (by decide) (by decide))).trans (W_main_arg7 m (KDats.dats m) c)),
      (((hr c).2 main_arg8 (Pipeline.mem_restRefs_of main_arg8 (by decide) (by decide))).trans (W_main_arg8 m (KDats.dats m) c)),
      (((hr c).2 main_arg9 (Pipeline.mem_restRefs_of main_arg9 (by decide) (by decide))).trans (W_main_arg9 m (KDats.dats m) c)),
      (((hr c).2 main_arg10 (Pipeline.mem_restRefs_of main_arg10 (by decide) (by decide))).trans (W_main_arg10 m (KDats.dats m) c)),
      (((hr c).2 main_arg11 (Pipeline.mem_restRefs_of main_arg11 (by decide) (by decide))).trans (W_main_arg11 m (KDats.dats m) c)),
      (((hr c).2 main_arg12 (Pipeline.mem_restRefs_of main_arg12 (by decide) (by decide))).trans (W_main_arg12 m (KDats.dats m) c)),
      (((hr c).2 main_arg13 (Pipeline.mem_restRefs_of main_arg13 (by decide) (by decide))).trans (W_main_arg13 m (KDats.dats m) c)),
      (((hr c).2 main_arg14 (Pipeline.mem_restRefs_of main_arg14 (by decide) (by decide))).trans (W_main_arg14 m (KDats.dats m) c)),
      (((hr c).2 main_arg15 (Pipeline.mem_restRefs_of main_arg15 (by decide) (by decide))).trans (W_main_arg15 m (KDats.dats m) c)),
      (((hr c).2 main_arg16 (Pipeline.mem_restRefs_of main_arg16 (by decide) (by decide))).trans (W_main_arg16 m (KDats.dats m) c)),
      (((hr c).2 main_arg17 (Pipeline.mem_restRefs_of main_arg17 (by decide) (by decide))).trans (W_main_arg17 m (KDats.dats m) c))⟩) (run_main m ρ)

end Cert.KernelIdeal.KRun

end
-- ==== Proof.RTerms.lean ====
/-
  The reference's two results as whole-array terms of its arguments: its host operations composed, in the order it
  applies them. Node-sized pieces: a linear layer x·W + b with the bias spread over the rows, the leaky rectifier as
  compare, scale and select, four such layers, the read-out, the logistic function written 1 / (1 + exp(−v)), and the
  column spread over the 256 rows. Event-sized pieces: the rows of the node array picked by the (wrapped) event indices,
  two layers and a read-out.
-/
import proofs.«163596_j83107617178205_1_alg».proof.ReferenceIdeal
import Idealize.ShloMosaic.PureOps.Ideal

noncomputable section

namespace Cert.ReferenceIdeal.RTerms

open Idealize.ShloMosaic Cert.ReferenceIdeal

variable [Facts]
open Facts₀ Facts

/-- The leaky rectifier on a node-sized array. -/
def lreluN (x : FVec Ideal S50000x128 .f32) : FVec Ideal S50000x128 .f32 :=
  select (cmpf .oge x (broadcastInDim S50000x128 ![] bcast_S_S50000x128 (constant (F := Ideal) S_ .f32 0x00000000#32))) x
    (mulf (broadcastInDim S50000x128 ![] bcast_S_S50000x128 (constant (F := Ideal) S_ .f32 0x3C23D70A#32)) x)

/-- A linear layer on a node-sized array. -/
def linN (x : FVec Ideal S50000x128 .f32) (W : FVec Ideal S128x128 .f32) (b : FVec Ideal S128 .f32) : FVec Ideal S50000x128 .f32 :=
  addf (Host.dotGeneral dot_S50000x128_S128x128_S50000x128_1_0_0_1_n_n none x W)
    (broadcastInDim S50000x128 ![0, 1] bcast_S1x128_S50000x128_0_1 (broadcastInDim S1x128 ![1] bcast_S128_S1x128_1 b))

/-- The four hidden layers. -/
def hiddenN (z : FVec Ideal S50000x128 .f32) (W1 : FVec Ideal S128x128 .f32) (b1 : FVec Ideal S128 .f32)
    (W2 : FVec Ideal S128x128 .f32) (b2 : FVec Ideal S128 .f32) (W3 : FVec Ideal S128x128 .f32) (b3 : FVec Ideal S128 .f32)
    (W4 : FVec Ideal S128x128 .f32) (b4 : FVec Ideal S128 .f32) : FVec Ideal S50000x128 .f32 :=
  lreluN (linN (lreluN (linN (lreluN (linN (lreluN (linN z W1 b1)) W2 b2)) W3 b3)) W4 b4)

/-- The read-out column. -/
def logitN (h : FVec Ideal S50000x128 .f32) (w5 : FVec Ideal S128x1 .f32) (b5 : FVec Ideal S1 .f32) : FVec Ideal S50000x1 .f32 :=
  addf (Host.dotGeneral dot_S50000x128_S128x1_S50000x1_1_0_0_1_n_n none h w5)
    (broadcastInDim S50000x1 ![0, 1] bcast_S1x1_S50000x1_0_1 (broadcastInDim S1x1 ![1] bcast_S1_S1x1_1 b5))

/-- The logistic function as the reference spells it: 1 / (1 + exp(−v)). -/
def sigmoidN (v : FVec Ideal S50000x1 .f32) : FVec Ideal S50000x1 .f32 :=
  Host.divf (broadcastInDim S50000x1 ![] bcast_S_S50000x1 (constant (F := Ideal) S_ .f32 0x3F800000#32))
    (addf (broadcastInDim S50000x1 ![] bcast_S_S50000x1 (constant (F := Ideal) S_ .f32 0x3F800000#32)) (Host.exp (Host.negf v)))

/-- The reference's first result. -/
def ROut (z : FVec Ideal S50000x128 .f32) (W1 : FVec Ideal S128x128 .f32) (b1 : FVec Ideal S128 .f32)
    (W2 : FVec Ideal S128x128 .f32) (b2 : FVec Ideal S128 .f32) (W3 : FVec Ideal S128x128 .f32) (b3 : FVec Ideal S128 .f32)
    (W4 : FVec Ideal S128x128 .f32) (b4 : FVec Ideal S128 .f32) (w5 : FVec Ideal S128x1 .f32) (b5 : FVec Ideal S1 .f32) :
    FVec Ideal S256x50000 .f32 :=
  broadcastInDim S256x50000 ![0, 1] bcast_S1x50000_S256x50000_0_1
    (broadcastInDim S1x50000 ![1] bcast_S50000_S1x50000_1
      (shapeCast S50000 (sigmoidN (logitN (hiddenN z W1 b1 W2 b2 W3 b3 W4 b4) w5 b5)) shapeCasts_S50000x1_S50000))

/-- The leaky rectifier on an event-sized array. -/
def lreluB (x : FVec Ideal S256x128 .f32) : FVec Ideal S256x128 .f32 :=
  select (cmpf .oge x (broadcastInDim S256x128 ![] bcast_S_S256x128 (constant (F := Ideal) S_ .f32 0x00000000#32))) x
    (mulf (broadcastInDim S256x128 ![] bcast_S_S256x128 (constant (F := Ideal) S_ .f32 0x3C23D70A#32)) x)

/-- A linear layer on an event-sized array. -/
def linB (x : FVec Ideal S256x128 .f32) (W : FVec Ideal S128x128 .f32) (b : FVec Ideal S128 .f32) : FVec Ideal S256x128 .f32 :=
  addf (Host.dotGeneral dot_S256x128_S128x128_S256x128_1_0_0_1_n_n none x W)
    (broadcastInDim S256x128 ![0, 1] bcast_S1x128_S256x128_0_1 (broadcastInDim S1x128 ![1] bcast_S128_S1x128_1 b))

/-- The event indices, a negative one wrapped by the node count. -/
def wrapIdx (u : IVec S256 32) : IVec S256x1 32 :=
  broadcastInDim S256x1 ![0] bcast_S256_S256x1_0
    (select (cmpi .slt u (broadcastInDim S256 ![] bcast_S_S256 (constantI S_ 32 0#32)))
      (addi u (broadcastInDim S256 ![] bcast_S_S256 (constantI S_ 32 50000#32))) u)

/-- The reference's second result. -/
def RTime (z : FVec Ideal S50000x128 .f32) (u : IVec S256 32) (T1 : FVec Ideal S128x128 .f32) (c1 : FVec Ideal S128 .f32)
    (T2 : FVec Ideal S128x128 .f32) (c2 : FVec Ideal S128 .f32) (t3 : FVec Ideal S128x1 .f32) (c3 : FVec Ideal S1 .f32) :
    FVec Ideal S256 .f32 :=
  shapeCast S256
    (addf (Host.dotGeneral dot_S256x128_S128x1_S256x1_1_0_0_1_n_n none
        (lreluB (linB (lreluB (linB (Host.gather gather_S50000x128_S256x1_S256x128_1_0_n_n_0_1_1128 z (wrapIdx u)) T1 c1)) T2 c2)) t3)
      (broadcastInDim S256x1 ![0, 1] bcast_S1x1_S256x1_0_1 (broadcastInDim S1x1 ![1] bcast_S1_S1x1_1 c3)))
    shapeCasts_S256x1_S256

end Cert.ReferenceIdeal.RTerms

end
-- ==== Proof.RRun.lean ====
/-
  The reference program's run: it is a straight line of host operations (its leaky rectifiers are module-local functions
  called in place, each a stretch of seven operations), so from any memory every weakly fair execution ends, with the two
  results at the operations' composed terms of the arguments (`RTerms.ROut`, `RTerms.RTime`) and the arguments as they were.
-/
import proofs.«163596_j83107617178205_1_alg».proof.Proof.RTerms
import proofs.«163596_j83107617178205_1_alg».proof.Proof.Gen.ReferenceIdeal
import Idealize.ShloMosaic.Lib.StableHlo.Run
import Idealize.ShloMosaic.Adequacy
import Idealize.ShloMosaic.Init

noncomputable section

namespace Cert.ReferenceIdeal.RRun

open Idealize.ShloMosaic Idealize.SL.Sem Cert.ReferenceIdeal

open Facts₀ Facts

variable {F : FTy → Type} [FloatOps F]

/-- The reference's ninety-five operations in order: its own fifty-three, and at each of the six calls of a leaky
    rectifier the callee's seven over that call's buffers (the zero and its spread, the comparison, the slope and its
    spread, the product, the select, whose result is the call's). -/
abbrev ops : List (HloOp τ sig (Elt F)) :=
  [ StableHlo.binary main_arg0 main_arg2 main_v0 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg3 main_v1 (broadcastInDim S1x128 ![1] bcast_S128_S1x128_1 : (⟨S128, .f32⟩ : BufTy).Contents (Elt F) → (⟨S1x128, .f32⟩ : BufTy).Contents (Elt F)),
    StableHlo.unary main_v1 main_v2 (broadcastInDim S50000x128 ![0, 1] bcast_S1x128_S50000x128_0_1 : (⟨S1x128, .f32⟩ : BufTy).Contents (Elt F) → (⟨S50000x128, .f32⟩ : BufTy).Contents (Elt F)),
    StableHlo.binary main_v0 main_v2 main_v3 (addf : (⟨S50000x128, .f32⟩ : BufTy).Contents (Elt F) → (⟨S50000x128, .f32⟩ : BufTy).Contents (Elt F) → (⟨S50000x128, .f32⟩ : BufTy).Contents (Elt F)),
    StableHlo.TRef.nullary main_call0.cst (constant S_ .f32 0x00000000#32),
    StableHlo.TRef.unary main_call0.cst main_call0.v0 (broadcastInDim S50000x128 ![] bcast_S_S50000x128),
    StableHlo.TRef.binary (.of main_v3) main_call0.v0 main_call0.v1 (cmpf .oge),
    StableHlo.TRef.nullary main_call0.cst_0 (constant S_ .f32 0x3C23D70A#32),
    StableHlo.TRef.unary main_call0.cst_0 main_call0.v2 (broadcastInDim S50000x128 ![] bcast_S_S50000x128),
    StableHlo.TRef.binary main_call0.v2 (.of main_v3) main_call0.v3 mulf,
    StableHlo.TRef.ternary main_call0.v1 (.of main_v3) main_call0.v3 main_call0.call0.v0 select,
    StableHlo.binary main_v4 main_arg4 main_v5 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg5 main_v6 (broadcastInDim S1x128 ![1] bcast_S128_S1x128_1 : (⟨S128, .f32⟩ : BufTy).Contents (Elt F) → (⟨S1x128, .f32⟩ : BufTy).Contents (Elt F)),
    StableHlo.unary main_v6 main_v7 (broadcastInDim S50000x128 ![0, 1] bcast_S1x128_S50000x128_0_1 : (⟨S1x128, .f32⟩ : BufTy).Contents (Elt F) → (⟨S50000x128, .f32⟩ : BufTy).Contents (Elt F)),
    StableHlo.binary main_v5 main_v7 main_v8 (addf : (⟨S50000x128, .f32⟩ : BufTy).Contents (Elt F) → (⟨S50000x128, .f32⟩ : BufTy).Contents (Elt F) → (⟨S50000x128, .f32⟩ : BufTy).Contents (Elt F)),
    StableHlo.TRef.nullary main_call1.cst (constant S_ .f32 0x00000000#32),
    StableHlo.TRef.unary main_call1.cst main_call1.v0 (broadcastInDim S50000x128 ![] bcast_S_S50000x128),
    StableHlo.TRef.binary (.of main_v8) main_call1.v0 main_call1.v1 (cmpf .oge),
    StableHlo.TRef.nullary main_call1.cst_0 (constant S_ .f32 0x3C23D70A#32),
    StableHlo.TRef.unary main_call1.cst_0 main_call1.v2 (broadcastInDim S50000x128 ![] bcast_S_S50000x128),
    StableHlo.TRef.binary main_call1.v2 (.of main_v8) main_call1.v3 mulf,
    StableHlo.TRef.ternary main_call1.v1 (.of main_v8) main_call1.v3 main_call1.call0.v0 select,
    StableHlo.binary main_v9 main_arg6 main_v10 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg7 main_v11 (broadcastInDim S1x128 ![1] bcast_S128_S1x128_1 : (⟨S128, .f32⟩ : BufTy).Contents (Elt F) → (⟨S1x128, .f32⟩ : BufTy).Contents (Elt F)),
    StableHlo.unary main_v11 main_v12 (broadcastInDim S50000x128 ![0, 1] bcast_S1x128_S50000x128_0_1 : (⟨S1x128, .f32⟩ : BufTy).Contents (Elt F) → (⟨S50000x128, .f32⟩ : BufTy).Contents (Elt F)),
    StableHlo.binary main_v10 main_v12 main_v13 (addf : (⟨S50000x128, .f32⟩ : BufTy).Contents (Elt F) → (⟨S50000x128, .f32⟩ : BufTy).Contents (Elt F) → (⟨S50000x128, .f32⟩ : BufTy).Contents (Elt F)),
    StableHlo.TRef.nullary main_call2.cst (constant S_ .f32 0x00000000#32),
    StableHlo.TRef.unary main_call2.cst main_call2.v0 (broadcastInDim S50000x128 ![] bcast_S_S50000x128),
    StableHlo.TRef.binary (.of main_v13) main_call2.v0 main_call2.v1 (cmpf .oge),
    StableHlo.TRef.nullary main_call2.cst_0 (constant S_ .f32 0x3C23D70A#32),
    StableHlo.TRef.unary main_call2.cst_0 main_call2.v2 (broadcastInDim S50000x128 ![] bcast_S_S50000x128),
    StableHlo.TRef.binary main_call2.v2 (.of main_v13) main_call2.v3 mulf,
    StableHlo.TRef.ternary main_call2.v1 (.of main_v13) main_call2.v3 main_call2.call0.v0 select,
    StableHlo.binary main_v14 main_arg8 main_v15 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg9 main_v16 (broadcastInDim S1x128 ![1] bcast_S128_S1x128_1 : (⟨S128, .f32⟩ : BufTy).Contents (Elt F) → (⟨S1x128, .f32⟩ : BufTy).Contents (Elt F)),
    StableHlo.unary main_v16 main_v17 (broadcastInDim S50000x128 ![0, 1] bcast_S1x128_S50000x128_0_1 : (⟨S1x128, .f32⟩ : BufTy).Contents (Elt F) → (⟨S50000x128, .f32⟩ : BufTy).Contents (Elt F)),
    StableHlo.binary main_v15 main_v17 main_v18 (addf : (⟨S50000x128, .f32⟩ : BufTy).Contents (Elt F) → (⟨S50000x128, .f32⟩ : BufTy).Contents (Elt F) → (⟨S50000x128, .f32⟩ : BufTy).Contents (Elt F)),
    StableHlo.TRef.nullary main_call3.cst (constant S_ .f32 0x00000000#32),
    StableHlo.TRef.unary main_call3.cst main_call3.v0 (broadcastInDim S50000x128 ![] bcast_S_S50000x128),
    StableHlo.TRef.binary (.of main_v18) main_call3.v0 main_call3.v1 (cmpf .oge),
    StableHlo.TRef.nullary main_call3.cst_0 (constant S_ .f32 0x3C23D70A#32),
    StableHlo.TRef.unary main_call3.cst_0 main_call3.v2 (broadcastInDim S50000x128 ![] bcast_S_S50000x128),
    StableHlo.TRef.binary main_call3.v2 (.of main_v18) main_call3.v3 mulf,
    StableHlo.TRef.ternary main_call3.v1 (.of main_v18) main_call3.v3 main_call3.call0.v0 select,
    StableHlo.binary main_v19 main_arg10 main_v20 ((fun l r => Host.dotGeneral dot_S50000x128_S128x1_S50000x1_1_0_0_1_n_n none l r) : (⟨S50000x128, .f32⟩ : BufTy).Contents (Elt F) → (⟨S128x1, .f32⟩ : BufTy).Contents (Elt F) → (⟨S50000x1, .f32⟩ : BufTy).Contents (Elt F)),
    StableHlo.unary main_arg11 main_v21 (broadcastInDim S1x1 ![1] bcast_S1_S1x1_1 : (⟨S1, .f32⟩ : BufTy).Contents (Elt F) → (⟨S1x1, .f32⟩ : BufTy).Contents (Elt F)),
    StableHlo.unary main_v21 main_v22 (broadcastInDim S50000x1 ![0, 1] bcast_S1x1_S50000x1_0_1 : (⟨S1x1, .f32⟩ : BufTy).Contents (Elt F) → (⟨S50000x1, .f32⟩ : BufTy).Contents (Elt F)),
    StableHlo.binary main_v20 main_v22 main_v23 (addf : (⟨S50000x1, .f32⟩ : BufTy).Contents (Elt F) → (⟨S50000x1, .f32⟩ : BufTy).Contents (Elt F) → (⟨S50000x1, .f32⟩ : BufTy).Contents (Elt F)),
    StableHlo.unary main_v23 main_v24 (Host.negf : (⟨S50000x1, .f32⟩ : BufTy).Contents (Elt F) → (⟨S50000x1, .f32⟩ : BufTy).Contents (Elt F)),
    StableHlo.unary main_v24 main_v25 (Host.exp : (⟨S50000x1, .f32⟩ : BufTy).Contents (Elt F) → (⟨S50000x1, .f32⟩ : BufTy).Contents (Elt F)),
    StableHlo.nullary main_cst (constant S_ .f32 0x3F800000#32),
    StableHlo.unary main_cst main_v26 (broadcastInDim S50000x1 ![] bcast_S_S50000x1 : (⟨S_, .f32⟩ : BufTy).Contents (Elt F) → (⟨S50000x1, .f32⟩ : BufTy).Contents (Elt F)),
    StableHlo.binary main_v26 main_v25 main_v27 (addf : (⟨S50000x1, .f32⟩ : BufTy).Contents (Elt F) → (⟨S50000x1, .f32⟩ : BufTy).Contents (Elt F) → (⟨S50000x1, .f32⟩ : BufTy).Contents (Elt F)),
    StableHlo.nullary main_cst_0 (constant S_ .f32 0x3F800000#32),
    StableHlo.unary main_cst_0 main_v28 (broadcastInDim S50000x1 ![] bcast_S_S50000x1 : (⟨S_, .f32⟩ : BufTy).Contents (Elt F) → (⟨S50000x1, .f32⟩ : BufTy).Contents (Elt F)),
    StableHlo.binary main_v28 main_v27 main_v29 (Host.divf : (⟨S50000x1, .f32⟩ : BufTy).Contents (Elt F) → (⟨S50000x1, .f32⟩ : BufTy).Contents (Elt F) → (⟨S50000x1, .f32⟩ : BufTy).Contents (Elt F)),
    StableHlo.reshape main_v29 main_v30 rfl shapeCasts_S50000x1_S50000,
    StableHlo.unary main_v30 main_v31 (broadcastInDim S1x50000 ![1] bcast_S50000_S1x50000_1 : (⟨S50000, .f32⟩ : BufTy).Contents (Elt F) → (⟨S1x50000, .f32⟩ : BufTy).Contents (Elt F)),
    StableHlo.unary main_v31 main_v32 (broadcastInDim S256x50000 ![0, 1] bcast_S1x50000_S256x50000_0_1 : (⟨S1x50000, .f32⟩ : BufTy).Contents (Elt F) → (⟨S256x50000, .f32⟩ : BufTy).Contents (Elt F)),
    StableHlo.nullary main_c (constantI S_ 32 0#32),
    StableHlo.unary main_c main_v33 (broadcastInDim S256 ![] bcast_S_S256 : (⟨S_, .i32⟩ : BufTy).Contents (Elt F) → (⟨S256, .i32⟩ : BufTy).Contents (Elt F)),
    StableHlo.binary main_arg1 main_v33 main_v34 (cmpi .slt : (⟨S256, .i32⟩ : BufTy).Contents (Elt F) → (⟨S256, .i32⟩ : BufTy).Contents (Elt F) → (⟨S256, .i1⟩ : BufTy).Contents (Elt F)),
    StableHlo.nullary main_c_1 (constantI S_ 32 50000#32),
    StableHlo.unary main_c_1 main_v35 (broadcastInDim S256 ![] bcast_S_S256 : (⟨S_, .i32⟩ : BufTy).Contents (Elt F) → (⟨S256, .i32⟩ : BufTy).Contents (Elt F)),
    StableHlo.binary main_arg1 main_v35 main_v36 (addi : (⟨S256, .i32⟩ : BufTy).Contents (Elt F) → (⟨S256, .i32⟩ : BufTy).Contents (Elt F) → (⟨S256, .i32⟩ : BufTy).Contents (Elt F)),
    StableHlo.ternary main_v34 main_v36 main_arg1 main_v37 (select : (⟨S256, .i1⟩ : BufTy).Contents (Elt F) → (⟨S256, .i32⟩ : BufTy).Contents (Elt F) → (⟨S256, .i32⟩ : BufTy).Contents (Elt F) → (⟨S256, .i32⟩ : BufTy).Contents (Elt F)),
    StableHlo.unary main_v37 main_v38 (broadcastInDim S256x1 ![0] bcast_S256_S256x1_0 : (⟨S256, .i32⟩ : BufTy).Contents (Elt F) → (⟨S256x1, .i32⟩ : BufTy).Contents (Elt F)),
    StableHlo.binary main_arg0 main_v38 main_v39 ((fun x i => Host.gather gather_S50000x128_S256x1_S256x128_1_0_n_n_0_1_1128 x i) : (⟨S50000x128, .f32⟩ : BufTy).Contents (Elt F) → (⟨S256x1, .i32⟩ : BufTy).Contents (Elt F) → (⟨S256x128, .f32⟩ : BufTy).Contents (Elt F)),
    StableHlo.binary main_v39 main_arg12 main_v40 ((fun l r => Host.dotGeneral dot_S256x128_S128x128_S256x128_1_0_0_1_n_n none l r) : (⟨S256x128, .f32⟩ : BufTy).Contents (Elt F) → (⟨S128x128, .f32⟩ : BufTy).Contents (Elt F) → (⟨S256x128, .f32⟩ : BufTy).Contents (Elt F)),
    StableHlo.unary main_arg13 main_v41 (broadcastInDim S1x128 ![1] bcast_S128_S1x128_1 : (⟨S128, .f32⟩ : BufTy).Contents (Elt F) → (⟨S1x128, .f32⟩ : BufTy).Contents (Elt F)),
    StableHlo.unary main_v41 main_v42 (broadcastInDim S256x128 ![0, 1] bcast_S1x128_S256x128_0_1 : (⟨S1x128, .f32⟩ : BufTy).Contents (Elt F) → (⟨S256x128, .f32⟩ : BufTy).Contents (Elt F)),
    StableHlo.binary main_v40 main_v42 main_v43 (addf : (⟨S256x128, .f32⟩ : BufTy).Contents (Elt F) → (⟨S256x128, .f32⟩ : BufTy).Contents (Elt F) → (⟨S256x128, .f32⟩ : BufTy).Contents (Elt F)),
    StableHlo.TRef.nullary main_call4.cst (constant S_ .f32 0x00000000#32),
    StableHlo.TRef.unary main_call4.cst main_call4.v0 (broadcastInDim S256x128 ![] bcast_S_S256x128),
    StableHlo.TRef.binary (.of main_v43) main_call4.v0 main_call4.v1 (cmpf .oge),
    StableHlo.TRef.nullary main_call4.cst_0 (constant S_ .f32 0x3C23D70A#32),
    StableHlo.TRef.unary main_call4.cst_0 main_call4.v2 (broadcastInDim S256x128 ![] bcast_S_S256x128),
    StableHlo.TRef.binary main_call4.v2 (.of main_v43) main_call4.v3 mulf,
    StableHlo.TRef.ternary main_call4.v1 (.of main_v43) main_call4.v3 main_call4.call0.v0 select,
    StableHlo.binary main_v44 main_arg14 main_v45 ((fun l r => Host.dotGeneral dot_S256x128_S128x128_S256x128_1_0_0_1_n_n none l r) : (⟨S256x128, .f32⟩ : BufTy).Contents (Elt F) → (⟨S128x128, .f32⟩ : BufTy).Contents (Elt F) → (⟨S256x128, .f32⟩ : BufTy).Contents (Elt F)),
    StableHlo.unary main_arg15 main_v46 (broadcastInDim S1x128 ![1] bcast_S128_S1x128_1 : (⟨S128, .f32⟩ : BufTy).Contents (Elt F) → (⟨S1x128, .f32⟩ : BufTy).Contents (Elt F)),
    StableHlo.unary main_v46 main_v47 (broadcastInDim S256x128 ![0, 1] bcast_S1x128_S256x128_0_1 : (⟨S1x128, .f32⟩ : BufTy).Contents (Elt F) → (⟨S256x128, .f32⟩ : BufTy).Contents (Elt F)),
    StableHlo.binary main_v45 main_v47 main_v48 (addf : (⟨S256x128, .f32⟩ : BufTy).Contents (Elt F) → (⟨S256x128, .f32⟩ : BufTy).Contents (Elt F) → (⟨S256x128, .f32⟩ : BufTy).Contents (Elt F)),
    StableHlo.TRef.nullary main_call5.cst (constant S_ .f32 0x00000000#32),
    StableHlo.TRef.unary main_call5.cst main_call5.v0 (broadcastInDim S256x128 ![] bcast_S_S256x128),
    StableHlo.TRef.binary (.of main_v48) main_call5.v0 main_call5.v1 (cmpf .oge),
    StableHlo.TRef.nullary main_call5.cst_0 (constant S_ .f32 0x3C23D70A#32),
    StableHlo.TRef.unary main_call5.cst_0 main_call5.v2 (broadcastInDim S256x128 ![] bcast_S_S256x128),
    StableHlo.TRef.binary main_call5.v2 (.of main_v48) main_call5.v3 mulf,
    StableHlo.TRef.ternary main_call5.v1 (.of main_v48) main_call5.v3 main_call5.call0.v0 select,
    StableHlo.binary main_v49 main_arg16 main_v50 ((fun l r => Host.dotGeneral dot_S256x128_S128x1_S256x1_1_0_0_1_n_n none l r) : (⟨S256x128, .f32⟩ : BufTy).Contents (Elt F) → (⟨S128x1, .f32⟩ : BufTy).Contents (Elt F) → (⟨S256x1, .f32⟩ : BufTy).Contents (Elt F)),
    StableHlo.unary main_arg17 main_v51 (broadcastInDim S1x1 ![1] bcast_S1_S1x1_1 : (⟨S1, .f32⟩ : BufTy).Contents (Elt F) → (⟨S1x1, .f32⟩ : BufTy).Contents (Elt F)),
    StableHlo.unary main_v51 main_v52 (broadcastInDim S256x1 ![0, 1] bcast_S1x1_S256x1_0_1 : (⟨S1x1, .f32⟩ : BufTy).Contents (Elt F) → (⟨S256x1, .f32⟩ : BufTy).Contents (Elt F)),
    StableHlo.binary main_v50 main_v52 main_v53 (addf : (⟨S256x1, .f32⟩ : BufTy).Contents (Elt F) → (⟨S256x1, .f32⟩ : BufTy).Contents (Elt F) → (⟨S256x1, .f32⟩ : BufTy).Contents (Elt F)),
    StableHlo.reshape main_v53 main_v54 rfl shapeCasts_S256x1_S256 ]

set_option maxRecDepth 8192 in
set_option maxHeartbeats 4000000 in
/-- The program is that straight line: the callees' bodies unfolded at their calls, sequencing reassociated. -/
theorem main_eq (c : Dev nD) : main (F := F) c = StableHlo.seq ops := by
  simp only [main, fn_leaky_relu.body, fn_leaky_relu_0.body, fn_where.body, fn_where_1.body, StableHlo.seq, bind_assoc, pure_bind]

/-- The program scopes no buffer: every one holds a tensor value of the straight line. -/
theorem scopedRefs_eq : (Finset.univ.filter fun b : Ref sig .tc => b.isScoped) = ∅ := by decide
/-- It has no semaphore, so none is scoped. -/
theorem scopedSems_eq : (Finset.univ.filter fun sm : SemLoc sig => sm.isScoped .tc) = ∅ := by decide

set_option maxRecDepth 8192 in
/-- Every operation touches buffers of the one core only. -/
theorem ops_sub : (ops : List (HloOp τ sig (Elt F))).Forall fun op => op.bufs ⊆ StableHlo.tcRefs τ sig :=
  ⟨StableHlo.binary_bufs_sub .., StableHlo.unary_bufs_sub .., StableHlo.unary_bufs_sub .., StableHlo.binary_bufs_sub .., StableHlo.nullary_bufs_sub .., StableHlo.unary_bufs_sub ..,
    StableHlo.binary_bufs_sub .., StableHlo.nullary_bufs_sub .., StableHlo.unary_bufs_sub .., StableHlo.binary_bufs_sub .., StableHlo.ternary_bufs_sub .., StableHlo.binary_bufs_sub ..,
    StableHlo.unary_bufs_sub .., StableHlo.unary_bufs_sub .., StableHlo.binary_bufs_sub .., StableHlo.nullary_bufs_sub .., StableHlo.unary_bufs_sub .., StableHlo.binary_bufs_sub ..,
    StableHlo.nullary_bufs_sub .., StableHlo.unary_bufs_sub .., StableHlo.binary_bufs_sub .., StableHlo.ternary_bufs_sub .., StableHlo.binary_bufs_sub .., StableHlo.unary_bufs_sub ..,
    StableHlo.unary_bufs_sub .., StableHlo.binary_bufs_sub .., StableHlo.nullary_bufs_sub .., StableHlo.unary_bufs_sub .., StableHlo.binary_bufs_sub .., StableHlo.nullary_bufs_sub ..,
    StableHlo.unary_bufs_sub .., StableHlo.binary_bufs_sub .., StableHlo.ternary_bufs_sub .., StableHlo.binary_bufs_sub .., StableHlo.unary_bufs_sub .., StableHlo.unary_bufs_sub ..,
    StableHlo.binary_bufs_sub .., StableHlo.nullary_bufs_sub .., StableHlo.unary_bufs_sub .., StableHlo.binary_bufs_sub .., StableHlo.nullary_bufs_sub .., StableHlo.unary_bufs_sub ..,
    StableHlo.binary_bufs_sub .., StableHlo.ternary_bufs_sub .., StableHlo.binary_bufs_sub .., StableHlo.unary_bufs_sub .., StableHlo.unary_bufs_sub .., StableHlo.binary_bufs_sub ..,
    StableHlo.unary_bufs_sub .., StableHlo.unary_bufs_sub .., StableHlo.nullary_bufs_sub .., StableHlo.unary_bufs_sub .., StableHlo.binary_bufs_sub .., StableHlo.nullary_bufs_sub ..,
    StableHlo.unary_bufs_sub .., StableHlo.binary_bufs_sub .., StableHlo.reshape_bufs_sub .., StableHlo.unary_bufs_sub .., StableHlo.unary_bufs_sub .., StableHlo.nullary_bufs_sub ..,
    StableHlo.unary_bufs_sub .., StableHlo.binary_bufs_sub .., StableHlo.nullary_bufs_sub .., StableHlo.unary_bufs_sub .., StableHlo.binary_bufs_sub .., StableHlo.ternary_bufs_sub ..,
    StableHlo.unary_bufs_sub .., StableHlo.binary_bufs_sub .., StableHlo.binary_bufs_sub .., StableHlo.unary_bufs_sub .., StableHlo.unary_bufs_sub .., StableHlo.binary_bufs_sub ..,
    StableHlo.nullary_bufs_sub .., StableHlo.unary_bufs_sub .., StableHlo.binary_bufs_sub .., StableHlo.nullary_bufs_sub .., StableHlo.unary_bufs_sub .., StableHlo.binary_bufs_sub ..,
    StableHlo.ternary_bufs_sub .., StableHlo.binary_bufs_sub .., StableHlo.unary_bufs_sub .., StableHlo.unary_bufs_sub .., StableHlo.binary_bufs_sub .., StableHlo.nullary_bufs_sub ..,
    StableHlo.unary_bufs_sub .., StableHlo.binary_bufs_sub .., StableHlo.nullary_bufs_sub .., StableHlo.unary_bufs_sub .., StableHlo.binary_bufs_sub .., StableHlo.ternary_bufs_sub ..,
    StableHlo.binary_bufs_sub .., StableHlo.unary_bufs_sub .., StableHlo.unary_bufs_sub .., StableHlo.binary_bufs_sub .., StableHlo.reshape_bufs_sub ..⟩

/-- The buffers the operations write, in order: every buffer of the program but its eighteen arguments. -/
abbrev opsW : List (Ref sig .tc) :=
  [ main_v0, main_v1, main_v2, main_v3, main_call0.cst.ref, main_call0.v0.ref, main_call0.v1.ref, main_call0.cst_0.ref,
    main_call0.v2.ref, main_call0.v3.ref, main_call0.call0.v0.ref, main_v5, main_v6, main_v7, main_v8, main_call1.cst.ref,
    main_call1.v0.ref, main_call1.v1.ref, main_call1.cst_0.ref, main_call1.v2.ref, main_call1.v3.ref, main_call1.call0.v0.ref, main_v10, main_v11,
    main_v12, main_v13, main_call2.cst.ref, main_call2.v0.ref, main_call2.v1.ref, main_call2.cst_0.ref, main_call2.v2.ref, main_call2.v3.ref,
    main_call2.call0.v0.ref, main_v15, main_v16, main_v17, main_v18, main_call3.cst.ref, main_call3.v0.ref, main_call3.v1.ref,
    main_call3.cst_0.ref, main_call3.v2.ref, main_call3.v3.ref, main_call3.call0.v0.ref, main_v20, main_v21, main_v22, main_v23,
    main_v24, main_v25, main_cst, main_v26, main_v27, main_cst_0, main_v28, main_v29,
    main_v30, main_v31, main_v32, main_c, main_v33, main_v34, main_c_1, main_v35,
    main_v36, main_v37, main_v38, main_v39, main_v40, main_v41, main_v42, main_v43,
    main_call4.cst.ref, main_call4.v0.ref, main_call4.v1.ref, main_call4.cst_0.ref, main_call4.v2.ref, main_call4.v3.ref, main_call4.call0.v0.ref, main_v45,
    main_v46, main_v47, main_v48, main_call5.cst.ref, main_call5.v0.ref, main_call5.v1.ref, main_call5.cst_0.ref, main_call5.v2.ref,
    main_call5.v3.ref, main_call5.call0.v0.ref, main_v50, main_v51, main_v52, main_v53, main_v54 ]

set_option maxRecDepth 8192 in
/-- Each operation writes its one result buffer, which is in that list. -/
theorem ops_writes : (ops : List (HloOp τ sig (Elt F))).Forall fun op =>
    op.writes ⊆ (opsW.map (Proc.devRef (τ := τ) .tc)).toFinset := by
  simp only [List.Forall]
  refine ⟨?_, ?_, ?_, ?_, ?_, ?_, ?_, ?_, ?_, ?_, ?_, ?_, ?_, ?_, ?_, ?_, ?_, ?_, ?_,
    ?_, ?_, ?_, ?_, ?_, ?_, ?_, ?_, ?_, ?_, ?_, ?_, ?_, ?_, ?_, ?_, ?_, ?_, ?_,
    ?_, ?_, ?_, ?_, ?_, ?_, ?_, ?_, ?_, ?_, ?_, ?_, ?_, ?_, ?_, ?_, ?_, ?_, ?_,
    ?_, ?_, ?_, ?_, ?_, ?_, ?_, ?_, ?_, ?_, ?_, ?_, ?_, ?_, ?_, ?_, ?_, ?_, ?_,
    ?_, ?_, ?_, ?_, ?_, ?_, ?_, ?_, ?_, ?_, ?_, ?_, ?_, ?_, ?_, ?_, ?_, ?_, ?_⟩ <;>
    exact Finset.singleton_subset_iff.mpr (List.mem_toFinset.mpr (List.mem_map_of_mem (by decide)))

/-- A buffer outside that list keeps its contents through the whole line. -/
theorem keep (V : Valuation τ sig (Elt F)) (r : Ref sig .tc) (h : r ∉ opsW) :
    StableHlo.after ops V (Proc.devRef .tc r) = V (Proc.devRef .tc r) :=
  StableHlo.after_of_writes_sub ops V ops_writes h

-- Each result buffer after the line holds the fold of the operations' results read at it: the operations composed, which
-- is the stated term by computation (a call's casts between a value's type and its buffer's are the identity at these
-- buffers). No operation writes an argument, so each keeps its contents.
set_option maxRecDepth 8192 in
set_option maxHeartbeats 32000000 in
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread Cert.ReferenceIdeal.nD Cert.ReferenceIdeal.τ).loc Cert.ReferenceIdeal.main_v32) = RTerms.ROut (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))
      ∧ r.2.mem ((c.tc : Thread Cert.ReferenceIdeal.nD Cert.ReferenceIdeal.τ).loc Cert.ReferenceIdeal.main_v54) = RTerms.RTime (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)) :=
  (θ_run (defs (F := Ideal)) _ _).mono (fun _ h c => ⟨(h c main_v32).trans (by after_results_simp <;> rfl),
      (h c main_v54).trans (by after_results_simp <;> rfl),
      (h c main_arg0).trans (keep _ main_arg0 (by decide)),
      (h c main_arg1).trans (keep _ main_arg1 (by decide)),
      (h c main_arg2).trans (keep _ main_arg2 (by decide)),
      (h c main_arg3).trans (keep _ main_arg3 (by decide)),
      (h c main_arg4).trans (keep _ main_arg4 (by decide)),
      (h c main_arg5).trans (keep _ main_arg5 (by decide)),
      (h c main_arg6).trans (keep _ main_arg6 (by decide)),
      (h c main_arg7).trans (keep _ main_arg7 (by decide)),
      (h c main_arg8).trans (keep _ main_arg8 (by decide)),
      (h c main_arg9).trans (keep _ main_arg9 (by decide)),
      (h c main_arg10).trans (keep _ main_arg10 (by decide)),
      (h c main_arg11).trans (keep _ main_arg11 (by decide)),
      (h c main_arg12).trans (keep _ main_arg12 (by decide)),
      (h c main_arg13).trans (keep _ main_arg13 (by decide)),
      (h c main_arg14).trans (keep _ main_arg14 (by decide)),
      (h c main_arg15).trans (keep _ main_arg15 (by decide)),
      (h c main_arg16).trans (keep _ main_arg16 (by decide)),
      (h c main_arg17).trans (keep _ main_arg17 (by decide))⟩)
    (StableHlo.run_seq scopedRefs_eq scopedSems_eq defs main (fun _ => ops) main_eq (fun _ => ops_sub) m ρ)

end Cert.ReferenceIdeal.RRun

end
-- ==== Proof.RValue.lean ====
/-
  The reference's first result, read entry by entry, is the row map of `Cert.Spec`: at (b, n) the four hidden layers,
  the read-out and the logistic function of row n of the node array. Each host product is a sum over the contracted
  coordinate; the biases are spread over the rows; the reference's 1 / (1 + exp(−v)) is the logistic function.
-/
import proofs.«163596_j83107617178205_1_alg».proof.Proof.RTerms
import proofs.«163596_j83107617178205_1_alg».proof.Proof.Spec
import proofs.«163596_j83107617178205_1_alg».proof.Proof.LibPlainDot
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.RValue

open Idealize.ShloMosaic Idealize.ShloMosaic.ValueIdx Cert.ReferenceIdeal

variable [Facts]

/-- The f32 word 0x3F800000 is the number 1. -/
theorem one_word : Ideal.ofBits .f32 0x3F800000#32 = 1 := by
  simp [Ideal.ofBits, Ideal.ieee, -EReal.coe_mul]; norm_num

/-- Row `n` of a node-sized array, as a function of the column. -/
def row (x : FVec Ideal S50000x128 .f32) (n : Fin 50000) : Fin 128 → EReal := fun k => x (ix2 n k)

/-- The leaky rectifier on an array acts entry by entry. -/
theorem lreluN_apply (x : FVec Ideal S50000x128 .f32) (i : S50000x128.Idx) :
    RTerms.lreluN x i = Cert.Spec.lrelu (x i) := by
  unfold RTerms.lreluN Cert.Spec.lrelu
  rw [select_apply, cmpf_apply, mulf_apply]
  -- both constants are spread from a scalar, so they read their word at every index
  show Scalar.select (Ideal.cmp .oge (x i) (Ideal.ofBits .f32 0x00000000#32)) (x i) (Ideal.ofBits .f32 0x3C23D70A#32 * x i) = _
  by_cases h : Ideal.cmp .oge (x i) (Ideal.ofBits .f32 0x00000000#32) = 1
  · rw [if_pos h, h]; exact select_one _ _
  · rw [if_neg h, eq_zero_of_ne_one h]; exact select_zero _ _

/-- A linear layer at (n, j): the inner product of row n with column j of the weights, plus the j-th bias. -/
theorem linN_apply (x : FVec Ideal S50000x128 .f32) (W : FVec Ideal S128x128 .f32) (b : FVec Ideal S128 .f32)
    (n : Fin 50000) (j : Fin 128) :
    RTerms.linN x W b (ix2 n j) = (∑ k : Fin 128, x (ix2 n k) * W (ix2 k j)) + b (ix1 j) := by
  unfold RTerms.linN
  rw [addf_apply,
    LibPlainDot.dotGeneral_apply_of_plain dot_S50000x128_S128x128_S50000x128_1_0_0_1_n_n rfl none x W n j]
  congr 1
  -- the bias: first spread over the 50000 rows (the operand's one row is read), then the row [1,128] is the vector
  refine (broadcastInDim_apply _ _ _ (ix2 n j) (ix2 (0 : Fin 1) j) fun a => ?_).trans ?_
  · match a with
    | ⟨0, _⟩ => rfl
    | ⟨1, _⟩ => rfl
  · refine broadcastInDim_apply _ _ _ (ix2 (0 : Fin 1) j) (ix1 j) fun a => ?_
    match a with
    | ⟨0, _⟩ => rfl

/-- One hidden layer of the reference, read on row n, is the specification's layer of that row. -/
theorem layerN_row (x : FVec Ideal S50000x128 .f32) (W : FVec Ideal S128x128 .f32) (b : FVec Ideal S128 .f32)
    (n : Fin 50000) :
    row (RTerms.lreluN (RTerms.linN x W b)) n
      = Cert.Spec.layer (fun k j => W (ix2 k j)) (fun j => b (ix1 j)) (row x n) := by
  funext j
  show RTerms.lreluN (RTerms.linN x W b) (ix2 n j) = _
  rw [lreluN_apply, linN_apply]
  rfl

/-- The read-out at (n, 0): the inner product of row n with the weight column, plus the bias. -/
theorem logitN_apply (h : FVec Ideal S50000x128 .f32) (w5 : FVec Ideal S128x1 .f32) (b5 : FVec Ideal S1 .f32)
    (n : Fin 50000) :
    RTerms.logitN h w5 b5 (ix2 n (0 : Fin 1))
      = Cert.Spec.logit (fun k => w5 (ix2 k (0 : Fin 1))) (b5 (ix1 (0 : Fin 1))) (row h n) := by
  unfold RTerms.logitN Cert.Spec.logit
  rw [addf_apply,
    LibPlainDot.dotGeneral_apply_of_plain dot_S50000x128_S128x1_S50000x1_1_0_0_1_n_n rfl none h w5 n (0 : Fin 1)]
  congr 1
  refine (broadcastInDim_apply _ _ _ (ix2 n (0 : Fin 1)) (ix2 (0 : Fin 1) (0 : Fin 1)) fun a => ?_).trans ?_
  · match a with
    | ⟨0, _⟩ => rfl
    | ⟨1, _⟩ => rfl
  · refine broadcastInDim_apply _ _ _ (ix2 (0 : Fin 1) (0 : Fin 1)) (ix1 (0 : Fin 1)) fun a => ?_
    match a with
    | ⟨0, _⟩ => rfl

/-- The reference's 1 / (1 + exp(−v)) is the logistic function, entry by entry. -/
theorem sigmoidN_apply (v : FVec Ideal S50000x1 .f32) (i : S50000x1.Idx) :
    RTerms.sigmoidN v i = Ideal.logistic (v i) := by
  unfold RTerms.sigmoidN
  show FloatOps.hostDivf (Ideal.ofBits .f32 0x3F800000#32)
      (FloatOps.addf (Ideal.ofBits .f32 0x3F800000#32) (FloatOps.hostUnary .exp (FloatOps.hostNegf (v i)))) = _
  rw [one_word]
  rfl

/-- The column [50000,1] flattened, laid as a row and spread over the 256 rows reads, at (b, n), the column at (n, 0). -/
theorem spread_apply (Y : FVec Ideal S50000x1 .f32) (b : Fin 256) (n : Fin 50000) :
    broadcastInDim S256x50000 ![0, 1] Facts₀.bcast_S1x50000_S256x50000_0_1
      (broadcastInDim S1x50000 ![1] Facts₀.bcast_S50000_S1x50000_1
        (shapeCast S50000 Y Facts₀.shapeCasts_S50000x1_S50000)) (ix2 b n) = Y (ix2 n (0 : Fin 1)) := by
  refine (broadcastInDim_apply _ _ _ (ix2 b n) (ix2 (0 : Fin 1) n) fun a => ?_).trans ?_
  · match a with
    | ⟨0, _⟩ => rfl
    | ⟨1, _⟩ => rfl
  refine (broadcastInDim_apply _ _ _ (ix2 (0 : Fin 1) n) (ix1 n) fun a => ?_).trans ?_
  · match a with
    | ⟨0, _⟩ => rfl
  -- the flattening keeps the row-major position: n·1 + 0 = n
  refine shapeCast_apply Y _ (ix1 n) (ix2 n (0 : Fin 1)) ?_
  rw [Shape.rowMajor_val_two, Shape.rowMajor_val_one]
  show n.val * 1 + 0 = n.val
  omega

/-- The four hidden layers, read on row n. -/
theorem hiddenN_row (z : FVec Ideal S50000x128 .f32) (W1 : FVec Ideal S128x128 .f32) (b1 : FVec Ideal S128 .f32)
    (W2 : FVec Ideal S128x128 .f32) (b2 : FVec Ideal S128 .f32) (W3 : FVec Ideal S128x128 .f32) (b3 : FVec Ideal S128 .f32)
    (W4 : FVec Ideal S128x128 .f32) (b4 : FVec Ideal S128 .f32) (n : Fin 50000) :
    row (RTerms.hiddenN z W1 b1 W2 b2 W3 b3 W4 b4) n
      = Cert.Spec.layer (fun k j => W4 (ix2 k j)) (fun j => b4 (ix1 j))
          (Cert.Spec.layer (fun k j => W3 (ix2 k j)) (fun j => b3 (ix1 j))
            (Cert.Spec.layer (fun k j => W2 (ix2 k j)) (fun j => b2 (ix1 j))
              (Cert.Spec.layer (fun k j => W1 (ix2 k j)) (fun j => b1 (ix1 j)) (row z n)))) := by
  unfold RTerms.hiddenN
  rw [layerN_row, layerN_row, layerN_row, layerN_row]

theorem ROut_eq (z : FVec Ideal S50000x128 .f32) (W1 : FVec Ideal S128x128 .f32) (b1 : FVec Ideal S128 .f32)
    (W2 : FVec Ideal S128x128 .f32) (b2 : FVec Ideal S128 .f32) (W3 : FVec Ideal S128x128 .f32) (b3 : FVec Ideal S128 .f32)
    (W4 : FVec Ideal S128x128 .f32) (b4 : FVec Ideal S128 .f32) (w5 : FVec Ideal S128x1 .f32) (b5 : FVec Ideal S1 .f32) :
    RTerms.ROut z W1 b1 W2 b2 W3 b3 W4 b4 w5 b5 = Cert.Spec.probArr z W1 b1 W2 b2 W3 b3 W4 b4 w5 b5 := by
  refine Cert.Spec.eq_probArr z W1 b1 W2 b2 W3 b3 W4 b4 w5 b5 _ fun b n => ?_
  unfold RTerms.ROut
  rw [spread_apply, sigmoidN_apply, logitN_apply, hiddenN_row]
  rfl

end Cert.ReferenceIdeal.RValue

end
-- ==== Proof.TimeEq.lean ====
/-
  The second result: the two programs apply the same host operations to the same arguments (the rows picked by the
  event indices, two layers, a read-out), so their terms are one term.
-/
import proofs.«163596_j83107617178205_1_alg».proof.Proof.RTerms
import proofs.«163596_j83107617178205_1_alg».proof.Proof.KTerms

noncomputable section

namespace Cert.TimeEq

open Idealize.ShloMosaic

variable [Cert.KernelIdeal.Facts] [Cert.ReferenceIdeal.Facts]

theorem RTime_eq (z : FVec Ideal Cert.ReferenceIdeal.S50000x128 .f32) (u : IVec Cert.ReferenceIdeal.S256 32)
    (T1 : FVec Ideal Cert.ReferenceIdeal.S128x128 .f32) (c1 : FVec Ideal Cert.ReferenceIdeal.S128 .f32)
    (T2 : FVec Ideal Cert.ReferenceIdeal.S128x128 .f32) (c2 : FVec Ideal Cert.ReferenceIdeal.S128 .f32)
    (t3 : FVec Ideal Cert.ReferenceIdeal.S128x1 .f32) (c3 : FVec Ideal Cert.ReferenceIdeal.S1 .f32) :
    Cert.ReferenceIdeal.RTerms.RTime z u T1 c1 T2 c2 t3 c3 = Cert.KernelIdeal.KTerms.KTime (F := Ideal) z u T1 c1 T2 c2 t3 c3 := by
  rfl

end Cert.TimeEq

end
-- ==== Proof.lean ====
/-
  The certificate of the claim: a kernel that sends every row of the node array through four leaky-rectified layers, a
  read-out and the logistic function, spreads the resulting row over 256 result rows, and beside it a small host
  network on the rows picked by the event indices, against the plain reference.

  Over the extended reals the two programs compute one function. For the first result both sides are, at (b, n), the
  row map of `Cert.Spec` on row n of the node array: the kernel's narrowed weights are the weights, its product with
  the last weights written as a row is the reference's product with the column (multiplication commutes), and the
  kernel's logistic operation is the reference's 1 / (1 + exp(−v)). The kernel reads the node array in blocks of 2560
  rows, the last of which runs past the array's end; the rows past the end only feed result columns past the end, which
  are never written back. The second result is the same host operations on the same arguments in both programs.
  The frames: the word-level program's says nothing of the result block; the idealized program's and the
  reference's are their value runs with the results dropped. No rewrite was applied in printing the idealized
  program, so there is nothing to preserve.
-/
import proofs.«163596_j83107617178205_1_alg».proof.Defs
import proofs.«163596_j83107617178205_1_alg».proof.Proof.Gen.Kernel
import proofs.«163596_j83107617178205_1_alg».proof.Proof.Gen.KernelIdeal
import proofs.«163596_j83107617178205_1_alg».proof.Proof.Gen.ReferenceIdeal
import proofs.«163596_j83107617178205_1_alg».proof.Proof.Gen.Pre_finite_inputs
import proofs.«163596_j83107617178205_1_alg».proof.Proof.BFrame
import proofs.«163596_j83107617178205_1_alg».proof.Proof.KRun
import proofs.«163596_j83107617178205_1_alg».proof.Proof.RRun
import proofs.«163596_j83107617178205_1_alg».proof.Proof.RValue
import proofs.«163596_j83107617178205_1_alg».proof.Proof.TimeEq
import Idealize.ShloMosaic.Adequacy
import Idealize.ShloMosaic.Init

noncomputable section

namespace Cert.Proof

open Idealize.ShloMosaic Idealize.SL.Sem

/-- The word-level program's frame. -/
theorem frame_k : Cert.frame_Kernel (hKernel := Cert.Kernel.Gen.facts) (hPre_finite_inputs := Cert.Pre_finite_inputs.Gen.facts) :=
  fun m ρ _ => Cert.Kernel.BFrame.frame (F := Bits) m ρ

/-- The idealized program's frame: its value run, the results dropped. -/
theorem frame_ki : Cert.frame_KernelIdeal (hKernelIdeal := Cert.KernelIdeal.Gen.facts) (hPre_finite_inputs := Cert.Pre_finite_inputs.Gen.facts) :=
  fun m ρ _ => (θ_run Cert.KernelIdeal.defs _ _).mono (fun _ h c => (h c).2.2) (Cert.KernelIdeal.KRun.run m ρ)

/-- The reference's frame: its value run, the results dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2) (Cert.ReferenceIdeal.RRun.run m ρ)

/-- The two value runs end at one pair of results: the first is `Cert.Spec.probArr` of the arguments on both sides,
    the second the shared host network of the arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, _, Cert.KernelIdeal.KRun.run m ρ, ?_⟩
  refine (θ_run Cert.ReferenceIdeal.defs _ _).mono (fun r h c => ⟨?_, ?_, (h c).2.2⟩) (Cert.ReferenceIdeal.RRun.run m' ρ')
  · obtain ⟨e0, e1, e2, e3, e4, e5, e6, e7, e8, e9, e10, e11, e12, e13, e14, e15, e16, e17⟩ := hagree c
    rw [(h c).1, Cert.ReferenceIdeal.RValue.ROut_eq, e0, e2, e3, e4, e5, e6, e7, e8, e9, e10, e11]
  · obtain ⟨e0, e1, e2, e3, e4, e5, e6, e7, e8, e9, e10, e11, e12, e13, e14, e15, e16, e17⟩ := hagree c
    rw [(h c).2.1, Cert.TimeEq.RTime_eq, e0, e1, e12, e13, e14, e15, e16, e17]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
